-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v77)) (v1 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_v76) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S2x600000 : Shape := ⟨2, ![2, 600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg7 : FVec F S128x128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  main_v38

def fn_part1 {F : FTy → Type} [FloatOps F] (main_arg4 : FVec F S128x128 .f32) (main_arg5 : FVec F S128x128 .f32) (main_arg6 : FVec F S128x128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_v33

def fn {F : FTy → Type} [FloatOps F] (main_arg0 : FVec F S50000x128 .f32) (main_arg1 : FVec F S50000x128 .f32) (main_arg2 : FVec F S128x128 .f32) (main_arg3 : FVec F S128x128 .f32) (main_arg4 : FVec F S128x128 .f32) (main_arg5 : FVec F S128x128 .f32) (main_arg6 : FVec F S128x128 .f32) (main_arg7 : FVec F S128x128 .f32) (main_arg8 : IVec S2x600000 32) (main_arg9 : IVec S2x600000 32) (main_arg10 : IVec S2x600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_v13 main_v16
-- ==== Kernel.lean ====
abbrev S50000x128 : Shape := ⟨2, ![50000, 128]⟩
abbrev S128x128 : Shape := ⟨2, ![128, 128]⟩
abbrev S2x600000 : Shape := ⟨2, ![2, 600000]⟩
abbrev S128x512 : Shape := ⟨2, ![128, 512]⟩
abbrev S128x256 : Shape := ⟨2, ![128, 256]⟩
abbrev S50000x512 : Shape := ⟨2, ![50000, 512]⟩
abbrev S5000x128 : Shape := ⟨2, ![5000, 128]⟩
abbrev S5000x512 : Shape := ⟨2, ![5000, 512]⟩
abbrev S50000x256 : Shape := ⟨2, ![50000, 256]⟩
abbrev S5000x256 : Shape := ⟨2, ![5000, 256]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩

abbrev nBuf : Space → Nat
  | .hbm => 107
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S2x600000, .i32⟩
  | .hbm, ⟨9, _⟩ => ⟨S2x600000, .i32⟩
  | .hbm, ⟨10, _⟩ => ⟨S2x600000, .i32⟩
  | .hbm, ⟨11, _⟩ => ⟨S128x512, .f32⟩
  | .hbm, ⟨12, _⟩ => ⟨S128x256, .f32⟩
  | .hbm, ⟨13, _⟩ => ⟨S50000x512, .f32⟩
  | .hbm, ⟨14, _⟩ => ⟨S50000x256, .f32⟩
  | .hbm, ⟨15, _⟩ => ⟨S50000x128, .f32⟩
  | .hbm, ⟨16, _⟩ => ⟨S50000x128, .f32⟩
  | .hbm, ⟨17, _⟩ => ⟨S50000x128, .f32⟩
  | .hbm, ⟨18, _⟩ => ⟨S50000x128, .f32⟩
  | .hbm, ⟨19, _⟩ => ⟨S50000x128, .f32⟩
  | .hbm, ⟨20, _⟩ => ⟨S50000x128, .f32⟩
  | .hbm, ⟨21, _⟩ => ⟨S1x600000, .i32⟩
  | .hbm, ⟨22, _⟩ => ⟨S600000, .i32⟩
  | .hbm, ⟨23, _⟩ => ⟨S_, .i32⟩
  | .hbm, ⟨24, _⟩ => ⟨S600000, .i32⟩
  | .hbm, ⟨25, _⟩ => ⟨S600000, .i1⟩
  | .hbm, ⟨26, _⟩ => ⟨S_, .i32⟩
  | .hbm, ⟨27, _⟩ => ⟨S600000, .i32⟩
  | .hbm, ⟨28, _⟩ => ⟨S600000, .i32⟩
  | .hbm, ⟨29, _⟩ => ⟨S600000, .i32⟩
  | .hbm, ⟨30, _⟩ => ⟨S600000x1, .i32⟩
  | .hbm, ⟨31, _⟩ => ⟨S600000x128, .f32⟩
  | .hbm, ⟨32, _⟩ => ⟨S1x600000, .i32⟩
  | .hbm, ⟨33, _⟩ => ⟨S600000, .i32⟩
  | .hbm, ⟨34, _⟩ => ⟨S_, .f32⟩
  | .hbm, ⟨35, _⟩ => ⟨S50000x128, .f32⟩
  | .hbm, ⟨36, _⟩ => ⟨S600000x1, .i32⟩
  | .hbm, ⟨37, _⟩ => ⟨S50000x128, .f32⟩
  | .hbm, ⟨38, _⟩ => ⟨S_, .f32⟩
  | .hbm, ⟨39, _⟩ => ⟨S600000x1, .f32⟩
  | .hbm, ⟨40, _⟩ => ⟨S_, .f32⟩
  | .hbm, ⟨41, _⟩ => ⟨S50000x1, .f32⟩
  | .hbm, ⟨42, _⟩ => ⟨S600000x1, .i32⟩
  | .hbm, ⟨43, _⟩ => ⟨S50000x1, .f32⟩
  | .hbm, ⟨44, _⟩ => ⟨S_, .f32⟩
  | .hbm, ⟨45, _⟩ => ⟨S50000x1, .f32⟩
  | .hbm, ⟨46, _⟩ => ⟨S50000x1, .f32⟩
  | .hbm, ⟨47, _⟩ => ⟨S50000x128, .f32⟩
  | .hbm, ⟨48, _⟩ => ⟨S50000x128, .f32⟩
  | .hbm, ⟨49, _⟩ => ⟨S1x600000, .i32⟩
  | .hbm, ⟨50, _⟩ => ⟨S600000, .i32⟩
  | .hbm, ⟨51, _⟩ => ⟨S_, .i32⟩
  | .hbm, ⟨52, _⟩ => ⟨S600000, .i32⟩
  | .hbm, ⟨53, _⟩ => ⟨S600000, .i1⟩
  | .hbm, ⟨54, _⟩ => ⟨S_, .i32⟩
  | .hbm, ⟨55, _⟩ => ⟨S600000, .i32⟩
  | .hbm, ⟨56, _⟩ => ⟨S600000, .i32⟩
  | .hbm, ⟨57, _⟩ => ⟨S600000, .i32⟩
  | .hbm, ⟨58, _⟩ => ⟨S600000x1, .i32⟩
  | .hbm, ⟨59, _⟩ => ⟨S600000x128, .f32⟩
  | .hbm, ⟨60, _⟩ => ⟨S1x600000, .i32⟩
  | .hbm, ⟨61, _⟩ => ⟨S600000, .i32⟩
  | .hbm, ⟨62, _⟩ => ⟨S_, .f32⟩
  | .hbm, ⟨63, _⟩ => ⟨S50000x128, .f32⟩
  | .hbm, ⟨64, _⟩ => ⟨S600000x1, .i32⟩
  | .hbm, ⟨65, _⟩ => ⟨S50000x128, .f32⟩
  | .hbm, ⟨66, _⟩ => ⟨S_, .f32⟩
  | .hbm, ⟨67, _⟩ => ⟨S600000x1, .f32⟩
  | .hbm, ⟨68, _⟩ => ⟨S_, .f32⟩
  | .hbm, ⟨69, _⟩ => ⟨S50000x1, .f32⟩
  | .hbm, ⟨70, _⟩ => ⟨S600000x1, .i32⟩
  | .hbm, ⟨71, _⟩ => ⟨S50000x1, .f32⟩
  | .hbm, ⟨72, _⟩ => ⟨S_, .f32⟩
  | .hbm, ⟨73, _⟩ => ⟨S50000x1, .f32⟩
  | .hbm, ⟨74, _⟩ => ⟨S50000x1, .f32⟩
  | .hbm, ⟨75, _⟩ => ⟨S50000x128, .f32⟩
  | .hbm, ⟨76, _⟩ => ⟨S50000x128, .f32⟩
  | .hbm, ⟨77, _⟩ => ⟨S1x600000, .i32⟩
  | .hbm, ⟨78, _⟩ => ⟨S600000, .i32⟩
  | .hbm, ⟨79, _⟩ => ⟨S_, .i32⟩
  | .hbm, ⟨80, _⟩ => ⟨S600000, .i32⟩
  | .hbm, ⟨81, _⟩ => ⟨S600000, .i1⟩
  | .hbm, ⟨82, _⟩ => ⟨S_, .i32⟩
  | .hbm, ⟨83, _⟩ => ⟨S600000, .i32⟩
  | .hbm, ⟨84, _⟩ => ⟨S600000, .i32⟩
  | .hbm, ⟨85, _⟩ => ⟨S600000, .i32⟩
  | .hbm, ⟨86, _⟩ => ⟨S600000x1, .i32⟩
  | .hbm, ⟨87, _⟩ => ⟨S600000x128, .f32⟩
  | .hbm, ⟨88, _⟩ => ⟨S1x600000, .i32⟩
  | .hbm, ⟨89, _⟩ => ⟨S600000, .i32⟩
  | .hbm, ⟨90, _⟩ => ⟨S_, .f32⟩
  | .hbm, ⟨91, _⟩ => ⟨S50000x128, .f32⟩
  | .hbm, ⟨92, _⟩ => ⟨S600000x1, .i32⟩
  | .hbm, ⟨93, _⟩ => ⟨S50000x128, .f32⟩
  | .hbm, ⟨94, _⟩ => ⟨S_, .f32⟩
  | .hbm, ⟨95, _⟩ => ⟨S600000x1, .f32⟩
  | .hbm, ⟨96, _⟩ => ⟨S_, .f32⟩
  | .hbm, ⟨97, _⟩ => ⟨S50000x1, .f32⟩
  | .hbm, ⟨98, _⟩ => ⟨S600000x1, .i32⟩
  | .hbm, ⟨99, _⟩ => ⟨S50000x1, .f32⟩
  | .hbm, ⟨100, _⟩ => ⟨S_, .f32⟩
  | .hbm, ⟨101, _⟩ => ⟨S50000x1, .f32⟩
  | .hbm, ⟨102, _⟩ => ⟨S50000x1, .f32⟩
  | .hbm, ⟨103, _⟩ => ⟨S50000x128, .f32⟩
  | .hbm, ⟨104, _⟩ => ⟨S50000x128, .f32⟩
  | .hbm, ⟨105, _⟩ => ⟨S50000x128, .f32⟩
  | .hbm, ⟨106, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x512, .f32⟩
  | .local _ .vmem, ⟨3, _⟩ => ⟨S5000x512, .f32⟩
  | .local _ .vmem, ⟨4, _⟩ => ⟨S5000x512, .f32⟩
  | .local _ .vmem, ⟨5, _⟩ => ⟨S5000x128, .f32⟩
  | .local _ .vmem, ⟨6, _⟩ => ⟨S5000x128, .f32⟩
  | .local _ .vmem, ⟨7, _⟩ => ⟨S128x256, .f32⟩
  | .local _ .vmem, ⟨8, _⟩ => ⟨S5000x256, .f32⟩
  | .local _ .vmem, ⟨9, _⟩ => ⟨S5000x256, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_1 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_4 : Ref sig .tc := ⟨.hbm, 51, rfl⟩
abbrev main_v34 : Ref sig .tc := ⟨.hbm, 52, rfl⟩
abbrev main_v35 : Ref sig .tc := ⟨.hbm, 53, rfl⟩
abbrev main_c_5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_6 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_7 : Ref sig .tc := ⟨.hbm, 66, rfl⟩
abbrev main_v46 : Ref sig .tc := ⟨.hbm, 67, rfl⟩
abbrev main_cst_8 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_10 : Ref sig .tc := ⟨.hbm, 79, rfl⟩
abbrev main_v56 : Ref sig .tc := ⟨.hbm, 80, rfl⟩
abbrev main_v57 : Ref sig .tc := ⟨.hbm, 81, rfl⟩
abbrev main_c_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_12 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_13 : Ref sig .tc := ⟨.hbm, 94, rfl⟩
abbrev main_v68 : Ref sig .tc := ⟨.hbm, 95, rfl⟩
abbrev main_cst_14 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_15 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc3_stg3_0 : Ref sig .tc := ⟨.vmem, 22, rfl⟩
abbrev cc3_stg3_1 : Ref sig .tc := ⟨.vmem, 23, rfl⟩
abbrev cc3_stg4_0 : Ref sig .tc := ⟨.vmem, 24, rfl⟩
abbrev cc3_stg4_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc3_sem3_0 : DmaSem sig := 22
abbrev cc3_sem3_1 : DmaSem sig := 23
abbrev cc3_sem4_0 : DmaSem sig := 24
abbrev cc3_sem4_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  concatenates_S128x128_S128x128_S128x128_S128x128_S128x512_d1 : Shape.Concatenates [S128x128, S128x128, S128x128, S128x128] S128x512 1
  concatenates_S128x128_S128x128_S128x256_d1 : Shape.Concatenates [S128x128, S128x128] S128x256 1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S5000x512_S5000x512_0_0 : ∀ a, (![0, 0] : Fin 2 → Nat) a + S5000x512.size a ≤ S5000x512.size a
  h_S5000x512 : 0 < S5000x512.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S5000x256_S5000x256_0_0 : ∀ a, (![0, 0] : Fin 2 → Nat) a + S5000x256.size a ≤ S5000x256.size a
  h_S5000x256 : 0 < S5000x256.numel
  slices_S50000x512_S50000x128_0_0 : S50000x512.Slices ![0, 0] S50000x128
  slices_S50000x512_S50000x128_0_128 : S50000x512.Slices ![0, 128] S50000x128
  slices_S50000x512_S50000x128_0_256 : S50000x512.Slices ![0, 256] S50000x128
  slices_S50000x512_S50000x128_0_384 : S50000x512.Slices ![0, 384] S50000x128
  slices_S50000x256_S50000x128_0_0 : S50000x256.Slices ![0, 0] S50000x128
  slices_S50000x256_S50000x128_0_128 : S50000x256.Slices ![0, 128] S50000x128
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  bcast_S600000_S600000x1_0 : S600000.BroadcastsInDim S600000x1 (![0] : Fin 1 → Fin S600000x1.rank)
  slices_S2x600000_S1x600000_1_0 : S2x600000.Slices ![1, 0] S1x600000
  bcast_S_S50000x128 : S_.BroadcastsInDim S50000x128 (![] : Fin 0 → Fin S50000x128.rank)
  bcast_S_S600000x1 : S_.BroadcastsInDim S600000x1 (![] : Fin 0 → Fin S600000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  shapeCasts_S5000x128_S5000x128 : S5000x128.ShapeCasts S5000x128
  dot_S5000x128_S128x512_S5000x512_1_0_0_1_n_n_wf : DotDims.WF S5000x128 S128x512 S5000x512 [1] [0] [0] [1] [] []
  dot_S5000x128_S128x256_S5000x256_1_0_0_1_n_n_wf : DotDims.WF S5000x128 S128x256 S5000x256 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000x1_S600000x1_S600000x1_1_0_0_1_wf : ScatterDims.WF S50000x1 S600000x1 S600000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x512.size a ≤ S50000x512.size a
  hwx0_2 : ∀ i : grid0.Coords, EltTy.bits .f32 = 32 ∨ (Rect.block (s := S50000x512) S5000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S50000x256.size a
  hwx1_2 : ∀ i : grid1.Coords, EltTy.bits .f32 = 32 ∨ (Rect.block (s := S50000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)

variable [Facts₀]

def dot_S5000x128_S128x512_S5000x512_1_0_0_1_n_n : DotDims S5000x128 S128x512 S5000x512 where
  lhsContracting := [1]
  rhsContracting := [0]
  lhsNonContracting := [0]
  rhsNonContracting := [1]
  lhsBatch := []
  rhsBatch := []
  wf := dot_S5000x128_S128x512_S5000x512_1_0_0_1_n_n_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S5000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v9) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v76) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v5) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v7) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v75) S5000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v77) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S2x600000 : Shape := ⟨2, ![2, 600000]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩

abbrev nBuf : Space → Nat
  | .hbm => 123
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S2x600000, .i32⟩
  | .hbm, ⟨9, _⟩ => ⟨S2x600000, .i32⟩
  | .hbm, ⟨10, _⟩ => ⟨S2x600000, .i32⟩
  | .hbm, ⟨11, _⟩ => ⟨S50000x128, .f32⟩
  | .hbm, ⟨12, _⟩ => ⟨S50000x128, .f32⟩
  | .hbm, ⟨13, _⟩ => ⟨S1x600000, .i32⟩
  | .hbm, ⟨14, _⟩ => ⟨S600000, .i32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x128, .f32⟩
  | .hbm, ⟨24, _⟩ => ⟨S1x600000, .i32⟩
  | .hbm, ⟨25, _⟩ => ⟨S600000, .i32⟩
  | .hbm, ⟨26, _⟩ => ⟨S_, .f32⟩
  | .hbm, ⟨27, _⟩ => ⟨S50000x128, .f32⟩
  | .hbm, ⟨28, _⟩ => ⟨S600000x1, .i32⟩
  | .hbm, ⟨29, _⟩ => ⟨S50000x128, .f32⟩
  | .hbm, ⟨30, _⟩ => ⟨S_, .f32⟩
  | .hbm, ⟨31, _⟩ => ⟨S600000x1, .f32⟩
  | .hbm, ⟨32, _⟩ => ⟨S_, .f32⟩
  | .hbm, ⟨33, _⟩ => ⟨S50000x1, .f32⟩
  | .hbm, ⟨34, _⟩ => ⟨S600000x1, .i32⟩
  | .hbm, ⟨35, _⟩ => ⟨S50000x1, .f32⟩
  | .hbm, ⟨36, _⟩ => ⟨S_, .f32⟩
  | .hbm, ⟨37, _⟩ => ⟨S50000x1, .f32⟩
  | .hbm, ⟨38, _⟩ => ⟨S50000x1, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S1x600000, .i32⟩
  | .hbm, ⟨45, _⟩ => ⟨S600000, .i32⟩
  | .hbm, ⟨46, _⟩ => ⟨S_, .i32⟩
  | .hbm, ⟨47, _⟩ => ⟨S600000, .i32⟩
  | .hbm, ⟨48, _⟩ => ⟨S600000, .i1⟩
  | .hbm, ⟨49, _⟩ => ⟨S_, .i32⟩
  | .hbm, ⟨50, _⟩ => ⟨S600000, .i32⟩
  | .hbm, ⟨51, _⟩ => ⟨S600000, .i32⟩
  | .hbm, ⟨52, _⟩ => ⟨S600000, .i32⟩
  | .hbm, ⟨53, _⟩ => ⟨S600000x1, .i32⟩
  | .hbm, ⟨54, _⟩ => ⟨S600000x128, .f32⟩
  | .hbm, ⟨55, _⟩ => ⟨S1x600000, .i32⟩
  | .hbm, ⟨56, _⟩ => ⟨S600000, .i32⟩
  | .hbm, ⟨57, _⟩ => ⟨S_, .f32⟩
  | .hbm, ⟨58, _⟩ => ⟨S50000x128, .f32⟩
  | .hbm, ⟨59, _⟩ => ⟨S600000x1, .i32⟩
  | .hbm, ⟨60, _⟩ => ⟨S50000x128, .f32⟩
  | .hbm, ⟨61, _⟩ => ⟨S_, .f32⟩
  | .hbm, ⟨62, _⟩ => ⟨S600000x1, .f32⟩
  | .hbm, ⟨63, _⟩ => ⟨S_, .f32⟩
  | .hbm, ⟨64, _⟩ => ⟨S50000x1, .f32⟩
  | .hbm, ⟨65, _⟩ => ⟨S600000x1, .i32⟩
  | .hbm, ⟨66, _⟩ => ⟨S50000x1, .f32⟩
  | .hbm, ⟨67, _⟩ => ⟨S_, .f32⟩
  | .hbm, ⟨68, _⟩ => ⟨S50000x1, .f32⟩
  | .hbm, ⟨69, _⟩ => ⟨S50000x1, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S1x600000, .i32⟩
  | .hbm, ⟨76, _⟩ => ⟨S600000, .i32⟩
  | .hbm, ⟨77, _⟩ => ⟨S_, .i32⟩
  | .hbm, ⟨78, _⟩ => ⟨S600000, .i32⟩
  | .hbm, ⟨79, _⟩ => ⟨S600000, .i1⟩
  | .hbm, ⟨80, _⟩ => ⟨S_, .i32⟩
  | .hbm, ⟨81, _⟩ => ⟨S600000, .i32⟩
  | .hbm, ⟨82, _⟩ => ⟨S600000, .i32⟩
  | .hbm, ⟨83, _⟩ => ⟨S600000, .i32⟩
  | .hbm, ⟨84, _⟩ => ⟨S600000x1, .i32⟩
  | .hbm, ⟨85, _⟩ => ⟨S600000x128, .f32⟩
  | .hbm, ⟨86, _⟩ => ⟨S1x600000, .i32⟩
  | .hbm, ⟨87, _⟩ => ⟨S600000, .i32⟩
  | .hbm, ⟨88, _⟩ => ⟨S_, .f32⟩
  | .hbm, ⟨89, _⟩ => ⟨S50000x128, .f32⟩
  | .hbm, ⟨90, _⟩ => ⟨S600000x1, .i32⟩
  | .hbm, ⟨91, _⟩ => ⟨S50000x128, .f32⟩
  | .hbm, ⟨92, _⟩ => ⟨S_, .f32⟩
  | .hbm, ⟨93, _⟩ => ⟨S600000x1, .f32⟩
  | .hbm, ⟨94, _⟩ => ⟨S_, .f32⟩
  | .hbm, ⟨95, _⟩ => ⟨S50000x1, .f32⟩
  | .hbm, ⟨96, _⟩ => ⟨S600000x1, .i32⟩
  | .hbm, ⟨97, _⟩ => ⟨S50000x1, .f32⟩
  | .hbm, ⟨98, _⟩ => ⟨S_, .f32⟩
  | .hbm, ⟨99, _⟩ => ⟨S50000x1, .f32⟩
  | .hbm, ⟨100, _⟩ => ⟨S50000x1, .f32⟩
  | .hbm, ⟨101, _⟩ => ⟨S50000x128, .f32⟩
  | .hbm, ⟨102, _⟩ => ⟨S50000x128, .f32⟩
  | .hbm, ⟨103, _⟩ => ⟨S50000x128, .f32⟩
  | .hbm, ⟨104, _⟩ => ⟨S50000x128, .f32⟩
  | .hbm, ⟨105, _⟩ => ⟨S_, .f32⟩
  | .hbm, ⟨106, _⟩ => ⟨S50000x128, .f32⟩
  | .hbm, ⟨107, _⟩ => ⟨S50000x128, .f32⟩
  | .hbm, ⟨108, _⟩ => ⟨S_, .f32⟩
  | .hbm, ⟨109, _⟩ => ⟨S50000x128, .f32⟩
  | .hbm, ⟨110, _⟩ => ⟨S50000x128, .f32⟩
  | .hbm, ⟨111, _⟩ => ⟨S_, .f32⟩
  | .hbm, ⟨112, _⟩ => ⟨S50000x128, .f32⟩
  | .hbm, ⟨113, _⟩ => ⟨S50000x128, .f32⟩
  | .hbm, ⟨114, _⟩ => ⟨S_, .f32⟩
  | .hbm, ⟨115, _⟩ => ⟨S50000x128, .f32⟩
  | .hbm, ⟨116, _⟩ => ⟨S50000x128, .f32⟩
  | .hbm, ⟨117, _⟩ => ⟨S_, .f32⟩
  | .hbm, ⟨118, _⟩ => ⟨S50000x128, .f32⟩
  | .hbm, ⟨119, _⟩ => ⟨S50000x128, .f32⟩
  | .hbm, ⟨120, _⟩ => ⟨S_, .f32⟩
  | .hbm, ⟨121, _⟩ => ⟨S50000x128, .f32⟩
  | .hbm, ⟨122, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_4 : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_10 : Ref sig .tc := ⟨.hbm, 77, rfl⟩
abbrev main_v54 : Ref sig .tc := ⟨.hbm, 78, rfl⟩
abbrev main_v55 : Ref sig .tc := ⟨.hbm, 79, rfl⟩
abbrev main_c_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_12 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_13 : Ref sig .tc := ⟨.hbm, 92, rfl⟩
abbrev main_v66 : Ref sig .tc := ⟨.hbm, 93, rfl⟩
abbrev main_cst_14 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_15 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_16 : Ref sig .tc := ⟨.hbm, 105, rfl⟩
abbrev main_v76 : Ref sig .tc := ⟨.hbm, 106, rfl⟩
abbrev main_v77 : Ref sig .tc := ⟨.hbm, 107, rfl⟩
abbrev main_call0_cst : Ref sig .tc := ⟨.hbm, 108, rfl⟩
abbrev main_call0_v0 : Ref sig .tc := ⟨.hbm, 109, rfl⟩
abbrev main_v78 : Ref sig .tc := ⟨.hbm, 110, rfl⟩
abbrev main_call1_cst : Ref sig .tc := ⟨.hbm, 111, rfl⟩
abbrev main_call1_v0 : Ref sig .tc := ⟨.hbm, 112, rfl⟩
abbrev main_v79 : Ref sig .tc := ⟨.hbm, 113, rfl⟩
abbrev main_cst_17 : Ref sig .tc := ⟨.hbm, 114, rfl⟩
abbrev main_v80 : Ref sig .tc := ⟨.hbm, 115, rfl⟩
abbrev main_v81 : Ref sig .tc := ⟨.hbm, 116, rfl⟩
abbrev main_call2_cst : Ref sig .tc := ⟨.hbm, 117, rfl⟩
abbrev main_call2_v0 : Ref sig .tc := ⟨.hbm, 118, rfl⟩
abbrev main_v82 : Ref sig .tc := ⟨.hbm, 119, rfl⟩
abbrev main_call3_cst : Ref sig .tc := ⟨.hbm, 120, rfl⟩
abbrev main_call3_v0 : Ref sig .tc := ⟨.hbm, 121, rfl⟩
abbrev main_v83 : Ref sig .tc := ⟨.hbm, 122, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  bcast_S600000_S600000x1_0 : S600000.BroadcastsInDim S600000x1 (![0] : Fin 1 → Fin S600000x1.rank)
  slices_S2x600000_S1x600000_1_0 : S2x600000.Slices ![1, 0] S1x600000
  bcast_S_S50000x128 : S_.BroadcastsInDim S50000x128 (![] : Fin 0 → Fin S50000x128.rank)
  bcast_S_S600000x1 : S_.BroadcastsInDim S600000x1 (![] : Fin 0 → Fin S600000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000x1_S600000x1_S600000x1_1_0_0_1_wf : ScatterDims.WF S50000x1 S600000x1 S600000x1 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf

class Facts : Prop extends Facts₀ where

variable [Facts]
-- ==== Proof.Bits.UserProj.lean ====
/- Region 0 of the kernel as printed: the grouped projection of the user features (x_user block * W_user, 512 columns).
   The text of the idealized kernel's module with the program's name substituted: every statement there is made at any
   float instance, and the two programs print the same region.
-/
import proofs.«124944_j59854664237622_1_alg».proof.Proof.Gen.Kernel.Launch
import proofs.«124944_j59854664237622_1_alg».proof.Proof.Gen.Kernel.Skeleton
import proofs.«124944_j59854664237622_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, cut out of its array as the region finds it. -/
def userBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer of the feature rows holds block t when the body runs at t. -/
theorem userRows_staged {c : Dev nD} (dat : Dat τ (Elt F) Unit ℕ (UR sig nD τ) ℕ cfg0 c) (hA : dat.A 0 = V c (Pipeline.arrRef spec0 0))
    (hafter : ∀ t, dat.after 0 t = userBlk V c 0 t) (t : Fin cfg0.N) (d) : dat.before 0 t d = userBlk V c 0 t :=
  (dat.before_in_eq_fetched 0 rfl (fun _ => rfl) (fun _ _ _ => rfl) (fun t => by rw [hafter]; unfold Dat.blockOf userBlk; rw [hA]; try rfl) t d).trans
    (by unfold Dat.fetched Dat.blockOf userBlk; rw [hA]; try rfl)

/-- The staging buffer of the weights holds the whole matrix at every point: it is fetched once and its block never changes. -/
theorem userWeights_staged {c : Dev nD} (dat : Dat τ (Elt F) Unit ℕ (UR sig nD τ) ℕ cfg0 c) (hA : dat.A 1 = V c (Pipeline.arrRef spec0 1))
    (hafter : ∀ t, dat.after 1 t = userBlk V c 1 t) (t : Fin cfg0.N) (d) : dat.before 1 t d = userBlk V c 1 t :=
  (dat.before_in_eq_fetched 1 rfl (fun _ => rfl) (fun _ _ _ => rfl) (fun t => by rw [hafter]; unfold Dat.blockOf userBlk; rw [hA]; try rfl) t d).trans
    (by unfold Dat.fetched Dat.blockOf userBlk; rw [hA]; try rfl)

/-- The three whole-buffer rectangles the body touches. -/
abbrev userRowsRect : Rect S5000x128 := Rect.unit (s := S5000x128) ![0, 0] S5000x128.size inb_S5000x128_S5000x128_0_0
abbrev userWRect : Rect S128x512 := Rect.unit (s := S128x512) ![0, 0] S128x512.size inb_S128x512_S128x512_0_0
abbrev userOutRect : Rect S5000x512 := Rect.unit (s := S5000x512) ![0, 0] S5000x512.size inb_S5000x512_S5000x512_0_0

/-- What the body leaves in the result's staging buffer: the product of the row block and the weights, as the one piece that covers it. -/
def userProjOut (x : Vec F S5000x128 .f32) (w : Vec F S128x512 .f32) : Vec F S5000x512 .f32 :=
  View.canon [⟨userOutRect, k0_pay1 (View.ld x userRowsRect) (View.ld w userWRect)⟩]

theorem userProjOut_covers (p : Vec F S5000x512 .f32) (y : S5000x512.Idx) :
    ∃ pc ∈ ([⟨userOutRect, p⟩] : List (View.Piece (Elt F) S5000x512 .f32)), y ∈ pc.1.set :=
  View.cover_of_tiled [⟨userOutRect, p⟩] S5000x512.size (by rfl) y

set_option maxHeartbeats 1000000 in
/-- The body on whole staging buffers: the inputs keep their contents and the result buffer, whatever it held, ends at the product. -/
theorem userProj_body (c : Dev nD) (E : Set ℕ) (i : grid0.Coords)
    (a1 : Memref sig .tc .vmem S5000x128 .f32) (h1 : a1.IsWhole) (a2 : Memref sig .tc .vmem S128x512 .f32) (h2 : a2.IsWhole)
    (a3 : Memref sig .tc .vmem S5000x512 .f32) (h3 : a3.IsWhole)
    (x : Vec F S5000x128 .f32) (w : Vec F S128x512 .f32) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w ∗ owns (c : Thread nD τ) a3 fullShare (userProjOut x w)) -∗ K ⟨⟩))
      ⊢ wp frame (wpE (defs₀ (F := F)) Variants.none c none) E (cc0__proj_kernel i a1 h1 a2 h2 a3 h3) K := by
  simp only [cc0__proj_kernel_eq_skeleton]; unfold cc0__proj_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (userProjOut_covers _)

/-- The proof data of the region on core c: the three arrays as the region finds them; after the body at point t the
    two inputs' staging buffers still hold their blocks and the result's holds the product of those blocks. Nothing
    is owed and every share is whole; beside the buffers only the untouched scoped rest rides along. -/
def userDat (c : Dev nD) : Dat τ (Elt F) Unit ℕ (UR sig nD τ) ℕ cfg0 c where
  A w := V c (Pipeline.arrRef spec0 w)
  after w t := match w with
    | ⟨0, _⟩ => userBlk V c 0 t
    | ⟨1, _⟩ => userBlk V c 1 t
    | ⟨2, _⟩ => userProjOut (userBlk V c 0 t) (userBlk V c 1 t)
  Φ _ := Pipeline.ΦA spec0 c
  q _ := fullShare
  owed _ := 0

theorem userDat_A (c : Dev nD) (w : Fin cfg0.W) : (userDat V c).A w = V c (Pipeline.arrRef spec0 w) := by
  dsimp only [userDat]

theorem userDat_after0 (c : Dev nD) (t : Fin cfg0.N) : (userDat V c).after 0 t = userBlk V c 0 t := by dsimp only [userDat]
theorem userDat_after1 (c : Dev nD) (t : Fin cfg0.N) : (userDat V c).after 1 t = userBlk V c 1 t := by dsimp only [userDat]
theorem userDat_after2 (c : Dev nD) (t : Fin cfg0.N) :
    (userDat V c).after 2 t = userProjOut (userBlk V c 0 t) (userBlk V c 1 t) := by dsimp only [userDat]

theorem userDat_before0 (c : Dev nD) (t : Fin cfg0.N) (d) : (userDat V c).before 0 t d = userBlk V c 0 t :=
  userRows_staged V (userDat V c) (userDat_A V c 0) (userDat_after0 V c) t d
theorem userDat_before1 (c : Dev nD) (t : Fin cfg0.N) (d) : (userDat V c).before 1 t d = userBlk V c 1 t :=
  userWeights_staged V (userDat V c) (userDat_A V c 1) (userDat_after1 V c) t d

/-- What the body is called with at point t, window by window, -/
def userPre (c : Dev nD) (t : Fin cfg0.N) : sProp 𝕄 :=
  iprop((userDat V c).Φ t.castSucc ∗ (userDat V c).owesAt () t.castSucc
    ∗ (∃ d, owns (c : Thread nD τ) (st0_0 t) fullShare ((userDat V c).before 0 t d))
    ∗ (∃ d, owns (c : Thread nD τ) (st0_1 t) fullShare ((userDat V c).before 1 t d))
    ∗ (∃ d, owns (c : Thread nD τ) (st0_2 t) fullShare ((userDat V c).before 2 t d)))

/-- and what it returns. -/
def userPost (c : Dev nD) (t : Fin cfg0.N) : sProp 𝕄 :=
  iprop((userDat V c).Φ t.succ ∗ (userDat V c).owesAt () t.succ
    ∗ owns (c : Thread nD τ) (st0_0 t) fullShare ((userDat V c).after 0 t)
    ∗ owns (c : Thread nD τ) (st0_1 t) fullShare ((userDat V c).after 1 t)
    ∗ owns (c : Thread nD τ) (st0_2 t) fullShare ((userDat V c).after 2 t))

/-- The body at any point: the inputs' staging buffers hold their blocks, so the triple applies; the result's buffer may
    hold anything; the scoped rest and the core's debts pass through unread. -/
theorem userProj_sound (c : Dev nD) (t : Fin cfg0.N) :
    userPre V c t ⊢ wp frame (wpE (defs₀ (F := F)) Variants.none c none) Set.univ (bodyAt0 t) (fun _ => userPost V c t) := by
  unfold userPre userPost bodyAt0
  simp only [userDat_before0, userDat_before1]
  rw [show (userDat V c).Φ t.succ = (userDat V c).Φ t.castSucc from rfl,
    show (userDat V c).owesAt () t.succ = (userDat V c).owesAt () t.castSucc from rfl,
    userDat_after0, userDat_after1, userDat_after2]
  iintro ⟨HΦ, Ho, ⟨%d0, H0⟩, ⟨%d1, H1⟩, ⟨%d2, H2⟩⟩
  iapply (userProj_body c Set.univ _ _ _ _ _ _ _ (userBlk V c 0 t) (userBlk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for the region, at every point. -/
theorem userProj_obligation (c : Dev nD) : BodyObligation (userDat (F := F) V c) (defs₀ (F := F)) Variants.none () Set.univ := fun t => by
  rw [bigSep_W0, bigSep_W0]
  exact userProj_sound V c t

end Cert.Kernel.Regions

end
-- ==== Proof.Bits.ItemProj.lean ====
/- Region 1 of the kernel as printed: the grouped projection of the item features (x_item block * W_item, 256 columns).
   The text of the idealized kernel's module (itself laid out from the user projection's) with the program's name substituted.
-/
import proofs.«124944_j59854664237622_1_alg».proof.Proof.Gen.Kernel.Launch
import proofs.«124944_j59854664237622_1_alg».proof.Proof.Gen.Kernel.Skeleton
import proofs.«124944_j59854664237622_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, cut out of its array as the region finds it. -/
def itemBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The staging buffer of the feature rows holds block t when the body runs at t. -/
theorem itemRows_staged {c : Dev nD} (dat : Dat τ (Elt F) Unit ℕ (UR sig nD τ) ℕ cfg1 c) (hA : dat.A 0 = V c (Pipeline.arrRef spec1 0))
    (hafter : ∀ t, dat.after 0 t = itemBlk V c 0 t) (t : Fin cfg1.N) (d) : dat.before 0 t d = itemBlk V c 0 t :=
  (dat.before_in_eq_fetched 0 rfl (fun _ => rfl) (fun _ _ _ => rfl) (fun t => by rw [hafter]; unfold Dat.blockOf itemBlk; rw [hA]; try rfl) t d).trans
    (by unfold Dat.fetched Dat.blockOf itemBlk; rw [hA]; try rfl)

/-- The staging buffer of the weights holds the whole matrix at every point: it is fetched once and its block never changes. -/
theorem itemWeights_staged {c : Dev nD} (dat : Dat τ (Elt F) Unit ℕ (UR sig nD τ) ℕ cfg1 c) (hA : dat.A 1 = V c (Pipeline.arrRef spec1 1))
    (hafter : ∀ t, dat.after 1 t = itemBlk V c 1 t) (t : Fin cfg1.N) (d) : dat.before 1 t d = itemBlk V c 1 t :=
  (dat.before_in_eq_fetched 1 rfl (fun _ => rfl) (fun _ _ _ => rfl) (fun t => by rw [hafter]; unfold Dat.blockOf itemBlk; rw [hA]; try rfl) t d).trans
    (by unfold Dat.fetched Dat.blockOf itemBlk; rw [hA]; try rfl)

/-- The three whole-buffer rectangles the body touches. -/
abbrev itemRowsRect : Rect S5000x128 := Rect.unit (s := S5000x128) ![0, 0] S5000x128.size inb_S5000x128_S5000x128_0_0
abbrev itemWRect : Rect S128x256 := Rect.unit (s := S128x256) ![0, 0] S128x256.size inb_S128x256_S128x256_0_0
abbrev itemProjRect : Rect S5000x256 := Rect.unit (s := S5000x256) ![0, 0] S5000x256.size inb_S5000x256_S5000x256_0_0

/-- What the body leaves in the result's staging buffer: the product of the row block and the weights, as the one piece that covers it. -/
def itemProjOut (x : Vec F S5000x128 .f32) (w : Vec F S128x256 .f32) : Vec F S5000x256 .f32 :=
  View.canon [⟨itemProjRect, k1_pay1 (View.ld x itemRowsRect) (View.ld w itemWRect)⟩]

theorem itemProjOut_covers (p : Vec F S5000x256 .f32) (y : S5000x256.Idx) :
    ∃ pc ∈ ([⟨itemProjRect, p⟩] : List (View.Piece (Elt F) S5000x256 .f32)), y ∈ pc.1.set :=
  View.cover_of_tiled [⟨itemProjRect, p⟩] S5000x256.size (by rfl) y

set_option maxHeartbeats 1000000 in
/-- The body on whole staging buffers: the inputs keep their contents and the result buffer, whatever it held, ends at the product. -/
theorem itemProj_body (c : Dev nD) (E : Set ℕ) (i : grid1.Coords)
    (a1 : Memref sig .tc .vmem S5000x128 .f32) (h1 : a1.IsWhole) (a2 : Memref sig .tc .vmem S128x256 .f32) (h2 : a2.IsWhole)
    (a3 : Memref sig .tc .vmem S5000x256 .f32) (h3 : a3.IsWhole)
    (x : Vec F S5000x128 .f32) (w : Vec F S128x256 .f32) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w ∗ owns (c : Thread nD τ) a3 fullShare (itemProjOut x w)) -∗ K ⟨⟩))
      ⊢ wp frame (wpE (defs₀ (F := F)) Variants.none c none) E (cc1__proj_kernel i a1 h1 a2 h2 a3 h3) K := by
  simp only [cc1__proj_kernel_eq_skeleton]; unfold cc1__proj_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (itemProjOut_covers _)

/-- The proof data of the region on core c: the three arrays as the region finds them; after the body at point t the
    two inputs' staging buffers still hold their blocks and the result's holds the product of those blocks. Nothing
    is owed and every share is whole; beside the buffers only the untouched scoped rest rides along. -/
def itemDat (c : Dev nD) : Dat τ (Elt F) Unit ℕ (UR sig nD τ) ℕ cfg1 c where
  A w := V c (Pipeline.arrRef spec1 w)
  after w t := match w with
    | ⟨0, _⟩ => itemBlk V c 0 t
    | ⟨1, _⟩ => itemBlk V c 1 t
    | ⟨2, _⟩ => itemProjOut (itemBlk V c 0 t) (itemBlk V c 1 t)
  Φ _ := Pipeline.ΦA spec1 c
  q _ := fullShare
  owed _ := 0

theorem itemDat_A (c : Dev nD) (w : Fin cfg1.W) : (itemDat V c).A w = V c (Pipeline.arrRef spec1 w) := by
  dsimp only [itemDat]

theorem itemDat_after0 (c : Dev nD) (t : Fin cfg1.N) : (itemDat V c).after 0 t = itemBlk V c 0 t := by dsimp only [itemDat]
theorem itemDat_after1 (c : Dev nD) (t : Fin cfg1.N) : (itemDat V c).after 1 t = itemBlk V c 1 t := by dsimp only [itemDat]
theorem itemDat_after2 (c : Dev nD) (t : Fin cfg1.N) :
    (itemDat V c).after 2 t = itemProjOut (itemBlk V c 0 t) (itemBlk V c 1 t) := by dsimp only [itemDat]

theorem itemDat_before0 (c : Dev nD) (t : Fin cfg1.N) (d) : (itemDat V c).before 0 t d = itemBlk V c 0 t :=
  itemRows_staged V (itemDat V c) (itemDat_A V c 0) (itemDat_after0 V c) t d
theorem itemDat_before1 (c : Dev nD) (t : Fin cfg1.N) (d) : (itemDat V c).before 1 t d = itemBlk V c 1 t :=
  itemWeights_staged V (itemDat V c) (itemDat_A V c 1) (itemDat_after1 V c) t d

/-- What the body is called with at point t, window by window, -/
def itemPre (c : Dev nD) (t : Fin cfg1.N) : sProp 𝕄 :=
  iprop((itemDat V c).Φ t.castSucc ∗ (itemDat V c).owesAt () t.castSucc
    ∗ (∃ d, owns (c : Thread nD τ) (st1_0 t) fullShare ((itemDat V c).before 0 t d))
    ∗ (∃ d, owns (c : Thread nD τ) (st1_1 t) fullShare ((itemDat V c).before 1 t d))
    ∗ (∃ d, owns (c : Thread nD τ) (st1_2 t) fullShare ((itemDat V c).before 2 t d)))

/-- and what it returns. -/
def itemPost (c : Dev nD) (t : Fin cfg1.N) : sProp 𝕄 :=
  iprop((itemDat V c).Φ t.succ ∗ (itemDat V c).owesAt () t.succ
    ∗ owns (c : Thread nD τ) (st1_0 t) fullShare ((itemDat V c).after 0 t)
    ∗ owns (c : Thread nD τ) (st1_1 t) fullShare ((itemDat V c).after 1 t)
    ∗ owns (c : Thread nD τ) (st1_2 t) fullShare ((itemDat V c).after 2 t))

/-- The body at any point: the inputs' staging buffers hold their blocks, so the triple applies; the result's buffer may
    hold anything; the scoped rest and the core's debts pass through unread. -/
theorem itemProj_sound (c : Dev nD) (t : Fin cfg1.N) :
    itemPre V c t ⊢ wp frame (wpE (defs₀ (F := F)) Variants.none c none) Set.univ (bodyAt1 t) (fun _ => itemPost V c t) := by
  unfold itemPre itemPost bodyAt1
  simp only [itemDat_before0, itemDat_before1]
  rw [show (itemDat V c).Φ t.succ = (itemDat V c).Φ t.castSucc from rfl,
    show (itemDat V c).owesAt () t.succ = (itemDat V c).owesAt () t.castSucc from rfl,
    itemDat_after0, itemDat_after1, itemDat_after2]
  iintro ⟨HΦ, Ho, ⟨%d0, H0⟩, ⟨%d1, H1⟩, ⟨%d2, H2⟩⟩
  iapply (itemProj_body c Set.univ _ _ _ _ _ _ _ (itemBlk V c 0 t) (itemBlk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for the region, at every point. -/
theorem itemProj_obligation (c : Dev nD) : BodyObligation (itemDat (F := F) V c) (defs₀ (F := F)) Variants.none () Set.univ := fun t => by
  rw [bigSep_W1, bigSep_W1]
  exact itemProj_sound V c t

end Cert.Kernel.Regions

end
-- ==== Proof.Bits.ItemOut.lean ====
/- Region 2 of the kernel as printed: the item output, max (max ((a + b) * 1, 0), 0) block by block.
   The text of the idealized kernel's module with the program's name substituted.
-/
import proofs.«124944_j59854664237622_1_alg».proof.Proof.Gen.Kernel.Launch
import proofs.«124944_j59854664237622_1_alg».proof.Proof.Gen.Kernel.Skeleton
import proofs.«124944_j59854664237622_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, cut out of its array as the region finds it. -/
def itemOutBlk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The staging buffer of the target projection holds block t when the body runs at t. -/
theorem itemOutTgt_staged {c : Dev nD} (dat : Dat τ (Elt F) Unit ℕ (UR sig nD τ) ℕ cfg2 c) (hA : dat.A 0 = V c (Pipeline.arrRef spec2 0))
    (hafter : ∀ t, dat.after 0 t = itemOutBlk V c 0 t) (t : Fin cfg2.N) (d) : dat.before 0 t d = itemOutBlk V c 0 t :=
  (dat.before_in_eq_fetched 0 rfl (fun _ => rfl) (fun _ _ _ => rfl) (fun t => by rw [hafter]; unfold Dat.blockOf itemOutBlk; rw [hA]; try rfl) t d).trans
    (by unfold Dat.fetched Dat.blockOf itemOutBlk; rw [hA]; try rfl)

/-- So does the staging buffer of the message means. -/
theorem itemOutAgg_staged {c : Dev nD} (dat : Dat τ (Elt F) Unit ℕ (UR sig nD τ) ℕ cfg2 c) (hA : dat.A 1 = V c (Pipeline.arrRef spec2 1))
    (hafter : ∀ t, dat.after 1 t = itemOutBlk V c 1 t) (t : Fin cfg2.N) (d) : dat.before 1 t d = itemOutBlk V c 1 t :=
  (dat.before_in_eq_fetched 1 rfl (fun _ => rfl) (fun _ _ _ => rfl) (fun t => by rw [hafter]; unfold Dat.blockOf itemOutBlk; rw [hA]; try rfl) t d).trans
    (by unfold Dat.fetched Dat.blockOf itemOutBlk; rw [hA]; try rfl)

/-- The whole-buffer rectangle every access of the body uses. -/
abbrev itemOutRect : Rect S5000x128 := Rect.unit (s := S5000x128) ![0, 0] S5000x128.size inb_S5000x128_S5000x128_0_0

/-- What the body leaves in the result's staging buffer, as the one piece that covers it. -/
def itemOutVal (a b : Vec F S5000x128 .f32) : Vec F S5000x128 .f32 :=
  View.canon [⟨itemOutRect, k2_pay1 (View.ld a itemOutRect) (View.ld b itemOutRect)⟩]

theorem itemOutVal_covers (p : Vec F S5000x128 .f32) (y : S5000x128.Idx) :
    ∃ pc ∈ ([⟨itemOutRect, p⟩] : List (View.Piece (Elt F) S5000x128 .f32)), y ∈ pc.1.set :=
  View.cover_of_tiled [⟨itemOutRect, p⟩] S5000x128.size (by rfl) y

set_option maxHeartbeats 1000000 in
/-- The body on whole staging buffers: the inputs keep their contents and the result buffer, whatever it held, ends at the combined value. -/
theorem itemOut_body (c : Dev nD) (E : Set ℕ) (i : grid2.Coords)
    (a1 : Memref sig .tc .vmem S5000x128 .f32) (h1 : a1.IsWhole) (a2 : Memref sig .tc .vmem S5000x128 .f32) (h2 : a2.IsWhole)
    (a3 : Memref sig .tc .vmem S5000x128 .f32) (h3 : a3.IsWhole)
    (a b : Vec F S5000x128 .f32) (K : PUnit → sProp 𝕄) :
    iprop(owns (c : Thread nD τ) a1 fullShare a ∗ owns (c : Thread nD τ) a2 fullShare b ∗ (∃ d, owns (c : Thread nD τ) a3 fullShare d)
        ∗ (iprop(owns (c : Thread nD τ) a1 fullShare a ∗ owns (c : Thread nD τ) a2 fullShare b ∗ owns (c : Thread nD τ) a3 fullShare (itemOutVal a b)) -∗ K ⟨⟩))
      ⊢ wp frame (wpE (defs₀ (F := F)) Variants.none c none) E (cc2__combine2_kernel i a1 h1 a2 h2 a3 h3) K := by
  simp only [cc2__combine2_kernel_eq_skeleton]; unfold cc2__combine2_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (itemOutVal_covers _)

/-- The proof data of the region on core c: the three arrays as the region finds them; after the body at point t the two
    inputs' staging buffers still hold their blocks and the result's holds the combined value of those blocks. Nothing is
    owed, every share is whole, and only the untouched scoped rest rides along. -/
def itemOutDat (c : Dev nD) : Dat τ (Elt F) Unit ℕ (UR sig nD τ) ℕ cfg2 c where
  A w := V c (Pipeline.arrRef spec2 w)
  after w t := match w with
    | ⟨0, _⟩ => itemOutBlk V c 0 t
    | ⟨1, _⟩ => itemOutBlk V c 1 t
    | ⟨2, _⟩ => itemOutVal (itemOutBlk V c 0 t) (itemOutBlk V c 1 t)
  Φ _ := Pipeline.ΦA spec2 c
  q _ := fullShare
  owed _ := 0

theorem itemOutDat_A (c : Dev nD) (w : Fin cfg2.W) : (itemOutDat V c).A w = V c (Pipeline.arrRef spec2 w) := by
  dsimp only [itemOutDat]

theorem itemOutDat_after0 (c : Dev nD) (t : Fin cfg2.N) : (itemOutDat V c).after 0 t = itemOutBlk V c 0 t := by dsimp only [itemOutDat]
theorem itemOutDat_after1 (c : Dev nD) (t : Fin cfg2.N) : (itemOutDat V c).after 1 t = itemOutBlk V c 1 t := by dsimp only [itemOutDat]
theorem itemOutDat_after2 (c : Dev nD) (t : Fin cfg2.N) :
    (itemOutDat V c).after 2 t = itemOutVal (itemOutBlk V c 0 t) (itemOutBlk V c 1 t) := by dsimp only [itemOutDat]

theorem itemOutDat_before0 (c : Dev nD) (t : Fin cfg2.N) (d) : (itemOutDat V c).before 0 t d = itemOutBlk V c 0 t :=
  itemOutTgt_staged V (itemOutDat V c) (itemOutDat_A V c 0) (itemOutDat_after0 V c) t d
theorem itemOutDat_before1 (c : Dev nD) (t : Fin cfg2.N) (d) : (itemOutDat V c).before 1 t d = itemOutBlk V c 1 t :=
  itemOutAgg_staged V (itemOutDat V c) (itemOutDat_A V c 1) (itemOutDat_after1 V c) t d

/-- What the body is called with at point t, window by window, -/
def itemOutPre (c : Dev nD) (t : Fin cfg2.N) : sProp 𝕄 :=
  iprop((itemOutDat V c).Φ t.castSucc ∗ (itemOutDat V c).owesAt () t.castSucc
    ∗ (∃ d, owns (c : Thread nD τ) (st2_0 t) fullShare ((itemOutDat V c).before 0 t d))
    ∗ (∃ d, owns (c : Thread nD τ) (st2_1 t) fullShare ((itemOutDat V c).before 1 t d))
    ∗ (∃ d, owns (c : Thread nD τ) (st2_2 t) fullShare ((itemOutDat V c).before 2 t d)))

/-- and what it returns. -/
def itemOutPost (c : Dev nD) (t : Fin cfg2.N) : sProp 𝕄 :=
  iprop((itemOutDat V c).Φ t.succ ∗ (itemOutDat V c).owesAt () t.succ
    ∗ owns (c : Thread nD τ) (st2_0 t) fullShare ((itemOutDat V c).after 0 t)
    ∗ owns (c : Thread nD τ) (st2_1 t) fullShare ((itemOutDat V c).after 1 t)
    ∗ owns (c : Thread nD τ) (st2_2 t) fullShare ((itemOutDat V c).after 2 t))

/-- The body at any point: the inputs' staging buffers hold their blocks, so the triple applies; the result's buffer may
    hold anything; the scoped rest and the core's debts pass through unread. -/
theorem itemOut_sound (c : Dev nD) (t : Fin cfg2.N) :
    itemOutPre V c t ⊢ wp frame (wpE (defs₀ (F := F)) Variants.none c none) Set.univ (bodyAt2 t) (fun _ => itemOutPost V c t) := by
  unfold itemOutPre itemOutPost bodyAt2
  simp only [itemOutDat_before0, itemOutDat_before1]
  rw [show (itemOutDat V c).Φ t.succ = (itemOutDat V c).Φ t.castSucc from rfl,
    show (itemOutDat V c).owesAt () t.succ = (itemOutDat V c).owesAt () t.castSucc from rfl,
    itemOutDat_after0, itemOutDat_after1, itemOutDat_after2]
  iintro ⟨HΦ, Ho, ⟨%d0, H0⟩, ⟨%d1, H1⟩, ⟨%d2, H2⟩⟩
  iapply (itemOut_body c Set.univ _ _ _ _ _ _ _ (itemOutBlk V c 0 t) (itemOutBlk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for the region, at every point. -/
theorem itemOut_obligation (c : Dev nD) : BodyObligation (itemOutDat (F := F) V c) (defs₀ (F := F)) Variants.none () Set.univ := fun t => by
  rw [bigSep_W2, bigSep_W2]
  exact itemOut_sound V c t

end Cert.Kernel.Regions

end
-- ==== Proof.Bits.UserOut.lean ====
/- Region 3 of the kernel as printed: the user output, max (max ((((a + b) + c) + d) * 1/2, 0), 0) block by block.
   The text of the idealized kernel's module with the program's name substituted.
-/
import proofs.«124944_j59854664237622_1_alg».proof.Proof.Gen.Kernel.Launch
import proofs.«124944_j59854664237622_1_alg».proof.Proof.Gen.Kernel.Skeleton
import proofs.«124944_j59854664237622_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, cut out of its array as the region finds it. -/
def userOutBlk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each of the four inputs' staging buffers holds block t when the body runs at t: every one is fetched at every point. -/
theorem userOutIn0_staged {c : Dev nD} (dat : Dat τ (Elt F) Unit ℕ (UR sig nD τ) ℕ cfg3 c) (hA : dat.A 0 = V c (Pipeline.arrRef spec3 0))
    (hafter : ∀ t, dat.after 0 t = userOutBlk V c 0 t) (t : Fin cfg3.N) (d) : dat.before 0 t d = userOutBlk V c 0 t :=
  (dat.before_in_eq_fetched 0 rfl (fun _ => rfl) (fun _ _ _ => rfl) (fun t => by rw [hafter]; unfold Dat.blockOf userOutBlk; rw [hA]; try rfl) t d).trans
    (by unfold Dat.fetched Dat.blockOf userOutBlk; rw [hA]; try rfl)
theorem userOutIn1_staged {c : Dev nD} (dat : Dat τ (Elt F) Unit ℕ (UR sig nD τ) ℕ cfg3 c) (hA : dat.A 1 = V c (Pipeline.arrRef spec3 1))
    (hafter : ∀ t, dat.after 1 t = userOutBlk V c 1 t) (t : Fin cfg3.N) (d) : dat.before 1 t d = userOutBlk V c 1 t :=
  (dat.before_in_eq_fetched 1 rfl (fun _ => rfl) (fun _ _ _ => rfl) (fun t => by rw [hafter]; unfold Dat.blockOf userOutBlk; rw [hA]; try rfl) t d).trans
    (by unfold Dat.fetched Dat.blockOf userOutBlk; rw [hA]; try rfl)
theorem userOutIn2_staged {c : Dev nD} (dat : Dat τ (Elt F) Unit ℕ (UR sig nD τ) ℕ cfg3 c) (hA : dat.A 2 = V c (Pipeline.arrRef spec3 2))
    (hafter : ∀ t, dat.after 2 t = userOutBlk V c 2 t) (t : Fin cfg3.N) (d) : dat.before 2 t d = userOutBlk V c 2 t :=
  (dat.before_in_eq_fetched 2 rfl (fun _ => rfl) (fun _ _ _ => rfl) (fun t => by rw [hafter]; unfold Dat.blockOf userOutBlk; rw [hA]; try rfl) t d).trans
    (by unfold Dat.fetched Dat.blockOf userOutBlk; rw [hA]; try rfl)
theorem userOutIn3_staged {c : Dev nD} (dat : Dat τ (Elt F) Unit ℕ (UR sig nD τ) ℕ cfg3 c) (hA : dat.A 3 = V c (Pipeline.arrRef spec3 3))
    (hafter : ∀ t, dat.after 3 t = userOutBlk V c 3 t) (t : Fin cfg3.N) (d) : dat.before 3 t d = userOutBlk V c 3 t :=
  (dat.before_in_eq_fetched 3 rfl (fun _ => rfl) (fun _ _ _ => rfl) (fun t => by rw [hafter]; unfold Dat.blockOf userOutBlk; rw [hA]; try rfl) t d).trans
    (by unfold Dat.fetched Dat.blockOf userOutBlk; rw [hA]; try rfl)

/-- The whole-buffer rectangle every access of the body uses. -/
abbrev userOutRect5 : Rect S5000x128 := Rect.unit (s := S5000x128) ![0, 0] S5000x128.size inb_S5000x128_S5000x128_0_0

/-- What the body leaves in the result's staging buffer, as the one piece that covers it. -/
def userOutVal (a b c' d' : Vec F S5000x128 .f32) : Vec F S5000x128 .f32 :=
  View.canon [⟨userOutRect5, k3_pay1 (View.ld a userOutRect5) (View.ld b userOutRect5) (View.ld c' userOutRect5) (View.ld d' userOutRect5)⟩]

theorem userOutVal_covers (p : Vec F S5000x128 .f32) (y : S5000x128.Idx) :
    ∃ pc ∈ ([⟨userOutRect5, p⟩] : List (View.Piece (Elt F) S5000x128 .f32)), y ∈ pc.1.set :=
  View.cover_of_tiled [⟨userOutRect5, p⟩] S5000x128.size (by rfl) y

set_option maxHeartbeats 1000000 in
/-- The body on whole staging buffers: the four inputs keep their contents and the result buffer, whatever it held, ends at the combined value. -/
theorem userOut_body (c : Dev nD) (E : Set ℕ) (i : grid3.Coords)
    (a1 : Memref sig .tc .vmem S5000x128 .f32) (h1 : a1.IsWhole) (a2 : Memref sig .tc .vmem S5000x128 .f32) (h2 : a2.IsWhole)
    (a3 : Memref sig .tc .vmem S5000x128 .f32) (h3 : a3.IsWhole) (a4 : Memref sig .tc .vmem S5000x128 .f32) (h4 : a4.IsWhole)
    (a5 : Memref sig .tc .vmem S5000x128 .f32) (h5 : a5.IsWhole)
    (a b c' d' : Vec F S5000x128 .f32) (K : PUnit → sProp 𝕄) :
    iprop(owns (c : Thread nD τ) a1 fullShare a ∗ owns (c : Thread nD τ) a2 fullShare b ∗ owns (c : Thread nD τ) a3 fullShare c'
        ∗ owns (c : Thread nD τ) a4 fullShare d' ∗ (∃ e, owns (c : Thread nD τ) a5 fullShare e)
        ∗ (iprop(owns (c : Thread nD τ) a1 fullShare a ∗ owns (c : Thread nD τ) a2 fullShare b ∗ owns (c : Thread nD τ) a3 fullShare c'
            ∗ owns (c : Thread nD τ) a4 fullShare d' ∗ owns (c : Thread nD τ) a5 fullShare (userOutVal a b c' d')) -∗ K ⟨⟩))
      ⊢ wp frame (wpE (defs₀ (F := F)) Variants.none c none) E (cc3__combine4_kernel i a1 h1 a2 h2 a3 h3 a4 h4 a5 h5) K := by
  simp only [cc3__combine4_kernel_eq_skeleton]; unfold cc3__combine4_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (userOutVal_covers _)

/-- The proof data of the region on core c: the five arrays as the region finds them; after the body at point t the four
    inputs' staging buffers still hold their blocks and the result's holds the combined value of those blocks. Nothing is
    owed, every share is whole, and only the untouched scoped rest rides along. -/
def userOutDat (c : Dev nD) : Dat τ (Elt F) Unit ℕ (UR sig nD τ) ℕ cfg3 c where
  A w := V c (Pipeline.arrRef spec3 w)
  after w t := match w with
    | ⟨0, _⟩ => userOutBlk V c 0 t
    | ⟨1, _⟩ => userOutBlk V c 1 t
    | ⟨2, _⟩ => userOutBlk V c 2 t
    | ⟨3, _⟩ => userOutBlk V c 3 t
    | ⟨4, _⟩ => userOutVal (userOutBlk V c 0 t) (userOutBlk V c 1 t) (userOutBlk V c 2 t) (userOutBlk V c 3 t)
  Φ _ := Pipeline.ΦA spec3 c
  q _ := fullShare
  owed _ := 0

theorem userOutDat_A (c : Dev nD) (w : Fin cfg3.W) : (userOutDat V c).A w = V c (Pipeline.arrRef spec3 w) := by
  dsimp only [userOutDat]

theorem userOutDat_after0 (c : Dev nD) (t : Fin cfg3.N) : (userOutDat V c).after 0 t = userOutBlk V c 0 t := by dsimp only [userOutDat]
theorem userOutDat_after1 (c : Dev nD) (t : Fin cfg3.N) : (userOutDat V c).after 1 t = userOutBlk V c 1 t := by dsimp only [userOutDat]
theorem userOutDat_after2 (c : Dev nD) (t : Fin cfg3.N) : (userOutDat V c).after 2 t = userOutBlk V c 2 t := by dsimp only [userOutDat]
theorem userOutDat_after3 (c : Dev nD) (t : Fin cfg3.N) : (userOutDat V c).after 3 t = userOutBlk V c 3 t := by dsimp only [userOutDat]
theorem userOutDat_after4 (c : Dev nD) (t : Fin cfg3.N) :
    (userOutDat V c).after 4 t = userOutVal (userOutBlk V c 0 t) (userOutBlk V c 1 t) (userOutBlk V c 2 t) (userOutBlk V c 3 t) := by
  dsimp only [userOutDat]

theorem userOutDat_before0 (c : Dev nD) (t : Fin cfg3.N) (d) : (userOutDat V c).before 0 t d = userOutBlk V c 0 t :=
  userOutIn0_staged V (userOutDat V c) (userOutDat_A V c 0) (userOutDat_after0 V c) t d
theorem userOutDat_before1 (c : Dev nD) (t : Fin cfg3.N) (d) : (userOutDat V c).before 1 t d = userOutBlk V c 1 t :=
  userOutIn1_staged V (userOutDat V c) (userOutDat_A V c 1) (userOutDat_after1 V c) t d
theorem userOutDat_before2 (c : Dev nD) (t : Fin cfg3.N) (d) : (userOutDat V c).before 2 t d = userOutBlk V c 2 t :=
  userOutIn2_staged V (userOutDat V c) (userOutDat_A V c 2) (userOutDat_after2 V c) t d
theorem userOutDat_before3 (c : Dev nD) (t : Fin cfg3.N) (d) : (userOutDat V c).before 3 t d = userOutBlk V c 3 t :=
  userOutIn3_staged V (userOutDat V c) (userOutDat_A V c 3) (userOutDat_after3 V c) t d

/-- What the body is called with at point t, window by window, -/
def userOutPre (c : Dev nD) (t : Fin cfg3.N) : sProp 𝕄 :=
  iprop((userOutDat V c).Φ t.castSucc ∗ (userOutDat V c).owesAt () t.castSucc
    ∗ (∃ d, owns (c : Thread nD τ) (st3_0 t) fullShare ((userOutDat V c).before 0 t d))
    ∗ (∃ d, owns (c : Thread nD τ) (st3_1 t) fullShare ((userOutDat V c).before 1 t d))
    ∗ (∃ d, owns (c : Thread nD τ) (st3_2 t) fullShare ((userOutDat V c).before 2 t d))
    ∗ (∃ d, owns (c : Thread nD τ) (st3_3 t) fullShare ((userOutDat V c).before 3 t d))
    ∗ (∃ d, owns (c : Thread nD τ) (st3_4 t) fullShare ((userOutDat V c).before 4 t d)))

/-- and what it returns. -/
def userOutPost (c : Dev nD) (t : Fin cfg3.N) : sProp 𝕄 :=
  iprop((userOutDat V c).Φ t.succ ∗ (userOutDat V c).owesAt () t.succ
    ∗ owns (c : Thread nD τ) (st3_0 t) fullShare ((userOutDat V c).after 0 t)
    ∗ owns (c : Thread nD τ) (st3_1 t) fullShare ((userOutDat V c).after 1 t)
    ∗ owns (c : Thread nD τ) (st3_2 t) fullShare ((userOutDat V c).after 2 t)
    ∗ owns (c : Thread nD τ) (st3_3 t) fullShare ((userOutDat V c).after 3 t)
    ∗ owns (c : Thread nD τ) (st3_4 t) fullShare ((userOutDat V c).after 4 t))

/-- The body at any point: the inputs' staging buffers hold their blocks, so the triple applies; the result's buffer may
    hold anything; the scoped rest and the core's debts pass through unread. -/
theorem userOut_sound (c : Dev nD) (t : Fin cfg3.N) :
    userOutPre V c t ⊢ wp frame (wpE (defs₀ (F := F)) Variants.none c none) Set.univ (bodyAt3 t) (fun _ => userOutPost V c t) := by
  unfold userOutPre userOutPost bodyAt3
  simp only [userOutDat_before0, userOutDat_before1, userOutDat_before2, userOutDat_before3]
  rw [show (userOutDat V c).Φ t.succ = (userOutDat V c).Φ t.castSucc from rfl,
    show (userOutDat V c).owesAt () t.succ = (userOutDat V c).owesAt () t.castSucc from rfl,
    userOutDat_after0, userOutDat_after1, userOutDat_after2, userOutDat_after3, userOutDat_after4]
  iintro ⟨HΦ, Ho, ⟨%d0, H0⟩, ⟨%d1, H1⟩, ⟨%d2, H2⟩, ⟨%d3, H3⟩, ⟨%d4, H4⟩⟩
  iapply (userOut_body c Set.univ _ _ _ _ _ _ _ _ _ _ _ (userOutBlk V c 0 t) (userOutBlk V c 1 t) (userOutBlk V c 2 t) (userOutBlk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation for the region, at every point. -/
theorem userOut_obligation (c : Dev nD) : BodyObligation (userOutDat (F := F) V c) (defs₀ (F := F)) Variants.none () Set.univ := fun t => by
  rw [bigSep_W3, bigSep_W3]
  exact userOut_sound V c t

end Cert.Kernel.Regions

end
-- ==== Proof.Bits.Run.lean ====
/- The kernel as printed, from launch to return, as buffer contents at each boundary; no step writes an argument.
   The text of the idealized kernel's module with the program's name substituted: the two programs print the same @main.
-/
import proofs.«124944_j59854664237622_1_alg».proof.Proof.Bits.UserProj
import proofs.«124944_j59854664237622_1_alg».proof.Proof.Bits.ItemProj
import proofs.«124944_j59854664237622_1_alg».proof.Proof.Bits.ItemOut
import proofs.«124944_j59854664237622_1_alg».proof.Proof.Bits.UserOut

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- Core c's buffers at launch. -/
abbrev atLaunch : Dev nD → Valuation τ sig (Elt F) := fun c b => (s₀ m ρ).mem ((c : Dev nD), b)
/-- With the two grouped weight matrices in place: what the user projection is entered from. -/
abbrev atWeights : Dev nD → Valuation τ sig (Elt F) := fun c => StableHlo.after hostOps0 (atLaunch m ρ c)
abbrev inWeights : (c : Dev nD) → (b : Ref sig .tc) → Buf (Elt F) ((c : Thread nD τ).loc b) := fun c b => atWeights m ρ c b

/-- After the user projection: its three arrays at what the pipeline leaves, every other buffer as before. -/
def atUserProj (c : Dev nD) : Valuation τ sig (Elt F) :=
  Pipeline.withArrays spec0 c (atWeights m ρ c) fun w => (userDat (inWeights m ρ) c).arrAt w cfg0.N
theorem atUserProj_arr (c : Dev nD) (w : Fin cfg0.W) :
    atUserProj m ρ c (Proc.devRef .tc (Pipeline.arrRef spec0 w)) = (userDat (inWeights m ρ) c).arrAt w cfg0.N := by
  unfold atUserProj; exact Pipeline.withArrays_arr spec0 launch0.win.arr_inj c _ _ w
theorem atUserProj_of_ne (c : Dev nD) (b : Ref sig .tc) (hb : ∀ w, Pipeline.arrRef spec0 w ≠ b) :
    atUserProj m ρ c (Proc.devRef .tc b) = atWeights m ρ c (Proc.devRef .tc b) := by
  unfold atUserProj; exact Pipeline.withArrays_of_ne spec0 c _ _ b hb
abbrev inUserProj : (c : Dev nD) → (b : Ref sig .tc) → Buf (Elt F) ((c : Thread nD τ).loc b) := fun c b => atUserProj m ρ c b

/-- After the item projection, which is entered straight from the user projection's exit. -/
def atItemProj (c : Dev nD) : Valuation τ sig (Elt F) :=
  Pipeline.withArrays spec1 c (atUserProj m ρ c) fun w => (itemDat (inUserProj m ρ) c).arrAt w cfg1.N
theorem atItemProj_arr (c : Dev nD) (w : Fin cfg1.W) :
    atItemProj m ρ c (Proc.devRef .tc (Pipeline.arrRef spec1 w)) = (itemDat (inUserProj m ρ) c).arrAt w cfg1.N := by
  unfold atItemProj; exact Pipeline.withArrays_arr spec1 launch1.win.arr_inj c _ _ w
theorem atItemProj_of_ne (c : Dev nD) (b : Ref sig .tc) (hb : ∀ w, Pipeline.arrRef spec1 w ≠ b) :
    atItemProj m ρ c (Proc.devRef .tc b) = atUserProj m ρ c (Proc.devRef .tc b) := by
  unfold atItemProj; exact Pipeline.withArrays_of_ne spec1 c _ _ b hb
abbrev inItemProj : (c : Dev nD) → (b : Ref sig .tc) → Buf (Elt F) ((c : Thread nD τ).loc b) := fun c b => atItemProj m ρ c b

/-- With the bands cut, the messages gathered and the three per-target means computed: what the item output is entered from. -/
abbrev atMeans : Dev nD → Valuation τ sig (Elt F) := fun c => StableHlo.after hostOps2 (atItemProj m ρ c)
abbrev inMeans : (c : Dev nD) → (b : Ref sig .tc) → Buf (Elt F) ((c : Thread nD τ).loc b) := fun c b => atMeans m ρ c b

/-- After the item output. -/
def atItemOut (c : Dev nD) : Valuation τ sig (Elt F) :=
  Pipeline.withArrays spec2 c (atMeans m ρ c) fun w => (itemOutDat (inMeans m ρ) c).arrAt w cfg2.N
theorem atItemOut_arr (c : Dev nD) (w : Fin cfg2.W) :
    atItemOut m ρ c (Proc.devRef .tc (Pipeline.arrRef spec2 w)) = (itemOutDat (inMeans m ρ) c).arrAt w cfg2.N := by
  unfold atItemOut; exact Pipeline.withArrays_arr spec2 launch2.win.arr_inj c _ _ w
theorem atItemOut_of_ne (c : Dev nD) (b : Ref sig .tc) (hb : ∀ w, Pipeline.arrRef spec2 w ≠ b) :
    atItemOut m ρ c (Proc.devRef .tc b) = atMeans m ρ c (Proc.devRef .tc b) := by
  unfold atItemOut; exact Pipeline.withArrays_of_ne spec2 c _ _ b hb
abbrev inItemOut : (c : Dev nD) → (b : Ref sig .tc) → Buf (Elt F) ((c : Thread nD τ).loc b) := fun c b => atItemOut m ρ c b

/-- After the user output, entered straight from the item output's exit: the contents @main returns with. -/
def atEnd (c : Dev nD) : Valuation τ sig (Elt F) :=
  Pipeline.withArrays spec3 c (atItemOut m ρ c) fun w => (userOutDat (inItemOut m ρ) c).arrAt w cfg3.N
theorem atEnd_arr (c : Dev nD) (w : Fin cfg3.W) :
    atEnd m ρ c (Proc.devRef .tc (Pipeline.arrRef spec3 w)) = (userOutDat (inItemOut m ρ) c).arrAt w cfg3.N := by
  unfold atEnd; exact Pipeline.withArrays_arr spec3 launch3.win.arr_inj c _ _ w
theorem atEnd_of_ne (c : Dev nD) (b : Ref sig .tc) (hb : ∀ w, Pipeline.arrRef spec3 w ≠ b) :
    atEnd m ρ c (Proc.devRef .tc b) = atItemOut m ρ c (Proc.devRef .tc b) := by
  unfold atEnd; exact Pipeline.withArrays_of_ne spec3 c _ _ b hb
abbrev inEnd : (c : Dev nD) → (b : Ref sig .tc) → Buf (Elt F) ((c : Thread nD τ).loc b) := fun c b => atEnd m ρ c b

/-! ## No step writes an argument -/

/-- A buffer that none of a host stretch's operations writes holds after the stretch what it held before: the stretch's
    operations are listed, each one's written buffer is read off it, and none is the buffer in hand. -/
local macro "unwritten" : tactic => `(tactic| (
  refine StableHlo.after_of_forall_not_mem _ _ (List.forall_iff_forall_mem.mp ?_)
  simp only [hostOps0, hostOps2, List.Forall, StableHlo.nullary_writes, StableHlo.unary_writes, StableHlo.binary_writes,
    StableHlo.ternary_writes, StableHlo.nary_writes, StableHlo.reshape_writes, Finset.mem_singleton]
  repeat' apply And.intro
  all_goals exact StableHlo.devRef_ne_of_ne (by decide)))

/-- The walk, once: a buffer that is no array of any of the four regions and that neither host stretch writes holds at the
    end what it held at launch. Each region keeps what is not its array; each stretch keeps what it does not write. -/
theorem atEnd_of_untouched (c : Dev nD) (b : Ref sig .tc)
    (h3 : ∀ w, Pipeline.arrRef spec3 w ≠ b) (h2 : ∀ w, Pipeline.arrRef spec2 w ≠ b)
    (hmeans : atMeans m ρ c (Proc.devRef .tc b) = atItemProj m ρ c (Proc.devRef .tc b))
    (h1 : ∀ w, Pipeline.arrRef spec1 w ≠ b) (h0 : ∀ w, Pipeline.arrRef spec0 w ≠ b)
    (hweights : atWeights m ρ c (Proc.devRef .tc b) = atLaunch m ρ c (Proc.devRef .tc b)) :
    atEnd m ρ c (Proc.devRef .tc b) = atLaunch m ρ c (Proc.devRef .tc b) :=
  (atEnd_of_ne m ρ c b h3).trans <| (atItemOut_of_ne m ρ c b h2).trans <| hmeans.trans <|
    (atItemProj_of_ne m ρ c b h1).trans <| (atUserProj_of_ne m ρ c b h0).trans hweights

/-- x_user is the user projection's first input: the region reads it through a window and leaves it as it found it. -/
theorem atEnd_arg0 (c : Dev nD) : atEnd m ρ c (Proc.devRef .tc main_arg0) = m ((c : Thread nD τ).loc main_arg0) :=
  calc atEnd m ρ c (Proc.devRef .tc main_arg0)
    _ = atItemOut m ρ c (Proc.devRef .tc main_arg0) := atEnd_of_ne m ρ c main_arg0 (by decide)
    _ = atMeans m ρ c (Proc.devRef .tc main_arg0) := atItemOut_of_ne m ρ c main_arg0 (by decide)
    _ = atItemProj m ρ c (Proc.devRef .tc main_arg0) := by unwritten
    _ = atUserProj m ρ c (Proc.devRef .tc main_arg0) := atItemProj_of_ne m ρ c main_arg0 (by decide)
    _ = atWeights m ρ c (Proc.devRef .tc main_arg0) :=
        (atUserProj_arr m ρ c 0).trans (((userDat (inWeights m ρ) c).arrAt_in 0 rfl _).trans (userDat_A (inWeights m ρ) c 0))
    _ = atLaunch m ρ c (Proc.devRef .tc main_arg0) := by unwritten
    _ = m ((c : Thread nD τ).loc main_arg0) := rfl

/-- x_item is the item projection's first input, likewise. -/
theorem atEnd_arg1 (c : Dev nD) : atEnd m ρ c (Proc.devRef .tc main_arg1) = m ((c : Thread nD τ).loc main_arg1) :=
  calc atEnd m ρ c (Proc.devRef .tc main_arg1)
    _ = atItemOut m ρ c (Proc.devRef .tc main_arg1) := atEnd_of_ne m ρ c main_arg1 (by decide)
    _ = atMeans m ρ c (Proc.devRef .tc main_arg1) := atItemOut_of_ne m ρ c main_arg1 (by decide)
    _ = atItemProj m ρ c (Proc.devRef .tc main_arg1) := by unwritten
    _ = atUserProj m ρ c (Proc.devRef .tc main_arg1) :=
        (atItemProj_arr m ρ c 0).trans (((itemDat (inUserProj m ρ) c).arrAt_in 0 rfl _).trans (itemDat_A (inUserProj m ρ) c 0))
    _ = atWeights m ρ c (Proc.devRef .tc main_arg1) := atUserProj_of_ne m ρ c main_arg1 (by decide)
    _ = atLaunch m ρ c (Proc.devRef .tc main_arg1) := by unwritten
    _ = m ((c : Thread nD τ).loc main_arg1) := rfl

/-- The six weight matrices and the three edge lists are read by host operations only; no region has one as an array. -/
theorem atEnd_arg2 (c : Dev nD) : atEnd m ρ c (Proc.devRef .tc main_arg2) = m ((c : Thread nD τ).loc main_arg2) :=
  atEnd_of_untouched m ρ c main_arg2 (by decide) (by decide) (by unwritten) (by decide) (by decide) (by unwritten)
theorem atEnd_arg3 (c : Dev nD) : atEnd m ρ c (Proc.devRef .tc main_arg3) = m ((c : Thread nD τ).loc main_arg3) :=
  atEnd_of_untouched m ρ c main_arg3 (by decide) (by decide) (by unwritten) (by decide) (by decide) (by unwritten)
theorem atEnd_arg4 (c : Dev nD) : atEnd m ρ c (Proc.devRef .tc main_arg4) = m ((c : Thread nD τ).loc main_arg4) :=
  atEnd_of_untouched m ρ c main_arg4 (by decide) (by decide) (by unwritten) (by decide) (by decide) (by unwritten)
theorem atEnd_arg5 (c : Dev nD) : atEnd m ρ c (Proc.devRef .tc main_arg5) = m ((c : Thread nD τ).loc main_arg5) :=
  atEnd_of_untouched m ρ c main_arg5 (by decide) (by decide) (by unwritten) (by decide) (by decide) (by unwritten)
theorem atEnd_arg6 (c : Dev nD) : atEnd m ρ c (Proc.devRef .tc main_arg6) = m ((c : Thread nD τ).loc main_arg6) :=
  atEnd_of_untouched m ρ c main_arg6 (by decide) (by decide) (by unwritten) (by decide) (by decide) (by unwritten)
theorem atEnd_arg7 (c : Dev nD) : atEnd m ρ c (Proc.devRef .tc main_arg7) = m ((c : Thread nD τ).loc main_arg7) :=
  atEnd_of_untouched m ρ c main_arg7 (by decide) (by decide) (by unwritten) (by decide) (by decide) (by unwritten)
theorem atEnd_arg8 (c : Dev nD) : atEnd m ρ c (Proc.devRef .tc main_arg8) = m ((c : Thread nD τ).loc main_arg8) :=
  atEnd_of_untouched m ρ c main_arg8 (by decide) (by decide) (by unwritten) (by decide) (by decide) (by unwritten)
theorem atEnd_arg9 (c : Dev nD) : atEnd m ρ c (Proc.devRef .tc main_arg9) = m ((c : Thread nD τ).loc main_arg9) :=
  atEnd_of_untouched m ρ c main_arg9 (by decide) (by decide) (by unwritten) (by decide) (by decide) (by unwritten)
theorem atEnd_arg10 (c : Dev nD) : atEnd m ρ c (Proc.devRef .tc main_arg10) = m ((c : Thread nD τ).loc main_arg10) :=
  atEnd_of_untouched m ρ c main_arg10 (by decide) (by decide) (by unwritten) (by decide) (by decide) (by unwritten)

end Cert.Kernel.Regions

end
-- ==== Proof.Bits.Held.lean ====
/- A kernel region of the printed kernel's @main over the thread state "every unscoped buffer held at a named contents",
   stated once for all four regions. The text of the idealized kernel's module with the program's name substituted.
-/
import proofs.«124944_j59854664237622_1_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- No pipeline of this program prefetches a table: the one admissible contents. -/
abbrev adm : (p : Fin 4) → (pcfgs (F := F) p).Adm := fun p => (cfgs p).toPCfg_adm
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

variable (pdats : (p : Fin 4) → (c : Dev nD) → Dat τ (Elt F) Unit ℕ (UR sig nD τ) ℕ (Pipeline.pin (pcfgs (F := F)) adm p) c)

set_option backward.isDefEq.respectTransparency.types false in
/-- The region of pipeline p, entered from every unscoped buffer at `Win` and left at `Wout`. Asked of the proof data:
    the invariant is the class's (the scoped rest and the generator register), nothing is owed, every share is whole, no
    bound is put on the pairs the core's waits have recorded, and the arrays start at `Win`'s contents. Asked of the two contents: `Wout` has the arrays at what the pipeline leaves
    and agrees with `Win` everywhere else. -/
def heldRegion (p : Fin 4) (launch : Pipeline.LaunchFacts (nD := nD) (τ := τ) cfgs p)
    (hbody : ∀ c, BodyObligation (pdats p c) (defs₀ (F := F)) 𝒱₀ () Set.univ)
    (hΦ : ∀ c i, (pdats p c).Φ i = Pipeline.ΦA (Pipeline.pin (pcfgs (F := F)) adm p).spec c)
    (howed : ∀ c t, (pdats p c).owed t = 0)
    (hshare : ∀ c w, (pdats p c).share w = fullShare)
    (hrec : ∀ c i, (pdats p c).recorded i = Set.univ)
    (Win Wout : Dev nD → Valuation τ sig (Elt F))
    (hA : ∀ c w, (pdats p c).A w = Win c (Proc.devRef .tc (Pipeline.arrRef (Pipeline.pin (pcfgs (F := F)) adm p).spec w)))
    (hF : ∀ c w, (pdats p c).arrAt w (Pipeline.pin (pcfgs (F := F)) adm p).N
      = Wout c (Proc.devRef .tc (Pipeline.arrRef (Pipeline.pin (pcfgs (F := F)) adm p).spec w)))
    (hrest : ∀ c (b : Ref sig .tc), b ∉ Finset.univ.image (Pipeline.arrRef (Pipeline.pin (pcfgs (F := F)) adm p).spec) →
      Wout c (Proc.devRef .tc b) = Win c (Proc.devRef .tc b)) :
    Pipeline.RegionSeg (pcfgs (F := F)) adm pdats () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c
    (fun b => Win c (Proc.devRef .tc b))
  hentry c := by
    rw [Pipeline.ownSems0_none]
    unfold Pipeline.Dat.owesAt Pipeline.owesWithin
    rw [howed c 0]
    have hsplit := Pipeline.arrays_of_unscopedBufs (p := p) (pcfgs (F := F)) adm pdats launch.win launch.arr_whole c
      (hshare c) (fun b => Win c (Proc.devRef .tc b)) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl (by rw [hrec c 0]; trivial)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    unfold Pipeline.Dat.owesAt Pipeline.owesWithin
    rw [howed c (Fin.last _)]
    have hjoin := Pipeline.unscopedBufs_of_arrays (p := p) (pcfgs (F := F)) adm (Ix := Unit) (Name := ℕ) (U := UR sig nD τ) (Lvl := ℕ)
      launch.win launch.arr_whole c pdats (hshare c)
      (fun b => Win c (Proc.devRef .tc b)) (fun b => Wout c (Proc.devRef .tc b))
      ((pdats p c).arrAt · (Pipeline.pin (pcfgs (F := F)) adm p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%W, -, HO⟩; iexists W; iexact HO

end Cert.Kernel.Regions

end
-- ==== Proof.Bits.Frame.lean ====
/- The printed kernel's run assembled from its six segments, and its frame: every weakly fair execution terminates,
   nothing faults, every unscoped buffer ends at the fold's contents, the arguments at their launch contents.
   The text of the idealized kernel's module with the program's name substituted.
-/
import proofs.«124944_j59854664237622_1_alg».proof.Proof.Bits.Run
import proofs.«124944_j59854664237622_1_alg».proof.Proof.Bits.Held

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every pipeline's proof data, each at the contents its region is entered from. A literal match, so that the
    pipeline at a numeral is the printed configuration. -/
def pdats : (p : Fin 4) → (c : Dev nD) → Dat τ (Elt F) Unit ℕ (UR sig nD τ) ℕ (Pipeline.pin (pcfgs (F := F)) adm p) c
  | ⟨0, _⟩ => fun c => userDat (inWeights m ρ) c
  | ⟨1, _⟩ => fun c => itemDat (inUserProj m ρ) c
  | ⟨2, _⟩ => fun c => itemOutDat (inMeans m ρ) c
  | ⟨3, _⟩ => fun c => userOutDat (inItemOut m ρ) c

/-! ## The four regions as segments -/

set_option backward.isDefEq.respectTransparency.types false in
/-- The user projection: from the grouped weights in place to its result written. -/
def userProjSeg : Pipeline.RegionSeg (pcfgs (F := F)) adm (pdats m ρ) () defs₀ 𝒱₀ L lv 0 :=
  heldRegion (pdats m ρ) 0 launch0 (fun c => userProj_obligation (inWeights m ρ) c) (fun _ _ => rfl) (fun _ _ => rfl)
    (fun c => (pdats m ρ 0 c).share_full fun _ => rfl) (fun _ _ => rfl) (atWeights m ρ) (atUserProj m ρ) (fun _ _ => rfl)
    (fun c w => (atUserProj_arr m ρ c w).symm)
    (fun c b hb => atUserProj_of_ne m ρ c b fun w e => hb (Finset.mem_image.mpr ⟨w, Finset.mem_univ _, e⟩))

set_option backward.isDefEq.respectTransparency.types false in
/-- The item projection, entered from the user projection's exit. -/
def itemProjSeg : Pipeline.RegionSeg (pcfgs (F := F)) adm (pdats m ρ) () defs₀ 𝒱₀ L lv 1 :=
  heldRegion (pdats m ρ) 1 launch1 (fun c => itemProj_obligation (inUserProj m ρ) c) (fun _ _ => rfl) (fun _ _ => rfl)
    (fun c => (pdats m ρ 1 c).share_full fun _ => rfl) (fun _ _ => rfl) (atUserProj m ρ) (atItemProj m ρ) (fun _ _ => rfl)
    (fun c w => (atItemProj_arr m ρ c w).symm)
    (fun c b hb => atItemProj_of_ne m ρ c b fun w e => hb (Finset.mem_image.mpr ⟨w, Finset.mem_univ _, e⟩))

set_option backward.isDefEq.respectTransparency.types false in
/-- The item output, entered with the three means computed. -/
def itemOutSeg : Pipeline.RegionSeg (pcfgs (F := F)) adm (pdats m ρ) () defs₀ 𝒱₀ L lv 2 :=
  heldRegion (pdats m ρ) 2 launch2 (fun c => itemOut_obligation (inMeans m ρ) c) (fun _ _ => rfl) (fun _ _ => rfl)
    (fun c => (pdats m ρ 2 c).share_full fun _ => rfl) (fun _ _ => rfl) (atMeans m ρ) (atItemOut m ρ) (fun _ _ => rfl)
    (fun c w => (atItemOut_arr m ρ c w).symm)
    (fun c b hb => atItemOut_of_ne m ρ c b fun w e => hb (Finset.mem_image.mpr ⟨w, Finset.mem_univ _, e⟩))

set_option backward.isDefEq.respectTransparency.types false in
/-- The user output, entered from the item output's exit. -/
def userOutSeg : Pipeline.RegionSeg (pcfgs (F := F)) adm (pdats m ρ) () defs₀ 𝒱₀ L lv 3 :=
  heldRegion (pdats m ρ) 3 launch3 (fun c => userOut_obligation (inItemOut m ρ) c) (fun _ _ => rfl) (fun _ _ => rfl)
    (fun c => (pdats m ρ 3 c).share_full fun _ => rfl) (fun _ _ => rfl) (atItemOut m ρ) (atEnd m ρ) (fun _ _ => rfl)
    (fun c w => (atEnd_arr m ρ c w).symm)
    (fun c b hb => atEnd_of_ne m ρ c b fun w e => hb (Finset.mem_image.mpr ⟨w, Finset.mem_univ _, e⟩))

/-! ## The host stretches as segments -/

/-- A host stretch from the contents W: it holds every unscoped buffer at W and leaves them at its operations applied to W. -/
abbrev hostStretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- Neither stretch allocates a buffer. -/
theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

/-! ## @main as its segments, and the launch -/

abbrev segs : List (Pipeline.Seg (pcfgs (F := F)) adm (pdats m ρ) () defs₀ 𝒱₀ L lv) :=
  [ .host (hostStretch hostOps0 hostOps0_sub hostOps0_fresh (atLaunch m ρ)),
    .region (userProjSeg m ρ),
    .region (itemProjSeg m ρ),
    .host (hostStretch hostOps2 hostOps2_sub hostOps2_fresh (atItemProj m ρ)),
    .region (itemOutSeg m ρ),
    .region (userOutSeg m ρ) ]

/-- @main is the run of these six segments. -/
theorem main_run (c : Dev nD) : main (F := F) c = Pipeline.Seg.run (segs m ρ) := (main_chain c).trans (by chain_rfl)

/-- The last thread state beside the core owing nothing: every unscoped buffer at the final contents. -/
abbrev endState (c : Dev nD) : sProp 𝕄 := iprop(StableHlo.held (c : Thread nD τ) (Pipeline.ucRefs τ sig) (atEnd m ρ c) ∗ ∃ r, prngReg c r)

set_option backward.isDefEq.respectTransparency.types false in
/-- THE RUN. From any memory with zero counters every weakly fair execution of @main terminates, nothing faulting, and
    every unscoped buffer of every core ends at the contents `atEnd`. -/
theorem run_all : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = atEnd m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m ρ c) ∗ R c)) (Tₙ := endState m ρ)
    (hch := ⟨fun _ => .rfl, fun _ => .rfl, fun _ => .rfl, fun _ => .rfl, fun _ => .rfl, fun _ => .rfl, fun c => by
      -- the last region leaves: the buffers, beside (the register and the empty debt); the launch reads: (the buffers
      -- and the register), beside the empty debt. The same three things, grouped the other way.
      show iprop(StableHlo.held (c : Thread nD τ) (Pipeline.ucRefs τ sig) (atEnd m ρ c) ∗ R c)
        ⊢ iprop(endState m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (atLaunch m ρ c)
        from Pipeline.unscopedBufs_held c (atLaunch m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = atEnd m ρ c b)
    (hfin := fun c s' => by
      iintro ⟨⟨Hh, -⟩, HSI⟩
      unfold StableHlo.held
      imodintro
      iapply (pointsTo_read_all (Pipeline.ucRefs τ sig) (fun b => (((c : Thread nD τ)).1, b)) (atEnd m ρ c) s')
      isplitl [Hh] <;> iassumption)
    (hQ := fun s h c b hb => h c _ (mem_uc b hb))

/-- THE FRAME: the run, read at the eleven arguments. None is written by any step, so each ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c main_arg0 (by decide)).trans (atEnd_arg0 m ρ c), (h c main_arg1 (by decide)).trans (atEnd_arg1 m ρ c),
     (h c main_arg2 (by decide)).trans (atEnd_arg2 m ρ c), (h c main_arg3 (by decide)).trans (atEnd_arg3 m ρ c),
     (h c main_arg4 (by decide)).trans (atEnd_arg4 m ρ c), (h c main_arg5 (by decide)).trans (atEnd_arg5 m ρ c),
     (h c main_arg6 (by decide)).trans (atEnd_arg6 m ρ c), (h c main_arg7 (by decide)).trans (atEnd_arg7 m ρ c),
     (h c main_arg8 (by decide)).trans (atEnd_arg8 m ρ c), (h c main_arg9 (by decide)).trans (atEnd_arg9 m ρ c),
     (h c main_arg10 (by decide)).trans (atEnd_arg10 m ρ c)⟩) (run_all m ρ)

end Cert.Kernel.Regions

end
-- ==== Proof.Ideal.UserProj.lean ====
/-
  Region 0 of the idealized kernel: the grouped projection of the user features.
  At grid point t the body reads the t-th block of 5000 rows of x_user (window 0) and the whole 128 x 512 matrix
  W_user = [w_rates_src | w_rated_tgt | w_follows_src | w_follows_tgt] (window 1, resident: its block index never
  moves), and overwrites the t-th block of 5000 rows of the 50000 x 512 result (window 2) with the product
  block * W_user accumulated from zero. Nothing of the result block's old contents survives: one store covers it.
  Everything here is stated at a parameter V, the buffer contents when the region is entered, and at any float
  instance F; the run instantiates V.
-/
import proofs.«124944_j59854664237622_1_alg».proof.Proof.Gen.KernelIdeal.Launch
import proofs.«124944_j59854664237622_1_alg».proof.Proof.Gen.KernelIdeal.Skeleton
import proofs.«124944_j59854664237622_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, cut out of its array as the region finds it. -/
def userBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer of the feature rows holds block t when the body runs at t. -/
theorem userRows_staged {c : Dev nD} (dat : Dat τ (Elt F) Unit ℕ (UR sig nD τ) ℕ cfg0 c) (hA : dat.A 0 = V c (Pipeline.arrRef spec0 0))
    (hafter : ∀ t, dat.after 0 t = userBlk V c 0 t) (t : Fin cfg0.N) (d) : dat.before 0 t d = userBlk V c 0 t :=
  (dat.before_in_eq_fetched 0 rfl (fun _ => rfl) (fun _ _ _ => rfl) (fun t => by rw [hafter]; unfold Dat.blockOf userBlk; rw [hA]; try rfl) t d).trans
    (by unfold Dat.fetched Dat.blockOf userBlk; rw [hA]; try rfl)

/-- The staging buffer of the weights holds the whole matrix at every point: it is fetched once and its block never changes. -/
theorem userWeights_staged {c : Dev nD} (dat : Dat τ (Elt F) Unit ℕ (UR sig nD τ) ℕ cfg0 c) (hA : dat.A 1 = V c (Pipeline.arrRef spec0 1))
    (hafter : ∀ t, dat.after 1 t = userBlk V c 1 t) (t : Fin cfg0.N) (d) : dat.before 1 t d = userBlk V c 1 t :=
  (dat.before_in_eq_fetched 1 rfl (fun _ => rfl) (fun _ _ _ => rfl) (fun t => by rw [hafter]; unfold Dat.blockOf userBlk; rw [hA]; try rfl) t d).trans
    (by unfold Dat.fetched Dat.blockOf userBlk; rw [hA]; try rfl)

/-- The three whole-buffer rectangles the body touches. -/
abbrev userRowsRect : Rect S5000x128 := Rect.unit (s := S5000x128) ![0, 0] S5000x128.size inb_S5000x128_S5000x128_0_0
abbrev userWRect : Rect S128x512 := Rect.unit (s := S128x512) ![0, 0] S128x512.size inb_S128x512_S128x512_0_0
abbrev userOutRect : Rect S5000x512 := Rect.unit (s := S5000x512) ![0, 0] S5000x512.size inb_S5000x512_S5000x512_0_0

/-- What the body leaves in the result's staging buffer: the product of the row block and the weights, as the one piece that covers it. -/
def userProjOut (x : Vec F S5000x128 .f32) (w : Vec F S128x512 .f32) : Vec F S5000x512 .f32 :=
  View.canon [⟨userOutRect, k0_pay1 (View.ld x userRowsRect) (View.ld w userWRect)⟩]

theorem userProjOut_covers (p : Vec F S5000x512 .f32) (y : S5000x512.Idx) :
    ∃ pc ∈ ([⟨userOutRect, p⟩] : List (View.Piece (Elt F) S5000x512 .f32)), y ∈ pc.1.set :=
  View.cover_of_tiled [⟨userOutRect, p⟩] S5000x512.size (by rfl) y

set_option maxHeartbeats 1000000 in
/-- The body on whole staging buffers: the inputs keep their contents and the result buffer, whatever it held, ends at the product. -/
theorem userProj_body (c : Dev nD) (E : Set ℕ) (i : grid0.Coords)
    (a1 : Memref sig .tc .vmem S5000x128 .f32) (h1 : a1.IsWhole) (a2 : Memref sig .tc .vmem S128x512 .f32) (h2 : a2.IsWhole)
    (a3 : Memref sig .tc .vmem S5000x512 .f32) (h3 : a3.IsWhole)
    (x : Vec F S5000x128 .f32) (w : Vec F S128x512 .f32) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w ∗ owns (c : Thread nD τ) a3 fullShare (userProjOut x w)) -∗ K ⟨⟩))
      ⊢ wp frame (wpE (defs₀ (F := F)) Variants.none c none) E (cc0__proj_kernel i a1 h1 a2 h2 a3 h3) K := by
  simp only [cc0__proj_kernel_eq_skeleton]; unfold cc0__proj_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (userProjOut_covers _)

/-- The proof data of the region on core c: the three arrays as the region finds them; after the body at point t the
    two inputs' staging buffers still hold their blocks and the result's holds the product of those blocks. Nothing
    is owed and every share is whole; beside the buffers only the untouched scoped rest rides along. -/
def userDat (c : Dev nD) : Dat τ (Elt F) Unit ℕ (UR sig nD τ) ℕ cfg0 c where
  A w := V c (Pipeline.arrRef spec0 w)
  after w t := match w with
    | ⟨0, _⟩ => userBlk V c 0 t
    | ⟨1, _⟩ => userBlk V c 1 t
    | ⟨2, _⟩ => userProjOut (userBlk V c 0 t) (userBlk V c 1 t)
  Φ _ := Pipeline.ΦA spec0 c
  q _ := fullShare
  owed _ := 0

theorem userDat_A (c : Dev nD) (w : Fin cfg0.W) : (userDat V c).A w = V c (Pipeline.arrRef spec0 w) := by
  dsimp only [userDat]

theorem userDat_after0 (c : Dev nD) (t : Fin cfg0.N) : (userDat V c).after 0 t = userBlk V c 0 t := by dsimp only [userDat]
theorem userDat_after1 (c : Dev nD) (t : Fin cfg0.N) : (userDat V c).after 1 t = userBlk V c 1 t := by dsimp only [userDat]
theorem userDat_after2 (c : Dev nD) (t : Fin cfg0.N) :
    (userDat V c).after 2 t = userProjOut (userBlk V c 0 t) (userBlk V c 1 t) := by dsimp only [userDat]

theorem userDat_before0 (c : Dev nD) (t : Fin cfg0.N) (d) : (userDat V c).before 0 t d = userBlk V c 0 t :=
  userRows_staged V (userDat V c) (userDat_A V c 0) (userDat_after0 V c) t d
theorem userDat_before1 (c : Dev nD) (t : Fin cfg0.N) (d) : (userDat V c).before 1 t d = userBlk V c 1 t :=
  userWeights_staged V (userDat V c) (userDat_A V c 1) (userDat_after1 V c) t d

/-- What the body is called with at point t, window by window, -/
def userPre (c : Dev nD) (t : Fin cfg0.N) : sProp 𝕄 :=
  iprop((userDat V c).Φ t.castSucc ∗ (userDat V c).owesAt () t.castSucc
    ∗ (∃ d, owns (c : Thread nD τ) (st0_0 t) fullShare ((userDat V c).before 0 t d))
    ∗ (∃ d, owns (c : Thread nD τ) (st0_1 t) fullShare ((userDat V c).before 1 t d))
    ∗ (∃ d, owns (c : Thread nD τ) (st0_2 t) fullShare ((userDat V c).before 2 t d)))

/-- and what it returns. -/
def userPost (c : Dev nD) (t : Fin cfg0.N) : sProp 𝕄 :=
  iprop((userDat V c).Φ t.succ ∗ (userDat V c).owesAt () t.succ
    ∗ owns (c : Thread nD τ) (st0_0 t) fullShare ((userDat V c).after 0 t)
    ∗ owns (c : Thread nD τ) (st0_1 t) fullShare ((userDat V c).after 1 t)
    ∗ owns (c : Thread nD τ) (st0_2 t) fullShare ((userDat V c).after 2 t))

/-- The body at any point: the inputs' staging buffers hold their blocks, so the triple applies; the result's buffer may
    hold anything; the scoped rest and the core's debts pass through unread. -/
theorem userProj_sound (c : Dev nD) (t : Fin cfg0.N) :
    userPre V c t ⊢ wp frame (wpE (defs₀ (F := F)) Variants.none c none) Set.univ (bodyAt0 t) (fun _ => userPost V c t) := by
  unfold userPre userPost bodyAt0
  simp only [userDat_before0, userDat_before1]
  rw [show (userDat V c).Φ t.succ = (userDat V c).Φ t.castSucc from rfl,
    show (userDat V c).owesAt () t.succ = (userDat V c).owesAt () t.castSucc from rfl,
    userDat_after0, userDat_after1, userDat_after2]
  iintro ⟨HΦ, Ho, ⟨%d0, H0⟩, ⟨%d1, H1⟩, ⟨%d2, H2⟩⟩
  iapply (userProj_body c Set.univ _ _ _ _ _ _ _ (userBlk V c 0 t) (userBlk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for the region, at every point. -/
theorem userProj_obligation (c : Dev nD) : BodyObligation (userDat (F := F) V c) (defs₀ (F := F)) Variants.none () Set.univ := fun t => by
  rw [bigSep_W0, bigSep_W0]
  exact userProj_sound V c t

end Cert.KernelIdeal.Regions

end
-- ==== Proof.Ideal.ItemProj.lean ====
/- Region 1 of the idealized kernel: the grouped projection of the item features.
   At grid point t the body reads the t-th block of 5000 rows of x_item (window 0) and the whole 128 x 256 matrix
   W_item = [w_rated_src | w_rates_tgt] (window 1, resident: its block index never moves), and overwrites the t-th
   block of 5000 rows of the 50000 x 256 result (window 2) with the product block * W_item accumulated from zero.
   The same text as the user projection's module at 256 columns.
-/
import proofs.«124944_j59854664237622_1_alg».proof.Proof.Gen.KernelIdeal.Launch
import proofs.«124944_j59854664237622_1_alg».proof.Proof.Gen.KernelIdeal.Skeleton
import proofs.«124944_j59854664237622_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, cut out of its array as the region finds it. -/
def itemBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The staging buffer of the feature rows holds block t when the body runs at t. -/
theorem itemRows_staged {c : Dev nD} (dat : Dat τ (Elt F) Unit ℕ (UR sig nD τ) ℕ cfg1 c) (hA : dat.A 0 = V c (Pipeline.arrRef spec1 0))
    (hafter : ∀ t, dat.after 0 t = itemBlk V c 0 t) (t : Fin cfg1.N) (d) : dat.before 0 t d = itemBlk V c 0 t :=
  (dat.before_in_eq_fetched 0 rfl (fun _ => rfl) (fun _ _ _ => rfl) (fun t => by rw [hafter]; unfold Dat.blockOf itemBlk; rw [hA]; try rfl) t d).trans
    (by unfold Dat.fetched Dat.blockOf itemBlk; rw [hA]; try rfl)

/-- The staging buffer of the weights holds the whole matrix at every point: it is fetched once and its block never changes. -/
theorem itemWeights_staged {c : Dev nD} (dat : Dat τ (Elt F) Unit ℕ (UR sig nD τ) ℕ cfg1 c) (hA : dat.A 1 = V c (Pipeline.arrRef spec1 1))
    (hafter : ∀ t, dat.after 1 t = itemBlk V c 1 t) (t : Fin cfg1.N) (d) : dat.before 1 t d = itemBlk V c 1 t :=
  (dat.before_in_eq_fetched 1 rfl (fun _ => rfl) (fun _ _ _ => rfl) (fun t => by rw [hafter]; unfold Dat.blockOf itemBlk; rw [hA]; try rfl) t d).trans
    (by unfold Dat.fetched Dat.blockOf itemBlk; rw [hA]; try rfl)

/-- The three whole-buffer rectangles the body touches. -/
abbrev itemRowsRect : Rect S5000x128 := Rect.unit (s := S5000x128) ![0, 0] S5000x128.size inb_S5000x128_S5000x128_0_0
abbrev itemWRect : Rect S128x256 := Rect.unit (s := S128x256) ![0, 0] S128x256.size inb_S128x256_S128x256_0_0
abbrev itemProjRect : Rect S5000x256 := Rect.unit (s := S5000x256) ![0, 0] S5000x256.size inb_S5000x256_S5000x256_0_0

/-- What the body leaves in the result's staging buffer: the product of the row block and the weights, as the one piece that covers it. -/
def itemProjOut (x : Vec F S5000x128 .f32) (w : Vec F S128x256 .f32) : Vec F S5000x256 .f32 :=
  View.canon [⟨itemProjRect, k1_pay1 (View.ld x itemRowsRect) (View.ld w itemWRect)⟩]

theorem itemProjOut_covers (p : Vec F S5000x256 .f32) (y : S5000x256.Idx) :
    ∃ pc ∈ ([⟨itemProjRect, p⟩] : List (View.Piece (Elt F) S5000x256 .f32)), y ∈ pc.1.set :=
  View.cover_of_tiled [⟨itemProjRect, p⟩] S5000x256.size (by rfl) y

set_option maxHeartbeats 1000000 in
/-- The body on whole staging buffers: the inputs keep their contents and the result buffer, whatever it held, ends at the product. -/
theorem itemProj_body (c : Dev nD) (E : Set ℕ) (i : grid1.Coords)
    (a1 : Memref sig .tc .vmem S5000x128 .f32) (h1 : a1.IsWhole) (a2 : Memref sig .tc .vmem S128x256 .f32) (h2 : a2.IsWhole)
    (a3 : Memref sig .tc .vmem S5000x256 .f32) (h3 : a3.IsWhole)
    (x : Vec F S5000x128 .f32) (w : Vec F S128x256 .f32) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w ∗ owns (c : Thread nD τ) a3 fullShare (itemProjOut x w)) -∗ K ⟨⟩))
      ⊢ wp frame (wpE (defs₀ (F := F)) Variants.none c none) E (cc1__proj_kernel i a1 h1 a2 h2 a3 h3) K := by
  simp only [cc1__proj_kernel_eq_skeleton]; unfold cc1__proj_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (itemProjOut_covers _)

/-- The proof data of the region on core c: the three arrays as the region finds them; after the body at point t the
    two inputs' staging buffers still hold their blocks and the result's holds the product of those blocks. Nothing
    is owed and every share is whole; beside the buffers only the untouched scoped rest rides along. -/
def itemDat (c : Dev nD) : Dat τ (Elt F) Unit ℕ (UR sig nD τ) ℕ cfg1 c where
  A w := V c (Pipeline.arrRef spec1 w)
  after w t := match w with
    | ⟨0, _⟩ => itemBlk V c 0 t
    | ⟨1, _⟩ => itemBlk V c 1 t
    | ⟨2, _⟩ => itemProjOut (itemBlk V c 0 t) (itemBlk V c 1 t)
  Φ _ := Pipeline.ΦA spec1 c
  q _ := fullShare
  owed _ := 0

theorem itemDat_A (c : Dev nD) (w : Fin cfg1.W) : (itemDat V c).A w = V c (Pipeline.arrRef spec1 w) := by
  dsimp only [itemDat]

theorem itemDat_after0 (c : Dev nD) (t : Fin cfg1.N) : (itemDat V c).after 0 t = itemBlk V c 0 t := by dsimp only [itemDat]
theorem itemDat_after1 (c : Dev nD) (t : Fin cfg1.N) : (itemDat V c).after 1 t = itemBlk V c 1 t := by dsimp only [itemDat]
theorem itemDat_after2 (c : Dev nD) (t : Fin cfg1.N) :
    (itemDat V c).after 2 t = itemProjOut (itemBlk V c 0 t) (itemBlk V c 1 t) := by dsimp only [itemDat]

theorem itemDat_before0 (c : Dev nD) (t : Fin cfg1.N) (d) : (itemDat V c).before 0 t d = itemBlk V c 0 t :=
  itemRows_staged V (itemDat V c) (itemDat_A V c 0) (itemDat_after0 V c) t d
theorem itemDat_before1 (c : Dev nD) (t : Fin cfg1.N) (d) : (itemDat V c).before 1 t d = itemBlk V c 1 t :=
  itemWeights_staged V (itemDat V c) (itemDat_A V c 1) (itemDat_after1 V c) t d

/-- What the body is called with at point t, window by window, -/
def itemPre (c : Dev nD) (t : Fin cfg1.N) : sProp 𝕄 :=
  iprop((itemDat V c).Φ t.castSucc ∗ (itemDat V c).owesAt () t.castSucc
    ∗ (∃ d, owns (c : Thread nD τ) (st1_0 t) fullShare ((itemDat V c).before 0 t d))
    ∗ (∃ d, owns (c : Thread nD τ) (st1_1 t) fullShare ((itemDat V c).before 1 t d))
    ∗ (∃ d, owns (c : Thread nD τ) (st1_2 t) fullShare ((itemDat V c).before 2 t d)))

/-- and what it returns. -/
def itemPost (c : Dev nD) (t : Fin cfg1.N) : sProp 𝕄 :=
  iprop((itemDat V c).Φ t.succ ∗ (itemDat V c).owesAt () t.succ
    ∗ owns (c : Thread nD τ) (st1_0 t) fullShare ((itemDat V c).after 0 t)
    ∗ owns (c : Thread nD τ) (st1_1 t) fullShare ((itemDat V c).after 1 t)
    ∗ owns (c : Thread nD τ) (st1_2 t) fullShare ((itemDat V c).after 2 t))

/-- The body at any point: the inputs' staging buffers hold their blocks, so the triple applies; the result's buffer may
    hold anything; the scoped rest and the core's debts pass through unread. -/
theorem itemProj_sound (c : Dev nD) (t : Fin cfg1.N) :
    itemPre V c t ⊢ wp frame (wpE (defs₀ (F := F)) Variants.none c none) Set.univ (bodyAt1 t) (fun _ => itemPost V c t) := by
  unfold itemPre itemPost bodyAt1
  simp only [itemDat_before0, itemDat_before1]
  rw [show (itemDat V c).Φ t.succ = (itemDat V c).Φ t.castSucc from rfl,
    show (itemDat V c).owesAt () t.succ = (itemDat V c).owesAt () t.castSucc from rfl,
    itemDat_after0, itemDat_after1, itemDat_after2]
  iintro ⟨HΦ, Ho, ⟨%d0, H0⟩, ⟨%d1, H1⟩, ⟨%d2, H2⟩⟩
  iapply (itemProj_body c Set.univ _ _ _ _ _ _ _ (itemBlk V c 0 t) (itemBlk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for the region, at every point. -/
theorem itemProj_obligation (c : Dev nD) : BodyObligation (itemDat (F := F) V c) (defs₀ (F := F)) Variants.none () Set.univ := fun t => by
  rw [bigSep_W1, bigSep_W1]
  exact itemProj_sound V c t

end Cert.KernelIdeal.Regions

end
-- ==== Proof.Ideal.ItemOut.lean ====
/-
  Region 2 of the idealized kernel: the item output.
  At grid point t the body reads block t (5000 rows) of the item-side target projection x_item * w_rates_tgt (window 0)
  and block t of the mean of the messages that rate each item (window 1), and overwrites block t of the result
  (window 2) with  max (max ((a + b) * 1, 0), 0)  entry by entry. One store covers the block.
  Stated at a parameter V, the buffer contents when the region is entered, and at any float instance F.
-/
import proofs.«124944_j59854664237622_1_alg».proof.Proof.Gen.KernelIdeal.Launch
import proofs.«124944_j59854664237622_1_alg».proof.Proof.Gen.KernelIdeal.Skeleton
import proofs.«124944_j59854664237622_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, cut out of its array as the region finds it. -/
def itemOutBlk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The staging buffer of the target projection holds block t when the body runs at t. -/
theorem itemOutTgt_staged {c : Dev nD} (dat : Dat τ (Elt F) Unit ℕ (UR sig nD τ) ℕ cfg2 c) (hA : dat.A 0 = V c (Pipeline.arrRef spec2 0))
    (hafter : ∀ t, dat.after 0 t = itemOutBlk V c 0 t) (t : Fin cfg2.N) (d) : dat.before 0 t d = itemOutBlk V c 0 t :=
  (dat.before_in_eq_fetched 0 rfl (fun _ => rfl) (fun _ _ _ => rfl) (fun t => by rw [hafter]; unfold Dat.blockOf itemOutBlk; rw [hA]; try rfl) t d).trans
    (by unfold Dat.fetched Dat.blockOf itemOutBlk; rw [hA]; try rfl)

/-- So does the staging buffer of the message means. -/
theorem itemOutAgg_staged {c : Dev nD} (dat : Dat τ (Elt F) Unit ℕ (UR sig nD τ) ℕ cfg2 c) (hA : dat.A 1 = V c (Pipeline.arrRef spec2 1))
    (hafter : ∀ t, dat.after 1 t = itemOutBlk V c 1 t) (t : Fin cfg2.N) (d) : dat.before 1 t d = itemOutBlk V c 1 t :=
  (dat.before_in_eq_fetched 1 rfl (fun _ => rfl) (fun _ _ _ => rfl) (fun t => by rw [hafter]; unfold Dat.blockOf itemOutBlk; rw [hA]; try rfl) t d).trans
    (by unfold Dat.fetched Dat.blockOf itemOutBlk; rw [hA]; try rfl)

/-- The whole-buffer rectangle every access of the body uses. -/
abbrev itemOutRect : Rect S5000x128 := Rect.unit (s := S5000x128) ![0, 0] S5000x128.size inb_S5000x128_S5000x128_0_0

/-- What the body leaves in the result's staging buffer, as the one piece that covers it. -/
def itemOutVal (a b : Vec F S5000x128 .f32) : Vec F S5000x128 .f32 :=
  View.canon [⟨itemOutRect, k2_pay1 (View.ld a itemOutRect) (View.ld b itemOutRect)⟩]

theorem itemOutVal_covers (p : Vec F S5000x128 .f32) (y : S5000x128.Idx) :
    ∃ pc ∈ ([⟨itemOutRect, p⟩] : List (View.Piece (Elt F) S5000x128 .f32)), y ∈ pc.1.set :=
  View.cover_of_tiled [⟨itemOutRect, p⟩] S5000x128.size (by rfl) y

set_option maxHeartbeats 1000000 in
/-- The body on whole staging buffers: the inputs keep their contents and the result buffer, whatever it held, ends at the combined value. -/
theorem itemOut_body (c : Dev nD) (E : Set ℕ) (i : grid2.Coords)
    (a1 : Memref sig .tc .vmem S5000x128 .f32) (h1 : a1.IsWhole) (a2 : Memref sig .tc .vmem S5000x128 .f32) (h2 : a2.IsWhole)
    (a3 : Memref sig .tc .vmem S5000x128 .f32) (h3 : a3.IsWhole)
    (a b : Vec F S5000x128 .f32) (K : PUnit → sProp 𝕄) :
    iprop(owns (c : Thread nD τ) a1 fullShare a ∗ owns (c : Thread nD τ) a2 fullShare b ∗ (∃ d, owns (c : Thread nD τ) a3 fullShare d)
        ∗ (iprop(owns (c : Thread nD τ) a1 fullShare a ∗ owns (c : Thread nD τ) a2 fullShare b ∗ owns (c : Thread nD τ) a3 fullShare (itemOutVal a b)) -∗ K ⟨⟩))
      ⊢ wp frame (wpE (defs₀ (F := F)) Variants.none c none) E (cc2__combine2_kernel i a1 h1 a2 h2 a3 h3) K := by
  simp only [cc2__combine2_kernel_eq_skeleton]; unfold cc2__combine2_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (itemOutVal_covers _)

/-- The proof data of the region on core c: the three arrays as the region finds them; after the body at point t the two
    inputs' staging buffers still hold their blocks and the result's holds the combined value of those blocks. Nothing is
    owed, every share is whole, and only the untouched scoped rest rides along. -/
def itemOutDat (c : Dev nD) : Dat τ (Elt F) Unit ℕ (UR sig nD τ) ℕ cfg2 c where
  A w := V c (Pipeline.arrRef spec2 w)
  after w t := match w with
    | ⟨0, _⟩ => itemOutBlk V c 0 t
    | ⟨1, _⟩ => itemOutBlk V c 1 t
    | ⟨2, _⟩ => itemOutVal (itemOutBlk V c 0 t) (itemOutBlk V c 1 t)
  Φ _ := Pipeline.ΦA spec2 c
  q _ := fullShare
  owed _ := 0

theorem itemOutDat_A (c : Dev nD) (w : Fin cfg2.W) : (itemOutDat V c).A w = V c (Pipeline.arrRef spec2 w) := by
  dsimp only [itemOutDat]

theorem itemOutDat_after0 (c : Dev nD) (t : Fin cfg2.N) : (itemOutDat V c).after 0 t = itemOutBlk V c 0 t := by dsimp only [itemOutDat]
theorem itemOutDat_after1 (c : Dev nD) (t : Fin cfg2.N) : (itemOutDat V c).after 1 t = itemOutBlk V c 1 t := by dsimp only [itemOutDat]
theorem itemOutDat_after2 (c : Dev nD) (t : Fin cfg2.N) :
    (itemOutDat V c).after 2 t = itemOutVal (itemOutBlk V c 0 t) (itemOutBlk V c 1 t) := by dsimp only [itemOutDat]

theorem itemOutDat_before0 (c : Dev nD) (t : Fin cfg2.N) (d) : (itemOutDat V c).before 0 t d = itemOutBlk V c 0 t :=
  itemOutTgt_staged V (itemOutDat V c) (itemOutDat_A V c 0) (itemOutDat_after0 V c) t d
theorem itemOutDat_before1 (c : Dev nD) (t : Fin cfg2.N) (d) : (itemOutDat V c).before 1 t d = itemOutBlk V c 1 t :=
  itemOutAgg_staged V (itemOutDat V c) (itemOutDat_A V c 1) (itemOutDat_after1 V c) t d

/-- What the body is called with at point t, window by window, -/
def itemOutPre (c : Dev nD) (t : Fin cfg2.N) : sProp 𝕄 :=
  iprop((itemOutDat V c).Φ t.castSucc ∗ (itemOutDat V c).owesAt () t.castSucc
    ∗ (∃ d, owns (c : Thread nD τ) (st2_0 t) fullShare ((itemOutDat V c).before 0 t d))
    ∗ (∃ d, owns (c : Thread nD τ) (st2_1 t) fullShare ((itemOutDat V c).before 1 t d))
    ∗ (∃ d, owns (c : Thread nD τ) (st2_2 t) fullShare ((itemOutDat V c).before 2 t d)))

/-- and what it returns. -/
def itemOutPost (c : Dev nD) (t : Fin cfg2.N) : sProp 𝕄 :=
  iprop((itemOutDat V c).Φ t.succ ∗ (itemOutDat V c).owesAt () t.succ
    ∗ owns (c : Thread nD τ) (st2_0 t) fullShare ((itemOutDat V c).after 0 t)
    ∗ owns (c : Thread nD τ) (st2_1 t) fullShare ((itemOutDat V c).after 1 t)
    ∗ owns (c : Thread nD τ) (st2_2 t) fullShare ((itemOutDat V c).after 2 t))

/-- The body at any point: the inputs' staging buffers hold their blocks, so the triple applies; the result's buffer may
    hold anything; the scoped rest and the core's debts pass through unread. -/
theorem itemOut_sound (c : Dev nD) (t : Fin cfg2.N) :
    itemOutPre V c t ⊢ wp frame (wpE (defs₀ (F := F)) Variants.none c none) Set.univ (bodyAt2 t) (fun _ => itemOutPost V c t) := by
  unfold itemOutPre itemOutPost bodyAt2
  simp only [itemOutDat_before0, itemOutDat_before1]
  rw [show (itemOutDat V c).Φ t.succ = (itemOutDat V c).Φ t.castSucc from rfl,
    show (itemOutDat V c).owesAt () t.succ = (itemOutDat V c).owesAt () t.castSucc from rfl,
    itemOutDat_after0, itemOutDat_after1, itemOutDat_after2]
  iintro ⟨HΦ, Ho, ⟨%d0, H0⟩, ⟨%d1, H1⟩, ⟨%d2, H2⟩⟩
  iapply (itemOut_body c Set.univ _ _ _ _ _ _ _ (itemOutBlk V c 0 t) (itemOutBlk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for the region, at every point. -/
theorem itemOut_obligation (c : Dev nD) : BodyObligation (itemOutDat (F := F) V c) (defs₀ (F := F)) Variants.none () Set.univ := fun t => by
  rw [bigSep_W2, bigSep_W2]
  exact itemOut_sound V c t

end Cert.KernelIdeal.Regions

end
-- ==== Proof.Ideal.UserOut.lean ====
/-
  Region 3 of the idealized kernel: the user output.
  At grid point t the body reads block t (5000 rows) of four 50000 x 128 arrays: the user-side target projection of the
  "rated by" relation x_user * w_rated_tgt (window 0), the mean of the messages that reach each user along it (window 1),
  the target projection of the "follows" relation x_user * w_follows_tgt (window 2) and the mean of its messages
  (window 3). It overwrites block t of the result (window 4) with  max (max ((((a + b) + c) + d) * 1/2, 0), 0)  entry by
  entry. One store covers the block.
  Stated at a parameter V, the buffer contents when the region is entered, and at any float instance F.
-/
import proofs.«124944_j59854664237622_1_alg».proof.Proof.Gen.KernelIdeal.Launch
import proofs.«124944_j59854664237622_1_alg».proof.Proof.Gen.KernelIdeal.Skeleton
import proofs.«124944_j59854664237622_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, cut out of its array as the region finds it. -/
def userOutBlk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each of the four inputs' staging buffers holds block t when the body runs at t: every one is fetched at every point. -/
theorem userOutIn0_staged {c : Dev nD} (dat : Dat τ (Elt F) Unit ℕ (UR sig nD τ) ℕ cfg3 c) (hA : dat.A 0 = V c (Pipeline.arrRef spec3 0))
    (hafter : ∀ t, dat.after 0 t = userOutBlk V c 0 t) (t : Fin cfg3.N) (d) : dat.before 0 t d = userOutBlk V c 0 t :=
  (dat.before_in_eq_fetched 0 rfl (fun _ => rfl) (fun _ _ _ => rfl) (fun t => by rw [hafter]; unfold Dat.blockOf userOutBlk; rw [hA]; try rfl) t d).trans
    (by unfold Dat.fetched Dat.blockOf userOutBlk; rw [hA]; try rfl)
theorem userOutIn1_staged {c : Dev nD} (dat : Dat τ (Elt F) Unit ℕ (UR sig nD τ) ℕ cfg3 c) (hA : dat.A 1 = V c (Pipeline.arrRef spec3 1))
    (hafter : ∀ t, dat.after 1 t = userOutBlk V c 1 t) (t : Fin cfg3.N) (d) : dat.before 1 t d = userOutBlk V c 1 t :=
  (dat.before_in_eq_fetched 1 rfl (fun _ => rfl) (fun _ _ _ => rfl) (fun t => by rw [hafter]; unfold Dat.blockOf userOutBlk; rw [hA]; try rfl) t d).trans
    (by unfold Dat.fetched Dat.blockOf userOutBlk; rw [hA]; try rfl)
theorem userOutIn2_staged {c : Dev nD} (dat : Dat τ (Elt F) Unit ℕ (UR sig nD τ) ℕ cfg3 c) (hA : dat.A 2 = V c (Pipeline.arrRef spec3 2))
    (hafter : ∀ t, dat.after 2 t = userOutBlk V c 2 t) (t : Fin cfg3.N) (d) : dat.before 2 t d = userOutBlk V c 2 t :=
  (dat.before_in_eq_fetched 2 rfl (fun _ => rfl) (fun _ _ _ => rfl) (fun t => by rw [hafter]; unfold Dat.blockOf userOutBlk; rw [hA]; try rfl) t d).trans
    (by unfold Dat.fetched Dat.blockOf userOutBlk; rw [hA]; try rfl)
theorem userOutIn3_staged {c : Dev nD} (dat : Dat τ (Elt F) Unit ℕ (UR sig nD τ) ℕ cfg3 c) (hA : dat.A 3 = V c (Pipeline.arrRef spec3 3))
    (hafter : ∀ t, dat.after 3 t = userOutBlk V c 3 t) (t : Fin cfg3.N) (d) : dat.before 3 t d = userOutBlk V c 3 t :=
  (dat.before_in_eq_fetched 3 rfl (fun _ => rfl) (fun _ _ _ => rfl) (fun t => by rw [hafter]; unfold Dat.blockOf userOutBlk; rw [hA]; try rfl) t d).trans
    (by unfold Dat.fetched Dat.blockOf userOutBlk; rw [hA]; try rfl)

/-- The whole-buffer rectangle every access of the body uses. -/
abbrev userOutRect5 : Rect S5000x128 := Rect.unit (s := S5000x128) ![0, 0] S5000x128.size inb_S5000x128_S5000x128_0_0

/-- What the body leaves in the result's staging buffer, as the one piece that covers it. -/
def userOutVal (a b c' d' : Vec F S5000x128 .f32) : Vec F S5000x128 .f32 :=
  View.canon [⟨userOutRect5, k3_pay1 (View.ld a userOutRect5) (View.ld b userOutRect5) (View.ld c' userOutRect5) (View.ld d' userOutRect5)⟩]

theorem userOutVal_covers (p : Vec F S5000x128 .f32) (y : S5000x128.Idx) :
    ∃ pc ∈ ([⟨userOutRect5, p⟩] : List (View.Piece (Elt F) S5000x128 .f32)), y ∈ pc.1.set :=
  View.cover_of_tiled [⟨userOutRect5, p⟩] S5000x128.size (by rfl) y

set_option maxHeartbeats 1000000 in
/-- The body on whole staging buffers: the four inputs keep their contents and the result buffer, whatever it held, ends at the combined value. -/
theorem userOut_body (c : Dev nD) (E : Set ℕ) (i : grid3.Coords)
    (a1 : Memref sig .tc .vmem S5000x128 .f32) (h1 : a1.IsWhole) (a2 : Memref sig .tc .vmem S5000x128 .f32) (h2 : a2.IsWhole)
    (a3 : Memref sig .tc .vmem S5000x128 .f32) (h3 : a3.IsWhole) (a4 : Memref sig .tc .vmem S5000x128 .f32) (h4 : a4.IsWhole)
    (a5 : Memref sig .tc .vmem S5000x128 .f32) (h5 : a5.IsWhole)
    (a b c' d' : Vec F S5000x128 .f32) (K : PUnit → sProp 𝕄) :
    iprop(owns (c : Thread nD τ) a1 fullShare a ∗ owns (c : Thread nD τ) a2 fullShare b ∗ owns (c : Thread nD τ) a3 fullShare c'
        ∗ owns (c : Thread nD τ) a4 fullShare d' ∗ (∃ e, owns (c : Thread nD τ) a5 fullShare e)
        ∗ (iprop(owns (c : Thread nD τ) a1 fullShare a ∗ owns (c : Thread nD τ) a2 fullShare b ∗ owns (c : Thread nD τ) a3 fullShare c'
            ∗ owns (c : Thread nD τ) a4 fullShare d' ∗ owns (c : Thread nD τ) a5 fullShare (userOutVal a b c' d')) -∗ K ⟨⟩))
      ⊢ wp frame (wpE (defs₀ (F := F)) Variants.none c none) E (cc3__combine4_kernel i a1 h1 a2 h2 a3 h3 a4 h4 a5 h5) K := by
  simp only [cc3__combine4_kernel_eq_skeleton]; unfold cc3__combine4_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (userOutVal_covers _)

/-- The proof data of the region on core c: the five arrays as the region finds them; after the body at point t the four
    inputs' staging buffers still hold their blocks and the result's holds the combined value of those blocks. Nothing is
    owed, every share is whole, and only the untouched scoped rest rides along. -/
def userOutDat (c : Dev nD) : Dat τ (Elt F) Unit ℕ (UR sig nD τ) ℕ cfg3 c where
  A w := V c (Pipeline.arrRef spec3 w)
  after w t := match w with
    | ⟨0, _⟩ => userOutBlk V c 0 t
    | ⟨1, _⟩ => userOutBlk V c 1 t
    | ⟨2, _⟩ => userOutBlk V c 2 t
    | ⟨3, _⟩ => userOutBlk V c 3 t
    | ⟨4, _⟩ => userOutVal (userOutBlk V c 0 t) (userOutBlk V c 1 t) (userOutBlk V c 2 t) (userOutBlk V c 3 t)
  Φ _ := Pipeline.ΦA spec3 c
  q _ := fullShare
  owed _ := 0

theorem userOutDat_A (c : Dev nD) (w : Fin cfg3.W) : (userOutDat V c).A w = V c (Pipeline.arrRef spec3 w) := by
  dsimp only [userOutDat]

theorem userOutDat_after0 (c : Dev nD) (t : Fin cfg3.N) : (userOutDat V c).after 0 t = userOutBlk V c 0 t := by dsimp only [userOutDat]
theorem userOutDat_after1 (c : Dev nD) (t : Fin cfg3.N) : (userOutDat V c).after 1 t = userOutBlk V c 1 t := by dsimp only [userOutDat]
theorem userOutDat_after2 (c : Dev nD) (t : Fin cfg3.N) : (userOutDat V c).after 2 t = userOutBlk V c 2 t := by dsimp only [userOutDat]
theorem userOutDat_after3 (c : Dev nD) (t : Fin cfg3.N) : (userOutDat V c).after 3 t = userOutBlk V c 3 t := by dsimp only [userOutDat]
theorem userOutDat_after4 (c : Dev nD) (t : Fin cfg3.N) :
    (userOutDat V c).after 4 t = userOutVal (userOutBlk V c 0 t) (userOutBlk V c 1 t) (userOutBlk V c 2 t) (userOutBlk V c 3 t) := by
  dsimp only [userOutDat]

theorem userOutDat_before0 (c : Dev nD) (t : Fin cfg3.N) (d) : (userOutDat V c).before 0 t d = userOutBlk V c 0 t :=
  userOutIn0_staged V (userOutDat V c) (userOutDat_A V c 0) (userOutDat_after0 V c) t d
theorem userOutDat_before1 (c : Dev nD) (t : Fin cfg3.N) (d) : (userOutDat V c).before 1 t d = userOutBlk V c 1 t :=
  userOutIn1_staged V (userOutDat V c) (userOutDat_A V c 1) (userOutDat_after1 V c) t d
theorem userOutDat_before2 (c : Dev nD) (t : Fin cfg3.N) (d) : (userOutDat V c).before 2 t d = userOutBlk V c 2 t :=
  userOutIn2_staged V (userOutDat V c) (userOutDat_A V c 2) (userOutDat_after2 V c) t d
theorem userOutDat_before3 (c : Dev nD) (t : Fin cfg3.N) (d) : (userOutDat V c).before 3 t d = userOutBlk V c 3 t :=
  userOutIn3_staged V (userOutDat V c) (userOutDat_A V c 3) (userOutDat_after3 V c) t d

/-- What the body is called with at point t, window by window, -/
def userOutPre (c : Dev nD) (t : Fin cfg3.N) : sProp 𝕄 :=
  iprop((userOutDat V c).Φ t.castSucc ∗ (userOutDat V c).owesAt () t.castSucc
    ∗ (∃ d, owns (c : Thread nD τ) (st3_0 t) fullShare ((userOutDat V c).before 0 t d))
    ∗ (∃ d, owns (c : Thread nD τ) (st3_1 t) fullShare ((userOutDat V c).before 1 t d))
    ∗ (∃ d, owns (c : Thread nD τ) (st3_2 t) fullShare ((userOutDat V c).before 2 t d))
    ∗ (∃ d, owns (c : Thread nD τ) (st3_3 t) fullShare ((userOutDat V c).before 3 t d))
    ∗ (∃ d, owns (c : Thread nD τ) (st3_4 t) fullShare ((userOutDat V c).before 4 t d)))

/-- and what it returns. -/
def userOutPost (c : Dev nD) (t : Fin cfg3.N) : sProp 𝕄 :=
  iprop((userOutDat V c).Φ t.succ ∗ (userOutDat V c).owesAt () t.succ
    ∗ owns (c : Thread nD τ) (st3_0 t) fullShare ((userOutDat V c).after 0 t)
    ∗ owns (c : Thread nD τ) (st3_1 t) fullShare ((userOutDat V c).after 1 t)
    ∗ owns (c : Thread nD τ) (st3_2 t) fullShare ((userOutDat V c).after 2 t)
    ∗ owns (c : Thread nD τ) (st3_3 t) fullShare ((userOutDat V c).after 3 t)
    ∗ owns (c : Thread nD τ) (st3_4 t) fullShare ((userOutDat V c).after 4 t))

/-- The body at any point: the inputs' staging buffers hold their blocks, so the triple applies; the result's buffer may
    hold anything; the scoped rest and the core's debts pass through unread. -/
theorem userOut_sound (c : Dev nD) (t : Fin cfg3.N) :
    userOutPre V c t ⊢ wp frame (wpE (defs₀ (F := F)) Variants.none c none) Set.univ (bodyAt3 t) (fun _ => userOutPost V c t) := by
  unfold userOutPre userOutPost bodyAt3
  simp only [userOutDat_before0, userOutDat_before1, userOutDat_before2, userOutDat_before3]
  rw [show (userOutDat V c).Φ t.succ = (userOutDat V c).Φ t.castSucc from rfl,
    show (userOutDat V c).owesAt () t.succ = (userOutDat V c).owesAt () t.castSucc from rfl,
    userOutDat_after0, userOutDat_after1, userOutDat_after2, userOutDat_after3, userOutDat_after4]
  iintro ⟨HΦ, Ho, ⟨%d0, H0⟩, ⟨%d1, H1⟩, ⟨%d2, H2⟩, ⟨%d3, H3⟩, ⟨%d4, H4⟩⟩
  iapply (userOut_body c Set.univ _ _ _ _ _ _ _ _ _ _ _ (userOutBlk V c 0 t) (userOutBlk V c 1 t) (userOutBlk V c 2 t) (userOutBlk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation for the region, at every point. -/
theorem userOut_obligation (c : Dev nD) : BodyObligation (userOutDat (F := F) V c) (defs₀ (F := F)) Variants.none () Set.univ := fun t => by
  rw [bigSep_W3, bigSep_W3]
  exact userOut_sound V c t

end Cert.KernelIdeal.Regions

end
-- ==== Proof.Ideal.Run.lean ====
/-
  The idealized kernel's @main from launch to return, as buffer contents at each boundary.
  @main is: two concatenations that group the weight matrices; the user projection (region 0); the item projection
  (region 1); ninety host operations that cut the projections into their 128-column bands, gather the source rows of
  every edge, sum them per target (a scatter-add into zeros), count the edges per target and divide; the item output
  (region 2); the user output (region 3). The contents after each step are a fold from the launch memory: a host stretch
  applies its operations, a region replaces its arrays by what its write-backs leave and keeps every other buffer.
  No step writes an argument, so each argument's buffer walks back through the fold to its launch contents.
-/
import proofs.«124944_j59854664237622_1_alg».proof.Proof.Ideal.UserProj
import proofs.«124944_j59854664237622_1_alg».proof.Proof.Ideal.ItemProj
import proofs.«124944_j59854664237622_1_alg».proof.Proof.Ideal.ItemOut
import proofs.«124944_j59854664237622_1_alg».proof.Proof.Ideal.UserOut

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- Core c's buffers at launch. -/
abbrev atLaunch : Dev nD → Valuation τ sig (Elt F) := fun c b => (s₀ m ρ).mem ((c : Dev nD), b)
/-- With the two grouped weight matrices in place: what the user projection is entered from. -/
abbrev atWeights : Dev nD → Valuation τ sig (Elt F) := fun c => StableHlo.after hostOps0 (atLaunch m ρ c)
abbrev inWeights : (c : Dev nD) → (b : Ref sig .tc) → Buf (Elt F) ((c : Thread nD τ).loc b) := fun c b => atWeights m ρ c b

/-- After the user projection: its three arrays at what the pipeline leaves, every other buffer as before. -/
def atUserProj (c : Dev nD) : Valuation τ sig (Elt F) :=
  Pipeline.withArrays spec0 c (atWeights m ρ c) fun w => (userDat (inWeights m ρ) c).arrAt w cfg0.N
theorem atUserProj_arr (c : Dev nD) (w : Fin cfg0.W) :
    atUserProj m ρ c (Proc.devRef .tc (Pipeline.arrRef spec0 w)) = (userDat (inWeights m ρ) c).arrAt w cfg0.N := by
  unfold atUserProj; exact Pipeline.withArrays_arr spec0 launch0.win.arr_inj c _ _ w
theorem atUserProj_of_ne (c : Dev nD) (b : Ref sig .tc) (hb : ∀ w, Pipeline.arrRef spec0 w ≠ b) :
    atUserProj m ρ c (Proc.devRef .tc b) = atWeights m ρ c (Proc.devRef .tc b) := by
  unfold atUserProj; exact Pipeline.withArrays_of_ne spec0 c _ _ b hb
abbrev inUserProj : (c : Dev nD) → (b : Ref sig .tc) → Buf (Elt F) ((c : Thread nD τ).loc b) := fun c b => atUserProj m ρ c b

/-- After the item projection, which is entered straight from the user projection's exit. -/
def atItemProj (c : Dev nD) : Valuation τ sig (Elt F) :=
  Pipeline.withArrays spec1 c (atUserProj m ρ c) fun w => (itemDat (inUserProj m ρ) c).arrAt w cfg1.N
theorem atItemProj_arr (c : Dev nD) (w : Fin cfg1.W) :
    atItemProj m ρ c (Proc.devRef .tc (Pipeline.arrRef spec1 w)) = (itemDat (inUserProj m ρ) c).arrAt w cfg1.N := by
  unfold atItemProj; exact Pipeline.withArrays_arr spec1 launch1.win.arr_inj c _ _ w
theorem atItemProj_of_ne (c : Dev nD) (b : Ref sig .tc) (hb : ∀ w, Pipeline.arrRef spec1 w ≠ b) :
    atItemProj m ρ c (Proc.devRef .tc b) = atUserProj m ρ c (Proc.devRef .tc b) := by
  unfold atItemProj; exact Pipeline.withArrays_of_ne spec1 c _ _ b hb
abbrev inItemProj : (c : Dev nD) → (b : Ref sig .tc) → Buf (Elt F) ((c : Thread nD τ).loc b) := fun c b => atItemProj m ρ c b

/-- With the bands cut, the messages gathered and the three per-target means computed: what the item output is entered from. -/
abbrev atMeans : Dev nD → Valuation τ sig (Elt F) := fun c => StableHlo.after hostOps2 (atItemProj m ρ c)
abbrev inMeans : (c : Dev nD) → (b : Ref sig .tc) → Buf (Elt F) ((c : Thread nD τ).loc b) := fun c b => atMeans m ρ c b

/-- After the item output. -/
def atItemOut (c : Dev nD) : Valuation τ sig (Elt F) :=
  Pipeline.withArrays spec2 c (atMeans m ρ c) fun w => (itemOutDat (inMeans m ρ) c).arrAt w cfg2.N
theorem atItemOut_arr (c : Dev nD) (w : Fin cfg2.W) :
    atItemOut m ρ c (Proc.devRef .tc (Pipeline.arrRef spec2 w)) = (itemOutDat (inMeans m ρ) c).arrAt w cfg2.N := by
  unfold atItemOut; exact Pipeline.withArrays_arr spec2 launch2.win.arr_inj c _ _ w
theorem atItemOut_of_ne (c : Dev nD) (b : Ref sig .tc) (hb : ∀ w, Pipeline.arrRef spec2 w ≠ b) :
    atItemOut m ρ c (Proc.devRef .tc b) = atMeans m ρ c (Proc.devRef .tc b) := by
  unfold atItemOut; exact Pipeline.withArrays_of_ne spec2 c _ _ b hb
abbrev inItemOut : (c : Dev nD) → (b : Ref sig .tc) → Buf (Elt F) ((c : Thread nD τ).loc b) := fun c b => atItemOut m ρ c b

/-- After the user output, entered straight from the item output's exit: the contents @main returns with. -/
def atEnd (c : Dev nD) : Valuation τ sig (Elt F) :=
  Pipeline.withArrays spec3 c (atItemOut m ρ c) fun w => (userOutDat (inItemOut m ρ) c).arrAt w cfg3.N
theorem atEnd_arr (c : Dev nD) (w : Fin cfg3.W) :
    atEnd m ρ c (Proc.devRef .tc (Pipeline.arrRef spec3 w)) = (userOutDat (inItemOut m ρ) c).arrAt w cfg3.N := by
  unfold atEnd; exact Pipeline.withArrays_arr spec3 launch3.win.arr_inj c _ _ w
theorem atEnd_of_ne (c : Dev nD) (b : Ref sig .tc) (hb : ∀ w, Pipeline.arrRef spec3 w ≠ b) :
    atEnd m ρ c (Proc.devRef .tc b) = atItemOut m ρ c (Proc.devRef .tc b) := by
  unfold atEnd; exact Pipeline.withArrays_of_ne spec3 c _ _ b hb
abbrev inEnd : (c : Dev nD) → (b : Ref sig .tc) → Buf (Elt F) ((c : Thread nD τ).loc b) := fun c b => atEnd m ρ c b

/-! ## No step writes an argument -/

/-- A buffer that none of a host stretch's operations writes holds after the stretch what it held before: the stretch's
    operations are listed, each one's written buffer is read off it, and none is the buffer in hand. -/
local macro "unwritten" : tactic => `(tactic| (
  refine StableHlo.after_of_forall_not_mem _ _ (List.forall_iff_forall_mem.mp ?_)
  simp only [hostOps0, hostOps2, List.Forall, StableHlo.nullary_writes, StableHlo.unary_writes, StableHlo.binary_writes,
    StableHlo.ternary_writes, StableHlo.nary_writes, StableHlo.reshape_writes, Finset.mem_singleton]
  repeat' apply And.intro
  all_goals exact StableHlo.devRef_ne_of_ne (by decide)))

/-- The walk, once: a buffer that is no array of any of the four regions and that neither host stretch writes holds at the
    end what it held at launch. Each region keeps what is not its array; each stretch keeps what it does not write. -/
theorem atEnd_of_untouched (c : Dev nD) (b : Ref sig .tc)
    (h3 : ∀ w, Pipeline.arrRef spec3 w ≠ b) (h2 : ∀ w, Pipeline.arrRef spec2 w ≠ b)
    (hmeans : atMeans m ρ c (Proc.devRef .tc b) = atItemProj m ρ c (Proc.devRef .tc b))
    (h1 : ∀ w, Pipeline.arrRef spec1 w ≠ b) (h0 : ∀ w, Pipeline.arrRef spec0 w ≠ b)
    (hweights : atWeights m ρ c (Proc.devRef .tc b) = atLaunch m ρ c (Proc.devRef .tc b)) :
    atEnd m ρ c (Proc.devRef .tc b) = atLaunch m ρ c (Proc.devRef .tc b) :=
  (atEnd_of_ne m ρ c b h3).trans <| (atItemOut_of_ne m ρ c b h2).trans <| hmeans.trans <|
    (atItemProj_of_ne m ρ c b h1).trans <| (atUserProj_of_ne m ρ c b h0).trans hweights

/-- x_user is the user projection's first input: the region reads it through a window and leaves it as it found it. -/
theorem atEnd_arg0 (c : Dev nD) : atEnd m ρ c (Proc.devRef .tc main_arg0) = m ((c : Thread nD τ).loc main_arg0) :=
  calc atEnd m ρ c (Proc.devRef .tc main_arg0)
    _ = atItemOut m ρ c (Proc.devRef .tc main_arg0) := atEnd_of_ne m ρ c main_arg0 (by decide)
    _ = atMeans m ρ c (Proc.devRef .tc main_arg0) := atItemOut_of_ne m ρ c main_arg0 (by decide)
    _ = atItemProj m ρ c (Proc.devRef .tc main_arg0) := by unwritten
    _ = atUserProj m ρ c (Proc.devRef .tc main_arg0) := atItemProj_of_ne m ρ c main_arg0 (by decide)
    _ = atWeights m ρ c (Proc.devRef .tc main_arg0) :=
        (atUserProj_arr m ρ c 0).trans (((userDat (inWeights m ρ) c).arrAt_in 0 rfl _).trans (userDat_A (inWeights m ρ) c 0))
    _ = atLaunch m ρ c (Proc.devRef .tc main_arg0) := by unwritten
    _ = m ((c : Thread nD τ).loc main_arg0) := rfl

/-- x_item is the item projection's first input, likewise. -/
theorem atEnd_arg1 (c : Dev nD) : atEnd m ρ c (Proc.devRef .tc main_arg1) = m ((c : Thread nD τ).loc main_arg1) :=
  calc atEnd m ρ c (Proc.devRef .tc main_arg1)
    _ = atItemOut m ρ c (Proc.devRef .tc main_arg1) := atEnd_of_ne m ρ c main_arg1 (by decide)
    _ = atMeans m ρ c (Proc.devRef .tc main_arg1) := atItemOut_of_ne m ρ c main_arg1 (by decide)
    _ = atItemProj m ρ c (Proc.devRef .tc main_arg1) := by unwritten
    _ = atUserProj m ρ c (Proc.devRef .tc main_arg1) :=
        (atItemProj_arr m ρ c 0).trans (((itemDat (inUserProj m ρ) c).arrAt_in 0 rfl _).trans (itemDat_A (inUserProj m ρ) c 0))
    _ = atWeights m ρ c (Proc.devRef .tc main_arg1) := atUserProj_of_ne m ρ c main_arg1 (by decide)
    _ = atLaunch m ρ c (Proc.devRef .tc main_arg1) := by unwritten
    _ = m ((c : Thread nD τ).loc main_arg1) := rfl

/-- The six weight matrices and the three edge lists are read by host operations only; no region has one as an array. -/
theorem atEnd_arg2 (c : Dev nD) : atEnd m ρ c (Proc.devRef .tc main_arg2) = m ((c : Thread nD τ).loc main_arg2) :=
  atEnd_of_untouched m ρ c main_arg2 (by decide) (by decide) (by unwritten) (by decide) (by decide) (by unwritten)
theorem atEnd_arg3 (c : Dev nD) : atEnd m ρ c (Proc.devRef .tc main_arg3) = m ((c : Thread nD τ).loc main_arg3) :=
  atEnd_of_untouched m ρ c main_arg3 (by decide) (by decide) (by unwritten) (by decide) (by decide) (by unwritten)
theorem atEnd_arg4 (c : Dev nD) : atEnd m ρ c (Proc.devRef .tc main_arg4) = m ((c : Thread nD τ).loc main_arg4) :=
  atEnd_of_untouched m ρ c main_arg4 (by decide) (by decide) (by unwritten) (by decide) (by decide) (by unwritten)
theorem atEnd_arg5 (c : Dev nD) : atEnd m ρ c (Proc.devRef .tc main_arg5) = m ((c : Thread nD τ).loc main_arg5) :=
  atEnd_of_untouched m ρ c main_arg5 (by decide) (by decide) (by unwritten) (by decide) (by decide) (by unwritten)
theorem atEnd_arg6 (c : Dev nD) : atEnd m ρ c (Proc.devRef .tc main_arg6) = m ((c : Thread nD τ).loc main_arg6) :=
  atEnd_of_untouched m ρ c main_arg6 (by decide) (by decide) (by unwritten) (by decide) (by decide) (by unwritten)
theorem atEnd_arg7 (c : Dev nD) : atEnd m ρ c (Proc.devRef .tc main_arg7) = m ((c : Thread nD τ).loc main_arg7) :=
  atEnd_of_untouched m ρ c main_arg7 (by decide) (by decide) (by unwritten) (by decide) (by decide) (by unwritten)
theorem atEnd_arg8 (c : Dev nD) : atEnd m ρ c (Proc.devRef .tc main_arg8) = m ((c : Thread nD τ).loc main_arg8) :=
  atEnd_of_untouched m ρ c main_arg8 (by decide) (by decide) (by unwritten) (by decide) (by decide) (by unwritten)
theorem atEnd_arg9 (c : Dev nD) : atEnd m ρ c (Proc.devRef .tc main_arg9) = m ((c : Thread nD τ).loc main_arg9) :=
  atEnd_of_untouched m ρ c main_arg9 (by decide) (by decide) (by unwritten) (by decide) (by decide) (by unwritten)
theorem atEnd_arg10 (c : Dev nD) : atEnd m ρ c (Proc.devRef .tc main_arg10) = m ((c : Thread nD τ).loc main_arg10) :=
  atEnd_of_untouched m ρ c main_arg10 (by decide) (by decide) (by unwritten) (by decide) (by decide) (by unwritten)

end Cert.KernelIdeal.Regions

end
-- ==== Proof.Ideal.Held.lean ====
/-
  A kernel region of the idealized kernel's @main over the thread state "every unscoped buffer held at a named
  contents", stated once for all four regions.
  Each region of this program has the same protocol. It is entered with every unscoped buffer of the core at some
  contents; its windows' arrays are taken out of those buffers at exactly the contents the region's proof data start from;
  the random-generator register passes into the pipeline's invariant and out again, since no body touches it; nothing is
  owed; the kernel has no semaphore of its own. At the exit the arrays come back at what the pipeline's write-backs
  leave, and with the buffers that were never arrays they make up every unscoped buffer at the exit contents.
  What varies from region to region is the pipeline, its layout facts, its body obligation and the two contents; the
  four entailments are the same and are proved here for an arbitrary pipeline index.
-/
import proofs.«124944_j59854664237622_1_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- No pipeline of this program prefetches a table: the one admissible contents. -/
abbrev adm : (p : Fin 4) → (pcfgs (F := F) p).Adm := fun p => (cfgs p).toPCfg_adm
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

variable (pdats : (p : Fin 4) → (c : Dev nD) → Dat τ (Elt F) Unit ℕ (UR sig nD τ) ℕ (Pipeline.pin (pcfgs (F := F)) adm p) c)

set_option backward.isDefEq.respectTransparency.types false in
/-- The region of pipeline p, entered from every unscoped buffer at `Win` and left at `Wout`. Asked of the proof data:
    the invariant is the class's (the scoped rest and the generator register), nothing is owed, every share is whole, no
    bound is put on the pairs the core's waits have recorded, and the arrays start at `Win`'s contents. Asked of the two contents: `Wout` has the arrays at what the pipeline leaves
    and agrees with `Win` everywhere else. -/
def heldRegion (p : Fin 4) (launch : Pipeline.LaunchFacts (nD := nD) (τ := τ) cfgs p)
    (hbody : ∀ c, BodyObligation (pdats p c) (defs₀ (F := F)) 𝒱₀ () Set.univ)
    (hΦ : ∀ c i, (pdats p c).Φ i = Pipeline.ΦA (Pipeline.pin (pcfgs (F := F)) adm p).spec c)
    (howed : ∀ c t, (pdats p c).owed t = 0)
    (hshare : ∀ c w, (pdats p c).share w = fullShare)
    (hrec : ∀ c i, (pdats p c).recorded i = Set.univ)
    (Win Wout : Dev nD → Valuation τ sig (Elt F))
    (hA : ∀ c w, (pdats p c).A w = Win c (Proc.devRef .tc (Pipeline.arrRef (Pipeline.pin (pcfgs (F := F)) adm p).spec w)))
    (hF : ∀ c w, (pdats p c).arrAt w (Pipeline.pin (pcfgs (F := F)) adm p).N
      = Wout c (Proc.devRef .tc (Pipeline.arrRef (Pipeline.pin (pcfgs (F := F)) adm p).spec w)))
    (hrest : ∀ c (b : Ref sig .tc), b ∉ Finset.univ.image (Pipeline.arrRef (Pipeline.pin (pcfgs (F := F)) adm p).spec) →
      Wout c (Proc.devRef .tc b) = Win c (Proc.devRef .tc b)) :
    Pipeline.RegionSeg (pcfgs (F := F)) adm pdats () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c
    (fun b => Win c (Proc.devRef .tc b))
  hentry c := by
    rw [Pipeline.ownSems0_none]
    unfold Pipeline.Dat.owesAt Pipeline.owesWithin
    rw [howed c 0]
    have hsplit := Pipeline.arrays_of_unscopedBufs (p := p) (pcfgs (F := F)) adm pdats launch.win launch.arr_whole c
      (hshare c) (fun b => Win c (Proc.devRef .tc b)) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl (by rw [hrec c 0]; trivial)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    unfold Pipeline.Dat.owesAt Pipeline.owesWithin
    rw [howed c (Fin.last _)]
    have hjoin := Pipeline.unscopedBufs_of_arrays (p := p) (pcfgs (F := F)) adm (Ix := Unit) (Name := ℕ) (U := UR sig nD τ) (Lvl := ℕ)
      launch.win launch.arr_whole c pdats (hshare c)
      (fun b => Win c (Proc.devRef .tc b)) (fun b => Wout c (Proc.devRef .tc b))
      ((pdats p c).arrAt · (Pipeline.pin (pcfgs (F := F)) adm p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%W, -, HO⟩; iexists W; iexact HO

end Cert.KernelIdeal.Regions

end
-- ==== Proof.Ideal.Frame.lean ====
/-
  The idealized kernel's run, assembled: its four regions and two host stretches as the segments of @main, launched
  from any memory with zero counters. Every weakly fair execution terminates, nothing faults, and the final state has
  every unscoped buffer of every core at the contents the fold of the run module names; the arguments among them are at
  their launch contents, which is the frame, and the two results are there by name for the value leg.
-/
import proofs.«124944_j59854664237622_1_alg».proof.Proof.Ideal.Run
import proofs.«124944_j59854664237622_1_alg».proof.Proof.Ideal.Held

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every pipeline's proof data, each at the contents its region is entered from. A literal match, so that the
    pipeline at a numeral is the printed configuration. -/
def pdats : (p : Fin 4) → (c : Dev nD) → Dat τ (Elt F) Unit ℕ (UR sig nD τ) ℕ (Pipeline.pin (pcfgs (F := F)) adm p) c
  | ⟨0, _⟩ => fun c => userDat (inWeights m ρ) c
  | ⟨1, _⟩ => fun c => itemDat (inUserProj m ρ) c
  | ⟨2, _⟩ => fun c => itemOutDat (inMeans m ρ) c
  | ⟨3, _⟩ => fun c => userOutDat (inItemOut m ρ) c

/-! ## The four regions as segments -/

set_option backward.isDefEq.respectTransparency.types false in
/-- The user projection: from the grouped weights in place to its result written. -/
def userProjSeg : Pipeline.RegionSeg (pcfgs (F := F)) adm (pdats m ρ) () defs₀ 𝒱₀ L lv 0 :=
  heldRegion (pdats m ρ) 0 launch0 (fun c => userProj_obligation (inWeights m ρ) c) (fun _ _ => rfl) (fun _ _ => rfl)
    (fun c => (pdats m ρ 0 c).share_full fun _ => rfl) (fun _ _ => rfl) (atWeights m ρ) (atUserProj m ρ) (fun _ _ => rfl)
    (fun c w => (atUserProj_arr m ρ c w).symm)
    (fun c b hb => atUserProj_of_ne m ρ c b fun w e => hb (Finset.mem_image.mpr ⟨w, Finset.mem_univ _, e⟩))

set_option backward.isDefEq.respectTransparency.types false in
/-- The item projection, entered from the user projection's exit. -/
def itemProjSeg : Pipeline.RegionSeg (pcfgs (F := F)) adm (pdats m ρ) () defs₀ 𝒱₀ L lv 1 :=
  heldRegion (pdats m ρ) 1 launch1 (fun c => itemProj_obligation (inUserProj m ρ) c) (fun _ _ => rfl) (fun _ _ => rfl)
    (fun c => (pdats m ρ 1 c).share_full fun _ => rfl) (fun _ _ => rfl) (atUserProj m ρ) (atItemProj m ρ) (fun _ _ => rfl)
    (fun c w => (atItemProj_arr m ρ c w).symm)
    (fun c b hb => atItemProj_of_ne m ρ c b fun w e => hb (Finset.mem_image.mpr ⟨w, Finset.mem_univ _, e⟩))

set_option backward.isDefEq.respectTransparency.types false in
/-- The item output, entered with the three means computed. -/
def itemOutSeg : Pipeline.RegionSeg (pcfgs (F := F)) adm (pdats m ρ) () defs₀ 𝒱₀ L lv 2 :=
  heldRegion (pdats m ρ) 2 launch2 (fun c => itemOut_obligation (inMeans m ρ) c) (fun _ _ => rfl) (fun _ _ => rfl)
    (fun c => (pdats m ρ 2 c).share_full fun _ => rfl) (fun _ _ => rfl) (atMeans m ρ) (atItemOut m ρ) (fun _ _ => rfl)
    (fun c w => (atItemOut_arr m ρ c w).symm)
    (fun c b hb => atItemOut_of_ne m ρ c b fun w e => hb (Finset.mem_image.mpr ⟨w, Finset.mem_univ _, e⟩))

set_option backward.isDefEq.respectTransparency.types false in
/-- The user output, entered from the item output's exit. -/
def userOutSeg : Pipeline.RegionSeg (pcfgs (F := F)) adm (pdats m ρ) () defs₀ 𝒱₀ L lv 3 :=
  heldRegion (pdats m ρ) 3 launch3 (fun c => userOut_obligation (inItemOut m ρ) c) (fun _ _ => rfl) (fun _ _ => rfl)
    (fun c => (pdats m ρ 3 c).share_full fun _ => rfl) (fun _ _ => rfl) (atItemOut m ρ) (atEnd m ρ) (fun _ _ => rfl)
    (fun c w => (atEnd_arr m ρ c w).symm)
    (fun c b hb => atEnd_of_ne m ρ c b fun w e => hb (Finset.mem_image.mpr ⟨w, Finset.mem_univ _, e⟩))

/-! ## The host stretches as segments -/

/-- A host stretch from the contents W: it holds every unscoped buffer at W and leaves them at its operations applied to W. -/
abbrev hostStretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- Neither stretch allocates a buffer. -/
theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

/-! ## @main as its segments, and the launch -/

abbrev segs : List (Pipeline.Seg (pcfgs (F := F)) adm (pdats m ρ) () defs₀ 𝒱₀ L lv) :=
  [ .host (hostStretch hostOps0 hostOps0_sub hostOps0_fresh (atLaunch m ρ)),
    .region (userProjSeg m ρ),
    .region (itemProjSeg m ρ),
    .host (hostStretch hostOps2 hostOps2_sub hostOps2_fresh (atItemProj m ρ)),
    .region (itemOutSeg m ρ),
    .region (userOutSeg m ρ) ]

/-- @main is the run of these six segments. -/
theorem main_run (c : Dev nD) : main (F := F) c = Pipeline.Seg.run (segs m ρ) := (main_chain c).trans (by chain_rfl)

/-- The last thread state beside the core owing nothing: every unscoped buffer at the final contents. -/
abbrev endState (c : Dev nD) : sProp 𝕄 := iprop(StableHlo.held (c : Thread nD τ) (Pipeline.ucRefs τ sig) (atEnd m ρ c) ∗ ∃ r, prngReg c r)

set_option backward.isDefEq.respectTransparency.types false in
/-- THE RUN. From any memory with zero counters every weakly fair execution of @main terminates, nothing faulting, and
    every unscoped buffer of every core ends at the contents `atEnd`. -/
theorem run_all : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = atEnd m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m ρ c) ∗ R c)) (Tₙ := endState m ρ)
    (hch := ⟨fun _ => .rfl, fun _ => .rfl, fun _ => .rfl, fun _ => .rfl, fun _ => .rfl, fun _ => .rfl, fun c => by
      -- the last region leaves: the buffers, beside (the register and the empty debt); the launch reads: (the buffers
      -- and the register), beside the empty debt. The same three things, grouped the other way.
      show iprop(StableHlo.held (c : Thread nD τ) (Pipeline.ucRefs τ sig) (atEnd m ρ c) ∗ R c)
        ⊢ iprop(endState m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (atLaunch m ρ c)
        from Pipeline.unscopedBufs_held c (atLaunch m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = atEnd m ρ c b)
    (hfin := fun c s' => by
      iintro ⟨⟨Hh, -⟩, HSI⟩
      unfold StableHlo.held
      imodintro
      iapply (pointsTo_read_all (Pipeline.ucRefs τ sig) (fun b => (((c : Thread nD τ)).1, b)) (atEnd m ρ c) s')
      isplitl [Hh] <;> iassumption)
    (hQ := fun s h c b hb => h c _ (mem_uc b hb))

/-- THE FRAME: the run, read at the eleven arguments. None is written by any step, so each ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c main_arg0 (by decide)).trans (atEnd_arg0 m ρ c), (h c main_arg1 (by decide)).trans (atEnd_arg1 m ρ c),
     (h c main_arg2 (by decide)).trans (atEnd_arg2 m ρ c), (h c main_arg3 (by decide)).trans (atEnd_arg3 m ρ c),
     (h c main_arg4 (by decide)).trans (atEnd_arg4 m ρ c), (h c main_arg5 (by decide)).trans (atEnd_arg5 m ρ c),
     (h c main_arg6 (by decide)).trans (atEnd_arg6 m ρ c), (h c main_arg7 (by decide)).trans (atEnd_arg7 m ρ c),
     (h c main_arg8 (by decide)).trans (atEnd_arg8 m ρ c), (h c main_arg9 (by decide)).trans (atEnd_arg9 m ρ c),
     (h c main_arg10 (by decide)).trans (atEnd_arg10 m ρ c)⟩) (run_all m ρ)

end Cert.KernelIdeal.Regions

end
-- ==== Proof.Ideal.Payloads.lean ====
/-
  What each kernel body stores, read at one entry, at the ideal instance.
  The two projections store a matrix product accumulated from zero: entry (r, j) of the stored block is the sum over k of
  (row block)(r, k) * (weights)(k, j); rounding the operands to bf16 on the way in is the identity on the extended reals.
  The two outputs store a pointwise value: the sum of their inputs' entries, scaled, floored at zero twice.
  Float literals stay as their bit patterns here; the bridge evaluates the ones whose values matter.
-/
import proofs.«124944_j59854664237622_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Values

open Cert.KernelIdeal Cert.KernelIdeal.Gen
open Idealize.ShloMosaic Idealize.ShloMosaic.TcCoe Idealize.ShloMosaic.ValueIdx
open scoped BigOperators

/-- Every access of every body is a whole-buffer rectangle: its offsets are zero on both axes. -/
theorem zeroOffsets : (![0, 0] : Fin 2 → Nat) = fun _ => 0 := funext fun a => by fin_cases a <;> rfl

/-! ## The user projection's product: rows of 128, 512 columns -/

theorem userDot_lhs0 (i : S5000x512.Idx) (q : dot_S5000x128_S128x512_S5000x512_1_0_0_1_n_n.contr.Idx) :
    (dot_S5000x128_S128x512_S5000x512_1_0_0_1_n_n.lhsIdx i q 0).val = (i 0).val := by
  unfold DotDims.lhsIdx
  rw [dif_neg (show ¬(0 : Fin S5000x128.rank) ∈ dot_S5000x128_S128x512_S5000x512_1_0_0_1_n_n.lhsBatch by decide), dif_pos (show (0 : Fin S5000x128.rank) ∈ dot_S5000x128_S128x512_S5000x512_1_0_0_1_n_n.lhsNonContracting by decide)]
  rfl
theorem userDot_lhs1 (i : S5000x512.Idx) (q : dot_S5000x128_S128x512_S5000x512_1_0_0_1_n_n.contr.Idx) :
    (dot_S5000x128_S128x512_S5000x512_1_0_0_1_n_n.lhsIdx i q 1).val = (q ⟨0, by decide⟩).val :=
  dot_S5000x128_S128x512_S5000x512_1_0_0_1_n_n.lhsIdx_val_of_single rfl i q
theorem userDot_rhs0 (i : S5000x512.Idx) (q : dot_S5000x128_S128x512_S5000x512_1_0_0_1_n_n.contr.Idx) :
    (dot_S5000x128_S128x512_S5000x512_1_0_0_1_n_n.rhsIdx i q 0).val = (q ⟨0, by decide⟩).val :=
  dot_S5000x128_S128x512_S5000x512_1_0_0_1_n_n.rhsIdx_val_of_single rfl i q
theorem userDot_rhs1 (i : S5000x512.Idx) (q : dot_S5000x128_S128x512_S5000x512_1_0_0_1_n_n.contr.Idx) :
    (dot_S5000x128_S128x512_S5000x512_1_0_0_1_n_n.rhsIdx i q 1).val = (i 1).val := by
  unfold DotDims.rhsIdx
  rw [dif_neg (show ¬(1 : Fin S128x512.rank) ∈ dot_S5000x128_S128x512_S5000x512_1_0_0_1_n_n.rhsBatch by decide), dif_pos (show (1 : Fin S128x512.rank) ∈ dot_S5000x128_S128x512_S5000x512_1_0_0_1_n_n.rhsNonContracting by decide)]
  rfl

/-- Entry (i₀, k) of the row block and entry (k, i₁) of the weights: the two factors of the k-th term of entry i. -/
abbrev userRowAt (i : S5000x512.Idx) (k : Fin 128) : S5000x128.Idx := fun a => match a with
  | ⟨0, _⟩ => ⟨(i 0).val, (i 0).isLt⟩
  | ⟨1, _⟩ => ⟨k.val, k.isLt⟩
abbrev userColAt (i : S5000x512.Idx) (k : Fin 128) : S128x512.Idx := fun a => match a with
  | ⟨0, _⟩ => ⟨k.val, k.isLt⟩
  | ⟨1, _⟩ => ⟨(i 1).val, (i 1).isLt⟩

theorem userProj_pay_apply (x : Vec Ideal S5000x128 .f32) (w : Vec Ideal S128x512 .f32) (i : S5000x512.Idx) :
    k0_pay1 (F := Ideal) x w i = ∑ k : Fin 128, x (userRowAt i k) * w (userColAt i k) := by
  unfold k0_pay1
  simp only [matmul, shapeCast_self]
  rw [Ideal.matmul_constant_zero_apply, ← Equiv.sum_comp (ValueIdx.contrEquiv1 dot_S5000x128_S128x512_S5000x512_1_0_0_1_n_n 128 rfl rfl).symm]
  refine Finset.sum_congr rfl fun k _ => ?_
  have hk := ValueIdx.contrEquiv1_symm_val dot_S5000x128_S128x512_S5000x512_1_0_0_1_n_n 128 rfl rfl k
  have el : dot_S5000x128_S128x512_S5000x512_1_0_0_1_n_n.lhsIdx i ((ValueIdx.contrEquiv1 dot_S5000x128_S128x512_S5000x512_1_0_0_1_n_n 128 rfl rfl).symm k) = userRowAt i k := funext fun a => Fin.ext (by
    match a with
    | ⟨0, _⟩ => exact userDot_lhs0 _ _
    | ⟨1, _⟩ => exact (userDot_lhs1 _ _).trans hk)
  have er : dot_S5000x128_S128x512_S5000x512_1_0_0_1_n_n.rhsIdx i ((ValueIdx.contrEquiv1 dot_S5000x128_S128x512_S5000x512_1_0_0_1_n_n 128 rfl rfl).symm k) = userColAt i k := funext fun a => Fin.ext (by
    match a with
    | ⟨0, _⟩ => exact (userDot_rhs0 _ _).trans hk
    | ⟨1, _⟩ => exact userDot_rhs1 _ _)
  rw [el, er]
  rfl

/-! ## The item projection's product: rows of 128, 256 columns -/

theorem itemDot_lhs0 (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem itemDot_lhs1 (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
theorem itemDot_rhs0 (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
theorem itemDot_rhs1 (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

abbrev itemRowAt (i : S5000x256.Idx) (k : Fin 128) : S5000x128.Idx := fun a => match a with
  | ⟨0, _⟩ => ⟨(i 0).val, (i 0).isLt⟩
  | ⟨1, _⟩ => ⟨k.val, k.isLt⟩
abbrev itemColAt (i : S5000x256.Idx) (k : Fin 128) : S128x256.Idx := fun a => match a with
  | ⟨0, _⟩ => ⟨k.val, k.isLt⟩
  | ⟨1, _⟩ => ⟨(i 1).val, (i 1).isLt⟩

theorem itemProj_pay_apply (x : Vec Ideal S5000x128 .f32) (w : Vec Ideal S128x256 .f32) (i : S5000x256.Idx) :
    k1_pay1 (F := Ideal) x w i = ∑ k : Fin 128, x (itemRowAt i k) * w (itemColAt i k) := by
  unfold k1_pay1
  simp only [matmul, shapeCast_self]
  rw [Ideal.matmul_constant_zero_apply, ← Equiv.sum_comp (ValueIdx.contrEquiv1 dot_S5000x128_S128x256_S5000x256_1_0_0_1_n_n 128 rfl rfl).symm]
  refine Finset.sum_congr rfl fun k _ => ?_
  have hk := ValueIdx.contrEquiv1_symm_val dot_S5000x128_S128x256_S5000x256_1_0_0_1_n_n 128 rfl rfl k
  have el : dot_S5000x128_S128x256_S5000x256_1_0_0_1_n_n.lhsIdx i ((ValueIdx.contrEquiv1 dot_S5000x128_S128x256_S5000x256_1_0_0_1_n_n 128 rfl rfl).symm k) = itemRowAt i k := funext fun a => Fin.ext (by
    match a with
    | ⟨0, _⟩ => exact itemDot_lhs0 _ _
    | ⟨1, _⟩ => exact (itemDot_lhs1 _ _).trans hk)
  have er : dot_S5000x128_S128x256_S5000x256_1_0_0_1_n_n.rhsIdx i ((ValueIdx.contrEquiv1 dot_S5000x128_S128x256_S5000x256_1_0_0_1_n_n 128 rfl rfl).symm k) = itemColAt i k := funext fun a => Fin.ext (by
    match a with
    | ⟨0, _⟩ => exact (itemDot_rhs0 _ _).trans hk
    | ⟨1, _⟩ => exact itemDot_rhs1 _ _)
  rw [el, er]
  rfl

/-! ## The two outputs: pointwise -/

theorem itemOut_pay_apply (a b : Vec Ideal S5000x128 .f32) (y : S5000x128.Idx) :
    k2_pay1 (F := Ideal) a b y
      = max (max ((a y + b y) * Ideal.ofBits .f32 0x3F800000#32) (Ideal.ofBits .f32 0x00000000#32)) (Ideal.ofBits .f32 0x00000000#32) := by
  unfold k2_pay1
  simp only [shapeCast_self]
  rfl

theorem userOut_pay_apply (a b c d : Vec Ideal S5000x128 .f32) (y : S5000x128.Idx) :
    k3_pay1 (F := Ideal) a b c d y
      = max (max ((((a y + b y) + c y) + d y) * Ideal.ofBits .f32 0x3F000000#32) (Ideal.ofBits .f32 0x00000000#32)) (Ideal.ofBits .f32 0x00000000#32) := by
  unfold k3_pay1
  simp only [shapeCast_self]
  rfl

end Cert.KernelIdeal.Values

end
-- ==== Proof.Ideal.Value.UserProjArray.lean ====
/-
  The user projection's result as ONE function of its two input arrays: row r, column j of the 50000 x 512 result is the sum
  over k of x(r, k) * W(k, j).
  Point t of the region writes back rows 5000 t .. 5000 t + 4999 of that function: the body stores the product of the t-th
  row block of x with the whole of W, and entry (y₀, y₁) of that product is the entry (5000 t + y₀, y₁) of the whole
  product. The ten blocks tile the rows (row r lies in block r / 5000), so the array ends holding the whole product.
  Stated at a parameter V for the buffer contents on entry, at the ideal instance.
-/
import proofs.«124944_j59854664237622_1_alg».proof.Proof.Ideal.UserProj
import proofs.«124944_j59854664237622_1_alg».proof.Proof.Ideal.Payloads
import Idealize.ShloMosaic.Lib.Pipeline.Value

set_option maxRecDepth 16384

noncomputable section

namespace Cert.KernelIdeal.Values

open Cert.KernelIdeal Cert.KernelIdeal.Gen Cert.KernelIdeal.Regions
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

/-- Entry (i₀, k) of x and entry (k, i₁) of the weights: the factors of the k-th term of entry i of the whole product. -/
abbrev userRowAll (i : S50000x512.Idx) (k : Fin 128) : S50000x128.Idx := fun a => match a with
  | ⟨0, _⟩ => ⟨(i 0).val, (i 0).isLt⟩
  | ⟨1, _⟩ => ⟨k.val, k.isLt⟩
abbrev userColAll (i : S50000x512.Idx) (k : Fin 128) : S128x512.Idx := fun a => match a with
  | ⟨0, _⟩ => ⟨k.val, k.isLt⟩
  | ⟨1, _⟩ => ⟨(i 1).val, (i 1).isLt⟩

/-- The whole product. -/
def userProjAll (x : S50000x128.Idx → EReal) (w : S128x512.Idx → EReal) : S50000x512.Idx → EReal :=
  fun i => ∑ k : Fin 128, x (userRowAll i k) * w (userColAll i k)

/-- The printed index maps over the grid: the row block of x moves with the result's block, the weights stay put, and the
    result's block index is the point's number. -/
theorem userIdx : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product of the arrays as the region finds them. -/
theorem userProj_flushed (c : Dev nD) (t : Fin cfg0.N) :
    (userDat V c).flushed 2 t = ((cfg0.win 2).blk t).view.read (Elt Ideal) (userProjAll (V c main_arg0) (V c main_v0)) := by
  show (cfg0.win 2).cut (grid0.coords t) ((userDat V c).after 2 t) = _
  rw [userDat_after2]
  unfold userProjOut
  rw [View.canon_unit_zero zeroOffsets]
  simp only [View.ld_unit_zero (S := S5000x128) zeroOffsets, View.ld_unit_zero (S := S128x512) zeroOffsets]
  obtain ⟨e0, e1, e2, e3, e4, e5⟩ := userIdx t
  funext j
  -- the result's window is not cut short at the array's end: what is written back is the stored block itself
  refine (show (cfg0.win 2).cut (grid0.coords t) (k0_pay1 (F := Ideal) (userBlk V c 0 t) (userBlk V c 1 t)) j
      = k0_pay1 (F := Ideal) (userBlk V c 0 t) (userBlk V c 1 t) j from rfl).trans ?_
  refine (userProj_pay_apply _ _ _).trans ?_
  show _ = userProjAll (V c main_arg0) (V c main_v0) (((cfg0.win 2).blk t).view.emb j)
  unfold userProjAll
  refine Finset.sum_congr rfl fun k _ => ?_
  have hx : userBlk V c 0 t (userRowAt j k) = V c main_arg0 (userRowAll (((cfg0.win 2).blk t).view.emb j) k) := by
    show V c main_arg0 (((cfg0.win 0).blk t).view.emb (userRowAt j k)) = _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have hw : userBlk V c 1 t (userColAt j k) = V c main_v0 (userColAll (((cfg0.win 2).blk t).view.emb j) k) := by
    show V c main_v0 (((cfg0.win 1).blk t).view.emb (userColAt j k)) = _
    refine congrArg (V c main_v0) (funext fun a => Fin.ext ?_)
    match a with
    | ⟨0, _⟩ => show win0_1.index t (0 : Fin 2) * 128 + 1 * k.val = k.val; omega
    | ⟨1, _⟩ => show win0_1.index t (1 : Fin 2) * 512 + 1 * (j 1).val = win0_2.index t (1 : Fin 2) * 512 + 1 * (j 1).val; omega
  rw [hx, hw]

/-- An index of the result is in point t's block iff each coordinate is in the block's range on its axis. -/
theorem userProj_mem_blk (t : Fin cfg0.N) (i : S50000x512.Idx) :
    i ∈ ((cfg0.win 2).blk t).view.set ↔ ∀ a : Fin 2, win0_2.index t a * S5000x512.size a ≤ (i a).val ∧ (i a).val < win0_2.index t a * S5000x512.size a + S5000x512.size a := by
  show i ∈ ((View.whole main_v2).slice (win0_2.rect t)).set ↔ _
  rw [View.set_slice_whole, Rect.mem_set_unit]
  exact Iff.rfl

/-- Every entry of the result is in the block of the point that its row, divided by 5000, names. -/
theorem userProj_cover (i : S50000x512.Idx) :
    ∃ t : Fin cfg0.N, (cfg0.win 2).flush t = true ∧ i ∈ ((cfg0.win 2).blk t).view.set := by
  have hi0 : (i 0).val < 50000 := (i 0).isLt
  have hi1 : (i 1).val < 512 := (i 1).isLt
  have hq : (i 0).val / 5000 < grid0.N := by rw [N_0]; omega
  refine ⟨⟨(i 0).val / 5000, hq⟩, flush0_2 _, ?_⟩
  rw [userProj_mem_blk]
  obtain ⟨e0, e1, e2, e3, e4, e5⟩ := userIdx ⟨(i 0).val / 5000, hq⟩
  have e4' : win0_2.index ⟨(i 0).val / 5000, hq⟩ (0 : Fin 2) = (i 0).val / 5000 := e4
  intro a
  match a with
  | ⟨0, _⟩ => show win0_2.index _ (0 : Fin 2) * 5000 ≤ (i 0).val ∧ (i 0).val < win0_2.index _ (0 : Fin 2) * 5000 + 5000; rw [e4']; omega
  | ⟨1, _⟩ => show win0_2.index _ (1 : Fin 2) * 512 ≤ (i 1).val ∧ (i 1).val < win0_2.index _ (1 : Fin 2) * 512 + 512; rw [e5]; omega

/-- The result array after the region: the whole product of x and the grouped weights as the region found them. -/
theorem userProj_array (c : Dev nD) :
    (userDat V c).arrAt 2 cfg0.N = userProjAll (V c main_arg0) (V c main_v0) :=
  (userDat V c).arrAt_eq_of_cover 2 _ (fun t _ => userProj_flushed V c t) (userProj_cover)

end Cert.KernelIdeal.Values

end
-- ==== Proof.Ideal.Value.ItemProjArray.lean ====
/- The item projection's result as ONE function of its two input arrays: row r, column j of the 50000 x 256 result is the
   sum over k of x_item(r, k) * W_item(k, j); the ten write-backs are its ten blocks of 5000 rows and tile it.
   The same text as the user projection's module at 256 columns, over region 1's arrays.
-/
import proofs.«124944_j59854664237622_1_alg».proof.Proof.Ideal.ItemProj
import proofs.«124944_j59854664237622_1_alg».proof.Proof.Ideal.Payloads
import Idealize.ShloMosaic.Lib.Pipeline.Value

set_option maxRecDepth 16384

noncomputable section

namespace Cert.KernelIdeal.Values

open Cert.KernelIdeal Cert.KernelIdeal.Gen Cert.KernelIdeal.Regions
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

/-- Entry (i₀, k) of x and entry (k, i₁) of the weights: the factors of the k-th term of entry i of the whole product. -/
abbrev itemRowAll (i : S50000x256.Idx) (k : Fin 128) : S50000x128.Idx := fun a => match a with
  | ⟨0, _⟩ => ⟨(i 0).val, (i 0).isLt⟩
  | ⟨1, _⟩ => ⟨k.val, k.isLt⟩
abbrev itemColAll (i : S50000x256.Idx) (k : Fin 128) : S128x256.Idx := fun a => match a with
  | ⟨0, _⟩ => ⟨k.val, k.isLt⟩
  | ⟨1, _⟩ => ⟨(i 1).val, (i 1).isLt⟩

/-- The whole product. -/
def itemProjAll (x : S50000x128.Idx → EReal) (w : S128x256.Idx → EReal) : S50000x256.Idx → EReal :=
  fun i => ∑ k : Fin 128, x (itemRowAll i k) * w (itemColAll i k)

/-- The printed index maps over the grid: the row block of x moves with the result's block, the weights stay put, and the
    result's block index is the point's number. -/
theorem itemIdx : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the whole product of the arrays as the region finds them. -/
theorem itemProj_flushed (c : Dev nD) (t : Fin cfg1.N) :
    (itemDat V c).flushed 2 t = ((cfg1.win 2).blk t).view.read (Elt Ideal) (itemProjAll (V c main_arg1) (V c main_v1)) := by
  show (cfg1.win 2).cut (grid1.coords t) ((itemDat V c).after 2 t) = _
  rw [itemDat_after2]
  unfold itemProjOut
  rw [View.canon_unit_zero zeroOffsets]
  simp only [View.ld_unit_zero (S := S5000x128) zeroOffsets, View.ld_unit_zero (S := S128x256) zeroOffsets]
  obtain ⟨e0, e1, e2, e3, e4, e5⟩ := itemIdx t
  funext j
  -- the result's window is not cut short at the array's end: what is written back is the stored block itself
  refine (show (cfg1.win 2).cut (grid1.coords t) (k1_pay1 (F := Ideal) (itemBlk V c 0 t) (itemBlk V c 1 t)) j
      = k1_pay1 (F := Ideal) (itemBlk V c 0 t) (itemBlk V c 1 t) j from rfl).trans ?_
  refine (itemProj_pay_apply _ _ _).trans ?_
  show _ = itemProjAll (V c main_arg1) (V c main_v1) (((cfg1.win 2).blk t).view.emb j)
  unfold itemProjAll
  refine Finset.sum_congr rfl fun k _ => ?_
  have hx : itemBlk V c 0 t (itemRowAt j k) = V c main_arg1 (itemRowAll (((cfg1.win 2).blk t).view.emb j) k) := by
    show V c main_arg1 (((cfg1.win 0).blk t).view.emb (itemRowAt j k)) = _
    refine congrArg (V c main_arg1) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  have hw : itemBlk V c 1 t (itemColAt j k) = V c main_v1 (itemColAll (((cfg1.win 2).blk t).view.emb j) k) := by
    show V c main_v1 (((cfg1.win 1).blk t).view.emb (itemColAt j k)) = _
    refine congrArg (V c main_v1) (funext fun a => Fin.ext ?_)
    match a with
    | ⟨0, _⟩ => show win1_1.index t (0 : Fin 2) * 128 + 1 * k.val = k.val; omega
    | ⟨1, _⟩ => show win1_1.index t (1 : Fin 2) * 256 + 1 * (j 1).val = win1_2.index t (1 : Fin 2) * 256 + 1 * (j 1).val; omega
  rw [hx, hw]

/-- An index of the result is in point t's block iff each coordinate is in the block's range on its axis. -/
theorem itemProj_mem_blk (t : Fin cfg1.N) (i : S50000x256.Idx) :
    i ∈ ((cfg1.win 2).blk t).view.set ↔ ∀ a : Fin 2, win1_2.index t a * S5000x256.size a ≤ (i a).val ∧ (i a).val < win1_2.index t a * S5000x256.size a + S5000x256.size a := by
  show i ∈ ((View.whole main_v3).slice (win1_2.rect t)).set ↔ _
  rw [View.set_slice_whole, Rect.mem_set_unit]
  exact Iff.rfl

/-- Every entry of the result is in the block of the point that its row, divided by 5000, names. -/
theorem itemProj_cover (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  have hq : (i 0).val / 5000 < grid1.N := by rw [N_1]; omega
  refine ⟨⟨(i 0).val / 5000, hq⟩, flush1_2 _, ?_⟩
  rw [itemProj_mem_blk]
  obtain ⟨e0, e1, e2, e3, e4, e5⟩ := itemIdx ⟨(i 0).val / 5000, hq⟩
  have e4' : win1_2.index ⟨(i 0).val / 5000, hq⟩ (0 : Fin 2) = (i 0).val / 5000 := e4
  intro a
  match a with
  | ⟨0, _⟩ => show win1_2.index _ (0 : Fin 2) * 5000 ≤ (i 0).val ∧ (i 0).val < win1_2.index _ (0 : Fin 2) * 5000 + 5000; rw [e4']; omega
  | ⟨1, _⟩ => show win1_2.index _ (1 : Fin 2) * 256 ≤ (i 1).val ∧ (i 1).val < win1_2.index _ (1 : Fin 2) * 256 + 256; rw [e5]; omega

/-- The result array after the region: the whole product of x and the grouped weights as the region found them. -/
theorem itemProj_array (c : Dev nD) :
    (itemDat V c).arrAt 2 cfg1.N = itemProjAll (V c main_arg1) (V c main_v1) :=
  (itemDat V c).arrAt_eq_of_cover 2 _ (fun t _ => itemProj_flushed V c t) (itemProj_cover)

end Cert.KernelIdeal.Values

end
-- ==== Proof.Ideal.Value.ItemOutArray.lean ====
/-
  The item output as ONE function of its two input arrays, entry by entry:
  max (max ((a(i) + b(i)) * 1, 0), 0), with a the item-side target projection and b the mean of the rating messages.
  Point t writes back rows 5000 t .. 5000 t + 4999 of that function, since the body combines the t-th blocks of a and b
  entry by entry and every window sits at block t; the ten blocks tile the rows.
  Stated at a parameter V for the buffer contents on entry, at the ideal instance.
-/
import proofs.«124944_j59854664237622_1_alg».proof.Proof.Ideal.ItemOut
import proofs.«124944_j59854664237622_1_alg».proof.Proof.Ideal.Payloads
import Idealize.ShloMosaic.Lib.Pipeline.Value

set_option maxRecDepth 16384

noncomputable section

namespace Cert.KernelIdeal.Values

open Cert.KernelIdeal Cert.KernelIdeal.Gen Cert.KernelIdeal.Regions
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

/-- The whole item output. -/
def itemOutAll (a b : S50000x128.Idx → EReal) : S50000x128.Idx → EReal :=
  fun i => max (max ((a i + b i) * Ideal.ofBits .f32 0x3F800000#32) (Ideal.ofBits .f32 0x00000000#32)) (Ideal.ofBits .f32 0x00000000#32)

/-- The printed index maps over the grid: both inputs' blocks move with the result's, whose block index is the point's number. -/
theorem itemOutIdx : ∀ t : Fin cfg2.N, win2_0.index t (0 : Fin 2) = win2_2.index t (0 : Fin 2)
    ∧ win2_0.index t (1 : Fin 2) = win2_2.index t (1 : Fin 2)
    ∧ win2_1.index t (0 : Fin 2) = win2_2.index t (0 : Fin 2)
    ∧ win2_1.index t (1 : Fin 2) = win2_2.index t (1 : Fin 2)
    ∧ win2_2.index t (0 : Fin 2) = t.val ∧ win2_2.index t (1 : Fin 2) = 0 :=
  (by decide +kernel : ∀ t : Fin grid2.N, _)

/-- What point t writes back is block t of the whole item output of the arrays as the region finds them. -/
theorem itemOut_flushed (c : Dev nD) (t : Fin cfg2.N) :
    (itemOutDat V c).flushed 2 t = ((cfg2.win 2).blk t).view.read (Elt Ideal) (itemOutAll (V c main_v9) (V c main_v31)) := by
  show (cfg2.win 2).cut (grid2.coords t) ((itemOutDat V c).after 2 t) = _
  rw [itemOutDat_after2]
  unfold itemOutVal
  rw [View.canon_unit_zero zeroOffsets]
  simp only [View.ld_unit_zero (S := S5000x128) zeroOffsets]
  obtain ⟨e0, e1, e2, e3, e4, e5⟩ := itemOutIdx t
  funext j
  refine (show (cfg2.win 2).cut (grid2.coords t) (k2_pay1 (F := Ideal) (itemOutBlk V c 0 t) (itemOutBlk V c 1 t)) j
      = k2_pay1 (F := Ideal) (itemOutBlk V c 0 t) (itemOutBlk V c 1 t) j from rfl).trans ?_
  refine (itemOut_pay_apply _ _ _).trans ?_
  show _ = itemOutAll (V c main_v9) (V c main_v31) (((cfg2.win 2).blk t).view.emb j)
  unfold itemOutAll
  have ha : itemOutBlk V c 0 t j = V c main_v9 (((cfg2.win 2).blk t).view.emb j) := by
    show V c main_v9 (((cfg2.win 0).blk t).view.emb j) = _
    refine congrArg (V c main_v9) (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * (j 1).val = win2_2.index t (1 : Fin 2) * 128 + 1 * (j 1).val; omega
  have hb : itemOutBlk V c 1 t j = V c main_v31 (((cfg2.win 2).blk t).view.emb j) := by
    show V c main_v31 (((cfg2.win 1).blk t).view.emb j) = _
    refine congrArg (V c main_v31) (funext fun a => Fin.ext ?_)
    match a with
    | ⟨0, _⟩ => show win2_1.index t (0 : Fin 2) * 5000 + 1 * (j 0).val = win2_2.index t (0 : Fin 2) * 5000 + 1 * (j 0).val; omega
    | ⟨1, _⟩ => show win2_1.index t (1 : Fin 2) * 128 + 1 * (j 1).val = win2_2.index t (1 : Fin 2) * 128 + 1 * (j 1).val; omega
  rw [ha, hb]

/-- An index of the result is in point t's block iff each coordinate is in the block's range on its axis. -/
theorem itemOut_mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v76).slice (win2_2.rect t)).set ↔ _
  rw [View.set_slice_whole, Rect.mem_set_unit]
  exact Iff.rfl

/-- Every entry of the result is in the block of the point that its row, divided by 5000, names. -/
theorem itemOut_cover (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hq : (i 0).val / 5000 < grid2.N := by rw [N_2]; omega
  refine ⟨⟨(i 0).val / 5000, hq⟩, flush2_2 _, ?_⟩
  rw [itemOut_mem_blk]
  obtain ⟨e0, e1, e2, e3, e4, e5⟩ := itemOutIdx ⟨(i 0).val / 5000, hq⟩
  have e4' : win2_2.index ⟨(i 0).val / 5000, hq⟩ (0 : Fin 2) = (i 0).val / 5000 := e4
  intro a
  match a with
  | ⟨0, _⟩ => show win2_2.index _ (0 : Fin 2) * 5000 ≤ (i 0).val ∧ (i 0).val < win2_2.index _ (0 : Fin 2) * 5000 + 5000; rw [e4']; omega
  | ⟨1, _⟩ => show win2_2.index _ (1 : Fin 2) * 128 ≤ (i 1).val ∧ (i 1).val < win2_2.index _ (1 : Fin 2) * 128 + 128; rw [e5]; omega

/-- The result array after the region: the whole item output of its two input arrays as the region found them. -/
theorem itemOut_array (c : Dev nD) :
    (itemOutDat V c).arrAt 2 cfg2.N = itemOutAll (V c main_v9) (V c main_v31) :=
  (itemOutDat V c).arrAt_eq_of_cover 2 _ (fun t _ => itemOut_flushed V c t) (itemOut_cover)

end Cert.KernelIdeal.Values

end
-- ==== Proof.Ideal.Value.UserOutArray.lean ====
/-
  The user output as ONE function of its four input arrays, entry by entry:
  max (max ((((a(i) + b(i)) + c(i)) + d(i)) * 1/2, 0), 0), with a and c the user-side target projections of the two
  relations that reach users and b and d the means of their messages.
  Point t writes back rows 5000 t .. 5000 t + 4999 of that function; every window sits at block t; the ten blocks tile.
  Stated at a parameter V for the buffer contents on entry, at the ideal instance.
-/
import proofs.«124944_j59854664237622_1_alg».proof.Proof.Ideal.UserOut
import proofs.«124944_j59854664237622_1_alg».proof.Proof.Ideal.Payloads
import Idealize.ShloMosaic.Lib.Pipeline.Value

set_option maxRecDepth 16384

noncomputable section

namespace Cert.KernelIdeal.Values

open Cert.KernelIdeal Cert.KernelIdeal.Gen Cert.KernelIdeal.Regions
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

/-- The whole user output. -/
def userOutAll (a b c' d' : S50000x128.Idx → EReal) : S50000x128.Idx → EReal :=
  fun i => max (max ((((a i + b i) + c' i) + d' i) * Ideal.ofBits .f32 0x3F000000#32) (Ideal.ofBits .f32 0x00000000#32)) (Ideal.ofBits .f32 0x00000000#32)

/-- The printed index maps over the grid: all four inputs' blocks move with the result's, whose block index is the point's number. -/
theorem userOutIdx : ∀ t : Fin cfg3.N, win3_0.index t (0 : Fin 2) = win3_4.index t (0 : Fin 2)
    ∧ win3_0.index t (1 : Fin 2) = win3_4.index t (1 : Fin 2)
    ∧ win3_1.index t (0 : Fin 2) = win3_4.index t (0 : Fin 2)
    ∧ win3_1.index t (1 : Fin 2) = win3_4.index t (1 : Fin 2)
    ∧ win3_2.index t (0 : Fin 2) = win3_4.index t (0 : Fin 2)
    ∧ win3_2.index t (1 : Fin 2) = win3_4.index t (1 : Fin 2)
    ∧ win3_3.index t (0 : Fin 2) = win3_4.index t (0 : Fin 2)
    ∧ win3_3.index t (1 : Fin 2) = win3_4.index t (1 : Fin 2)
    ∧ win3_4.index t (0 : Fin 2) = t.val ∧ win3_4.index t (1 : Fin 2) = 0 :=
  (by decide +kernel : ∀ t : Fin grid3.N, _)

/-- What point t writes back is block t of the whole user output of the arrays as the region finds them. -/
theorem userOut_flushed (c : Dev nD) (t : Fin cfg3.N) :
    (userOutDat V c).flushed 4 t
      = ((cfg3.win 4).blk t).view.read (Elt Ideal) (userOutAll (V c main_v5) (V c main_v53) (V c main_v7) (V c main_v75)) := by
  show (cfg3.win 4).cut (grid3.coords t) ((userOutDat V c).after 4 t) = _
  rw [userOutDat_after4]
  unfold userOutVal
  rw [View.canon_unit_zero zeroOffsets]
  simp only [View.ld_unit_zero (S := S5000x128) zeroOffsets]
  obtain ⟨e0, e1, e2, e3, e4, e5, e6, e7, e8, e9⟩ := userOutIdx t
  funext j
  refine (show (cfg3.win 4).cut (grid3.coords t)
        (k3_pay1 (F := Ideal) (userOutBlk V c 0 t) (userOutBlk V c 1 t) (userOutBlk V c 2 t) (userOutBlk V c 3 t)) j
      = k3_pay1 (F := Ideal) (userOutBlk V c 0 t) (userOutBlk V c 1 t) (userOutBlk V c 2 t) (userOutBlk V c 3 t) j from rfl).trans ?_
  refine (userOut_pay_apply _ _ _ _ _).trans ?_
  show _ = userOutAll (V c main_v5) (V c main_v53) (V c main_v7) (V c main_v75) (((cfg3.win 4).blk t).view.emb j)
  unfold userOutAll
  have h0 : userOutBlk V c 0 t j = V c main_v5 (((cfg3.win 4).blk t).view.emb j) := by
    show V c main_v5 (((cfg3.win 0).blk t).view.emb j) = _
    refine congrArg (V c main_v5) (funext fun a => Fin.ext ?_)
    match a with
    | ⟨0, _⟩ => show win3_0.index t (0 : Fin 2) * 5000 + 1 * (j 0).val = win3_4.index t (0 : Fin 2) * 5000 + 1 * (j 0).val; omega
    | ⟨1, _⟩ => show win3_0.index t (1 : Fin 2) * 128 + 1 * (j 1).val = win3_4.index t (1 : Fin 2) * 128 + 1 * (j 1).val; omega
  have h1 : userOutBlk V c 1 t j = V c main_v53 (((cfg3.win 4).blk t).view.emb j) := by
    show V c main_v53 (((cfg3.win 1).blk t).view.emb j) = _
    refine congrArg (V c main_v53) (funext fun a => Fin.ext ?_)
    match a with
    | ⟨0, _⟩ => show win3_1.index t (0 : Fin 2) * 5000 + 1 * (j 0).val = win3_4.index t (0 : Fin 2) * 5000 + 1 * (j 0).val; omega
    | ⟨1, _⟩ => show win3_1.index t (1 : Fin 2) * 128 + 1 * (j 1).val = win3_4.index t (1 : Fin 2) * 128 + 1 * (j 1).val; omega
  have h2 : userOutBlk V c 2 t j = V c main_v7 (((cfg3.win 4).blk t).view.emb j) := by
    show V c main_v7 (((cfg3.win 2).blk t).view.emb j) = _
    refine congrArg (V c main_v7) (funext fun a => Fin.ext ?_)
    match a with
    | ⟨0, _⟩ => show win3_2.index t (0 : Fin 2) * 5000 + 1 * (j 0).val = win3_4.index t (0 : Fin 2) * 5000 + 1 * (j 0).val; omega
    | ⟨1, _⟩ => show win3_2.index t (1 : Fin 2) * 128 + 1 * (j 1).val = win3_4.index t (1 : Fin 2) * 128 + 1 * (j 1).val; omega
  have h3 : userOutBlk V c 3 t j = V c main_v75 (((cfg3.win 4).blk t).view.emb j) := by
    show V c main_v75 (((cfg3.win 3).blk t).view.emb j) = _
    refine congrArg (V c main_v75) (funext fun a => Fin.ext ?_)
    match a with
    | ⟨0, _⟩ => show win3_3.index t (0 : Fin 2) * 5000 + 1 * (j 0).val = win3_4.index t (0 : Fin 2) * 5000 + 1 * (j 0).val; omega
    | ⟨1, _⟩ => show win3_3.index t (1 : Fin 2) * 128 + 1 * (j 1).val = win3_4.index t (1 : Fin 2) * 128 + 1 * (j 1).val; omega
  rw [h0, h1, h2, h3]

/-- An index of the result is in point t's block iff each coordinate is in the block's range on its axis. -/
theorem userOut_mem_blk (t : Fin cfg3.N) (i : S50000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v77).slice (win3_4.rect t)).set ↔ _
  rw [View.set_slice_whole, Rect.mem_set_unit]
  exact Iff.rfl

/-- Every entry of the result is in the block of the point that its row, divided by 5000, names. -/
theorem userOut_cover (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  have hq : (i 0).val / 5000 < grid3.N := by rw [N_3]; omega
  refine ⟨⟨(i 0).val / 5000, hq⟩, flush3_4 _, ?_⟩
  rw [userOut_mem_blk]
  obtain ⟨e0, e1, e2, e3, e4, e5, e6, e7, e8, e9⟩ := userOutIdx ⟨(i 0).val / 5000, hq⟩
  have e8' : win3_4.index ⟨(i 0).val / 5000, hq⟩ (0 : Fin 2) = (i 0).val / 5000 := e8
  intro a
  match a with
  | ⟨0, _⟩ => show win3_4.index _ (0 : Fin 2) * 5000 ≤ (i 0).val ∧ (i 0).val < win3_4.index _ (0 : Fin 2) * 5000 + 5000; rw [e8']; omega
  | ⟨1, _⟩ => show win3_4.index _ (1 : Fin 2) * 128 ≤ (i 1).val ∧ (i 1).val < win3_4.index _ (1 : Fin 2) * 128 + 128; rw [e9]; omega

/-- The result array after the region: the whole user output of its four input arrays as the region found them. -/
theorem userOut_array (c : Dev nD) :
    (userOutDat V c).arrAt 4 cfg3.N = userOutAll (V c main_v5) (V c main_v53) (V c main_v7) (V c main_v75) :=
  (userOutDat V c).arrAt_eq_of_cover 4 _ (fun t _ => userOut_flushed V c t) (userOut_cover)

end Cert.KernelIdeal.Values

end
-- ==== Proof.Ideal.Value.HostReads.lean ====
/-
  What the two host stretches of the idealized kernel's @main compute, read at the buffers the regions consume.
  The first stretch lays the weight matrices side by side: W_user = [w_rates_src | w_rated_tgt | w_follows_src |
  w_follows_tgt] and W_item = [w_rated_src | w_rates_tgt].
  The second cuts the two projections into 128-column bands and, for each of the three relations, forms the mean of the
  source rows over the edges that reach each target: the edge list's first row names the sources (a negative index counts
  from the end), its second the targets; the source rows are gathered, summed per target into zeros, and divided by the
  number of edges per target, floored at one so that a target no edge reaches keeps zero. That chain is the same
  function of (a 50000 x 128 array, an edge list) each time and is named once.
-/
import proofs.«124944_j59854664237622_1_alg».proof.Proof.Ideal.Run

set_option maxRecDepth 16384

noncomputable section

namespace Cert.KernelIdeal.Values

open Cert.KernelIdeal Cert.KernelIdeal.Gen Cert.KernelIdeal.Regions
open Idealize.ShloMosaic Idealize.ShloMosaic.TcCoe Idealize.ShloMosaic.Tactic Idealize.ShloMosaic.StableHlo
open Idealize.SL.Sem

variable {F : FTy → Type} [FloatOps F]

/-- The per-target mean of the rows of `src` over the edges `e`. -/
def segMean (src : (⟨S50000x128, .f32⟩ : BufTy).Contents (Elt F)) (e : (⟨S2x600000, .i32⟩ : BufTy).Contents (Elt F)) :
    (⟨S50000x128, .f32⟩ : BufTy).Contents (Elt F) :=
  Host.divf
    (Host.scatterAdd scatter_S50000x128_S600000x1_S600000x128_1_0_0_1
      (broadcastInDim S50000x128 ![] bcast_S_S50000x128 (constant S_ .f32 0x00000000#32))
      (broadcastInDim S600000x1 ![0] bcast_S600000_S600000x1_0
        (shapeCast S600000 (extractStridedSlice S1x600000 ![1, 0] e slices_S2x600000_S1x600000_1_0) shapeCasts_S1x600000_S600000))
      (Host.gather gather_S50000x128_S600000x1_S600000x128_1_0_n_n_0_1_1128 src
        (broadcastInDim S600000x1 ![0] bcast_S600000_S600000x1_0
          (select
            (cmpi .slt
              (shapeCast S600000 (extractStridedSlice S1x600000 ![0, 0] e slices_S2x600000_S1x600000_0_0) shapeCasts_S1x600000_S600000)
              (broadcastInDim S600000 ![] bcast_S_S600000 (constantI S_ 32 0#32)))
            (addi
              (shapeCast S600000 (extractStridedSlice S1x600000 ![0, 0] e slices_S2x600000_S1x600000_0_0) shapeCasts_S1x600000_S600000)
              (broadcastInDim S600000 ![] bcast_S_S600000 (constantI S_ 32 50000#32)))
            (shapeCast S600000 (extractStridedSlice S1x600000 ![0, 0] e slices_S2x600000_S1x600000_0_0) shapeCasts_S1x600000_S600000)))))
    (broadcastInDim S50000x128 ![0, 1] bcast_S50000x1_S50000x128_0_1
      (maximumf
        (Host.scatterAdd scatter_S50000x1_S600000x1_S600000x1_1_0_0_1
          (broadcastInDim S50000x1 ![] bcast_S_S50000x1 (constant S_ .f32 0x00000000#32))
          (broadcastInDim S600000x1 ![0] bcast_S600000_S600000x1_0
            (shapeCast S600000 (extractStridedSlice S1x600000 ![1, 0] e slices_S2x600000_S1x600000_1_0) shapeCasts_S1x600000_S600000))
          (broadcastInDim S600000x1 ![] bcast_S_S600000x1 (constant S_ .f32 0x3F800000#32)))
        (broadcastInDim S50000x1 ![] bcast_S_S50000x1 (constant S_ .f32 0x3F800000#32))))

variable (m : (ℓ : Loc nD τ sig) → Buf (Elt F) ℓ) (ρ : Dev nD → PrngReg)

/-! ## The grouped weights -/

theorem atWeights_userW (c : Dev nD) :
    atWeights m ρ c (Proc.devRef .tc main_v0)
      = concatenate S128x512 1 [⟨S128x128, m ((c : Thread nD τ).loc main_arg2)⟩, ⟨S128x128, m ((c : Thread nD τ).loc main_arg5)⟩,
          ⟨S128x128, m ((c : Thread nD τ).loc main_arg6)⟩, ⟨S128x128, m ((c : Thread nD τ).loc main_arg7)⟩]
          concatenates_S128x128_S128x128_S128x128_S128x128_S128x512_d1 := by
  show StableHlo.after hostOps0 (atLaunch m ρ c) (Proc.devRef .tc main_v0) = _
  after_results <;> rfl

theorem atWeights_itemW (c : Dev nD) :
    atWeights m ρ c (Proc.devRef .tc main_v1)
      = concatenate S128x256 1 [⟨S128x128, m ((c : Thread nD τ).loc main_arg4)⟩, ⟨S128x128, m ((c : Thread nD τ).loc main_arg3)⟩]
          concatenates_S128x128_S128x128_S128x256_d1 := by
  show StableHlo.after hostOps0 (atLaunch m ρ c) (Proc.devRef .tc main_v1) = _
  after_results <;> rfl

/-! ## The bands and the means, from the two projections and the edge lists as the second stretch finds them -/

/-- The item-side target projection of "rates": columns 128 .. 255 of the item projection. -/
theorem atMeans_itemTgt (c : Dev nD) :
    atMeans m ρ c (Proc.devRef .tc main_v9)
      = extractStridedSlice S50000x128 ![0, 128] (atItemProj m ρ c (Proc.devRef .tc main_v3)) slices_S50000x256_S50000x128_0_128 := by
  show StableHlo.after hostOps2 (atItemProj m ρ c) (Proc.devRef .tc main_v9) = _
  after_results_simp <;> rfl

/-- The mean of the "rates" messages: source rows from columns 0 .. 127 of the user projection. -/
theorem atMeans_ratesMean (c : Dev nD) :
    atMeans m ρ c (Proc.devRef .tc main_v31)
      = segMean (extractStridedSlice S50000x128 ![0, 0] (atItemProj m ρ c (Proc.devRef .tc main_v2)) slices_S50000x512_S50000x128_0_0)
          (atItemProj m ρ c (Proc.devRef .tc main_arg8)) := by
  show StableHlo.after hostOps2 (atItemProj m ρ c) (Proc.devRef .tc main_v31) = _
  after_results_simp <;> rfl

/-- The user-side target projection of "rated by": columns 128 .. 255 of the user projection. -/
theorem atMeans_ratedTgt (c : Dev nD) :
    atMeans m ρ c (Proc.devRef .tc main_v5)
      = extractStridedSlice S50000x128 ![0, 128] (atItemProj m ρ c (Proc.devRef .tc main_v2)) slices_S50000x512_S50000x128_0_128 := by
  show StableHlo.after hostOps2 (atItemProj m ρ c) (Proc.devRef .tc main_v5) = _
  after_results_simp <;> rfl

/-- The mean of the "rated by" messages: source rows from columns 0 .. 127 of the item projection. -/
theorem atMeans_ratedMean (c : Dev nD) :
    atMeans m ρ c (Proc.devRef .tc main_v53)
      = segMean (extractStridedSlice S50000x128 ![0, 0] (atItemProj m ρ c (Proc.devRef .tc main_v3)) slices_S50000x256_S50000x128_0_0)
          (atItemProj m ρ c (Proc.devRef .tc main_arg9)) := by
  show StableHlo.after hostOps2 (atItemProj m ρ c) (Proc.devRef .tc main_v53) = _
  after_results_simp <;> rfl

/-- The user-side target projection of "follows": columns 384 .. 511 of the user projection. -/
theorem atMeans_followsTgt (c : Dev nD) :
    atMeans m ρ c (Proc.devRef .tc main_v7)
      = extractStridedSlice S50000x128 ![0, 384] (atItemProj m ρ c (Proc.devRef .tc main_v2)) slices_S50000x512_S50000x128_0_384 := by
  show StableHlo.after hostOps2 (atItemProj m ρ c) (Proc.devRef .tc main_v7) = _
  after_results_simp <;> rfl

/-- The mean of the "follows" messages: source rows from columns 256 .. 383 of the user projection. -/
theorem atMeans_followsMean (c : Dev nD) :
    atMeans m ρ c (Proc.devRef .tc main_v75)
      = segMean (extractStridedSlice S50000x128 ![0, 256] (atItemProj m ρ c (Proc.devRef .tc main_v2)) slices_S50000x512_S50000x128_0_256)
          (atItemProj m ρ c (Proc.devRef .tc main_arg10)) := by
  show StableHlo.after hostOps2 (atItemProj m ρ c) (Proc.devRef .tc main_v75) = _
  after_results_simp <;> rfl

end Cert.KernelIdeal.Values

end
-- ==== Proof.Ideal.Value.KernelValue.lean ====
/-
  The idealized kernel's two results as closed terms of the launch memory.
  With x_user, x_item the features, W_user and W_item the weight matrices laid side by side, and P_user = x_user * W_user,
  P_item = x_item * W_item the two projections (each a plain sum over the 128 input channels):
    out_item = max (max ((band 1 of P_item + mean of band 0 of P_user over the "rates" edges) * 1, 0), 0)
    out_user = max (max ((((band 1 of P_user + mean of band 0 of P_item over the "rated by" edges) + band 3 of P_user)
                            + mean of band 2 of P_user over the "follows" edges) * 1/2, 0), 0)
  where band c is columns 128 c .. 128 c + 127. Each is read off the run by walking the fold back from the end: the last
  region's array is the whole-array function of its inputs, those are what the second host stretch computed from the two
  projections' arrays, and those are the products of the arguments and the grouped weights as launched.
-/
import proofs.«124944_j59854664237622_1_alg».proof.Proof.Ideal.Frame
import proofs.«124944_j59854664237622_1_alg».proof.Proof.Ideal.Value.UserProjArray
import proofs.«124944_j59854664237622_1_alg».proof.Proof.Ideal.Value.ItemProjArray
import proofs.«124944_j59854664237622_1_alg».proof.Proof.Ideal.Value.ItemOutArray
import proofs.«124944_j59854664237622_1_alg».proof.Proof.Ideal.Value.UserOutArray
import proofs.«124944_j59854664237622_1_alg».proof.Proof.Ideal.Value.HostReads

set_option maxRecDepth 16384

noncomputable section

namespace Cert.KernelIdeal.Values

open Cert.KernelIdeal Cert.KernelIdeal.Gen Cert.KernelIdeal.Regions
open Idealize.ShloMosaic Idealize.ShloMosaic.TcCoe Idealize.ShloMosaic.Tactic Idealize.ShloMosaic.StableHlo
open Idealize.SL.Sem

variable (m : (ℓ : Loc nD τ sig) → Buf (Elt Ideal) ℓ) (ρ : Dev nD → PrngReg)

/-! ## The pieces, from the launch memory -/

/-- [w_rates_src | w_rated_tgt | w_follows_src | w_follows_tgt] -/
def userW (c : Dev nD) : (⟨S128x512, .f32⟩ : BufTy).Contents (Elt Ideal) :=
  concatenate S128x512 1 [⟨S128x128, m ((c : Thread nD τ).loc main_arg2)⟩, ⟨S128x128, m ((c : Thread nD τ).loc main_arg5)⟩,
    ⟨S128x128, m ((c : Thread nD τ).loc main_arg6)⟩, ⟨S128x128, m ((c : Thread nD τ).loc main_arg7)⟩]
    concatenates_S128x128_S128x128_S128x128_S128x128_S128x512_d1
/-- [w_rated_src | w_rates_tgt] -/
def itemW (c : Dev nD) : (⟨S128x256, .f32⟩ : BufTy).Contents (Elt Ideal) :=
  concatenate S128x256 1 [⟨S128x128, m ((c : Thread nD τ).loc main_arg4)⟩, ⟨S128x128, m ((c : Thread nD τ).loc main_arg3)⟩]
    concatenates_S128x128_S128x128_S128x256_d1
/-- x_user * W_user and x_item * W_item -/
def userP (c : Dev nD) : S50000x512.Idx → EReal := userProjAll (m ((c : Thread nD τ).loc main_arg0)) (userW m c)
def itemP (c : Dev nD) : S50000x256.Idx → EReal := itemProjAll (m ((c : Thread nD τ).loc main_arg1)) (itemW m c)

/-- The kernel's item output and user output. -/
def kernelItem (c : Dev nD) : S50000x128.Idx → EReal :=
  itemOutAll (extractStridedSlice S50000x128 ![0, 128] (itemP m c) slices_S50000x256_S50000x128_0_128)
    (segMean (extractStridedSlice S50000x128 ![0, 0] (userP m c) slices_S50000x512_S50000x128_0_0) (m ((c : Thread nD τ).loc main_arg8)))
def kernelUser (c : Dev nD) : S50000x128.Idx → EReal :=
  userOutAll (extractStridedSlice S50000x128 ![0, 128] (userP m c) slices_S50000x512_S50000x128_0_128)
    (segMean (extractStridedSlice S50000x128 ![0, 0] (itemP m c) slices_S50000x256_S50000x128_0_0) (m ((c : Thread nD τ).loc main_arg9)))
    (extractStridedSlice S50000x128 ![0, 384] (userP m c) slices_S50000x512_S50000x128_0_384)
    (segMean (extractStridedSlice S50000x128 ![0, 256] (userP m c) slices_S50000x512_S50000x128_0_256) (m ((c : Thread nD τ).loc main_arg10)))

/-! ## The arguments as the later boundaries find them -/

theorem atWeights_xUser (c : Dev nD) : atWeights m ρ c (Proc.devRef .tc main_arg0) = m ((c : Thread nD τ).loc main_arg0) := by
  show StableHlo.after hostOps0 (atLaunch m ρ c) (Proc.devRef .tc main_arg0) = _
  after_results <;> rfl
theorem atWeights_xItem (c : Dev nD) : atWeights m ρ c (Proc.devRef .tc main_arg1) = m ((c : Thread nD τ).loc main_arg1) := by
  show StableHlo.after hostOps0 (atLaunch m ρ c) (Proc.devRef .tc main_arg1) = _
  after_results <;> rfl

/-- An edge list reaches the second host stretch as launched: neither projection has it as an array and the first
    stretch does not write it. -/
theorem atItemProj_rates (c : Dev nD) : atItemProj m ρ c (Proc.devRef .tc main_arg8) = m ((c : Thread nD τ).loc main_arg8) :=
  (atItemProj_of_ne m ρ c main_arg8 (by decide)).trans <| (atUserProj_of_ne m ρ c main_arg8 (by decide)).trans <| by
    show StableHlo.after hostOps0 (atLaunch m ρ c) (Proc.devRef .tc main_arg8) = _
    after_results <;> rfl
theorem atItemProj_rated (c : Dev nD) : atItemProj m ρ c (Proc.devRef .tc main_arg9) = m ((c : Thread nD τ).loc main_arg9) :=
  (atItemProj_of_ne m ρ c main_arg9 (by decide)).trans <| (atUserProj_of_ne m ρ c main_arg9 (by decide)).trans <| by
    show StableHlo.after hostOps0 (atLaunch m ρ c) (Proc.devRef .tc main_arg9) = _
    after_results <;> rfl
theorem atItemProj_follows (c : Dev nD) : atItemProj m ρ c (Proc.devRef .tc main_arg10) = m ((c : Thread nD τ).loc main_arg10) :=
  (atItemProj_of_ne m ρ c main_arg10 (by decide)).trans <| (atUserProj_of_ne m ρ c main_arg10 (by decide)).trans <| by
    show StableHlo.after hostOps0 (atLaunch m ρ c) (Proc.devRef .tc main_arg10) = _
    after_results <;> rfl

/-! ## The two projections as the second host stretch finds them -/

theorem atItemProj_userP (c : Dev nD) : atItemProj m ρ c (Proc.devRef .tc main_v2) = userP m c := by
  refine (atItemProj_of_ne m ρ c main_v2 (by decide)).trans ?_
  refine (atUserProj_arr m ρ c 2).trans ?_
  refine (userProj_array (inWeights m ρ) c).trans ?_
  show userProjAll (atWeights m ρ c (Proc.devRef .tc main_arg0)) (atWeights m ρ c (Proc.devRef .tc main_v0)) = _
  rw [atWeights_xUser, atWeights_userW]
  rfl

theorem atItemProj_itemP (c : Dev nD) : atItemProj m ρ c (Proc.devRef .tc main_v3) = itemP m c := by
  refine (atItemProj_arr m ρ c 2).trans ?_
  refine (itemProj_array (inUserProj m ρ) c).trans ?_
  show itemProjAll (atUserProj m ρ c (Proc.devRef .tc main_arg1)) (atUserProj m ρ c (Proc.devRef .tc main_v1)) = _
  rw [atUserProj_of_ne m ρ c main_arg1 (by decide), atUserProj_of_ne m ρ c main_v1 (by decide), atWeights_xItem, atWeights_itemW]
  rfl

/-! ## The two results at the end -/

theorem atEnd_itemOut (c : Dev nD) : atEnd m ρ c (Proc.devRef .tc main_v76) = kernelItem m c := by
  refine (atEnd_of_ne m ρ c main_v76 (by decide)).trans ?_
  refine (atItemOut_arr m ρ c 2).trans ?_
  refine (itemOut_array (inMeans m ρ) c).trans ?_
  show itemOutAll (atMeans m ρ c (Proc.devRef .tc main_v9)) (atMeans m ρ c (Proc.devRef .tc main_v31)) = _
  rw [atMeans_itemTgt, atMeans_ratesMean, atItemProj_itemP, atItemProj_userP, atItemProj_rates]
  rfl

theorem atEnd_userOut (c : Dev nD) : atEnd m ρ c (Proc.devRef .tc main_v77) = kernelUser m c := by
  refine (atEnd_arr m ρ c 4).trans ?_
  refine (userOut_array (inItemOut m ρ) c).trans ?_
  show userOutAll (atItemOut m ρ c (Proc.devRef .tc main_v5)) (atItemOut m ρ c (Proc.devRef .tc main_v53))
    (atItemOut m ρ c (Proc.devRef .tc main_v7)) (atItemOut m ρ c (Proc.devRef .tc main_v75)) = _
  rw [atItemOut_of_ne m ρ c main_v5 (by decide), atItemOut_of_ne m ρ c main_v53 (by decide),
    atItemOut_of_ne m ρ c main_v7 (by decide), atItemOut_of_ne m ρ c main_v75 (by decide),
    atMeans_ratedTgt, atMeans_ratedMean, atMeans_followsTgt, atMeans_followsMean,
    atItemProj_userP, atItemProj_itemP, atItemProj_rated, atItemProj_follows]
  rfl

/-! ## The run, read at the results and the arguments -/

theorem run_value : θ_run defs (onTc (τ := τ) (main (F := Ideal))) ⟨m, fun _ => 0, ρ⟩ (fun r => ∀ c : Dev nD,
      r.2.mem ((c.tc : Thread nD τ).loc main_v77) = kernelUser m c
      ∧ r.2.mem ((c.tc : Thread nD τ).loc main_v76) = kernelItem m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c main_v77 (by decide)).trans (atEnd_userOut m ρ c), (h c main_v76 (by decide)).trans (atEnd_itemOut m ρ c),
     (h c main_arg0 (by decide)).trans (atEnd_arg0 m ρ c), (h c main_arg1 (by decide)).trans (atEnd_arg1 m ρ c),
     (h c main_arg2 (by decide)).trans (atEnd_arg2 m ρ c), (h c main_arg3 (by decide)).trans (atEnd_arg3 m ρ c),
     (h c main_arg4 (by decide)).trans (atEnd_arg4 m ρ c), (h c main_arg5 (by decide)).trans (atEnd_arg5 m ρ c),
     (h c main_arg6 (by decide)).trans (atEnd_arg6 m ρ c), (h c main_arg7 (by decide)).trans (atEnd_arg7 m ρ c),
     (h c main_arg8 (by decide)).trans (atEnd_arg8 m ρ c), (h c main_arg9 (by decide)).trans (atEnd_arg9 m ρ c),
     (h c main_arg10 (by decide)).trans (atEnd_arg10 m ρ c)⟩) (run_all m ρ)

end Cert.KernelIdeal.Values

end
-- ==== Proof.Ideal.Consts.lean ====
/-
  The float constants the two programs spell, as the extended reals their bit patterns denote at the ideal instance.
  1.0 and 0.5 are the kernel's scales ((a + b) * 1 for the item output, the sum of four * 1/2 for the user output); 2.0 and
  1.0 are the reference's divisors; 1.0 is also the floor of every edge count. One module states them all, so that the
  unfolding of the float format happens once.
-/
import Idealize.ShloMosaic.PureOps.Ideal

noncomputable section

namespace Cert.Consts

open Idealize.ShloMosaic

theorem ofBits_one : Ideal.ofBits .f32 0x3F800000#32 = 1 := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

end Cert.Consts

end
-- ==== Proof.Ideal.Scalars.lean ====
/-
  The three laws that join the kernel's arithmetic to the reference's, on the extended reals.
  The kernel scales by a constant where the reference divides by its reciprocal: (a + b) * 1 against (a + b) / 1 for the
  item output, and the sum of four * 1/2 against the same sum / 2 for the user output. On the extended reals division by a
  nonzero real IS multiplication by its reciprocal, at every value including the two infinities, so neither law asks that
  anything be finite. The kernel adds its four terms left to right where the reference adds two pairs; addition of
  extended reals is associative, again with no side condition.
-/
import proofs.«124944_j59854664237622_1_alg».proof.Proof.Ideal.Consts
import Idealize.ShloMosaic.PureOps.Ideal

noncomputable section

namespace Cert.Laws

open Idealize.ShloMosaic

/-- Scaling by 1.0 is dividing by 1.0. -/
theorem mul_one_eq_div_one (x : EReal) :
    x * Ideal.ofBits .f32 0x3F800000#32 = Ideal.div x (Ideal.ofBits .f32 0x3F800000#32) := by
  rw [Cert.Consts.ofBits_one, show (1 : EReal) = ((1 : ℝ) : EReal) from rfl, Ideal.div_coe (by norm_num : (1 : ℝ) ≠ 0)]
  norm_num

/-- Scaling by 0.5 is dividing by 2.0. -/
theorem mul_half_eq_div_two (x : EReal) :
    x * Ideal.ofBits .f32 0x3F000000#32 = Ideal.div x (Ideal.ofBits .f32 0x40000000#32) := by
  rw [Cert.Consts.ofBits_half, Cert.Consts.ofBits_two, Ideal.div_coe (by norm_num : (2 : ℝ) ≠ 0)]

/-- Four terms added left to right are two pairs added. -/
theorem sum_four (a b c d : EReal) : ((a + b) + c) + d = (a + b) + (c + d) := add_assoc _ _ _

end Cert.Laws

end
-- ==== Proof.Bridge.lean ====
/-
  The idealized kernel's two results are the idealized reference's, as functions of the same arguments.
  Three facts carry it.
  (1) A 128-column band of a grouped projection is a plain product: entry (r, j) of columns 128 c .. 128 c + 127 of
      x * [w₀ | w₁ | ...] is the sum over k of x(r, k) * w_c(k, j), because entry (k, 128 c + j) of the matrices laid side by
      side is entry (k, j) of the c-th. The reference's dot_general of x and w_c is the same sum.
  (2) The reference forms each per-target mean by the very chain of host operations the kernel uses, applied to its own
      product; so once (1) has identified the products, the means are one function of equal arguments.
  (3) The kernel scales where the reference divides, and adds four terms in a row where the reference adds two pairs.
  None of the three asks that anything be finite.
-/
import proofs.«124944_j59854664237622_1_alg».proof.Proof.Ideal.Value.KernelValue
import proofs.«124944_j59854664237622_1_alg».proof.Proof.Ideal.Scalars
import proofs.«124944_j59854664237622_1_alg».proof.Proof.Gen.ReferenceIdeal.Run
import proofs.«124944_j59854664237622_1_alg».proof.Proof.Gen.ReferenceIdeal.Read
import Idealize.ShloMosaic.Lib.Pipeline.Value
import Idealize.ShloMosaic.PureOps.Ideal.Laws

set_option maxRecDepth 16384

noncomputable section

namespace Cert.Bridge

open Cert.KernelIdeal Cert.KernelIdeal.Values
open Cert.KernelIdeal.Facts₀ Cert.KernelIdeal.Facts
open Idealize.ShloMosaic Idealize.ShloMosaic.TcCoe
open scoped BigOperators

/-! ## The plain product of a 50000 x 128 array and a 128 x 128 matrix -/

abbrev prodRow (i : S50000x128.Idx) (k : Fin 128) : S50000x128.Idx := fun a => match a with
  | ⟨0, _⟩ => ⟨(i 0).val, (i 0).isLt⟩
  | ⟨1, _⟩ => ⟨k.val, k.isLt⟩
abbrev prodCol (i : S50000x128.Idx) (k : Fin 128) : S128x128.Idx := fun a => match a with
  | ⟨0, _⟩ => ⟨k.val, k.isLt⟩
  | ⟨1, _⟩ => ⟨(i 1).val, (i 1).isLt⟩

def matProd (x : (⟨S50000x128, .f32⟩ : BufTy).Contents (Elt Ideal)) (w : (⟨S128x128, .f32⟩ : BufTy).Contents (Elt Ideal)) : (⟨S50000x128, .f32⟩ : BufTy).Contents (Elt Ideal) :=
  fun i => ∑ k : Fin 128, x (prodRow i k) * w (prodCol i k)

/-- The reference's dot_general of x and w is the plain product. -/
theorem refDot_eq (x : (⟨S50000x128, .f32⟩ : BufTy).Contents (Elt Ideal)) (w : (⟨S128x128, .f32⟩ : BufTy).Contents (Elt Ideal)) :
    Host.dotGeneral (F := Ideal) (φ₁ := .f32) (φ₂ := .f32) Cert.ReferenceIdeal.dot_S50000x128_S128x128_S50000x128_1_0_0_1_n_n none x w = matProd x w := by
  funext i
  refine (Cert.ReferenceIdeal.Read.val_main_v0_apply x w i).trans ?_
  unfold matProd
  refine Finset.sum_congr rfl fun k _ => ?_
  have hl : Cert.ReferenceIdeal.Read.lidx_main_v0 i k = prodRow i k := funext fun a => by
    match a with
    | ⟨0, _⟩ => rfl
    | ⟨1, _⟩ => rfl
  have hr : Cert.ReferenceIdeal.Read.ridx_main_v0 i k = prodCol i k := funext fun a => by
    match a with
    | ⟨0, _⟩ => rfl
    | ⟨1, _⟩ => rfl
  rw [hl, hr]

/-! ## A band of a grouped projection -/

/-- Band c of x * [w₀ | w₁ | w₂ | w₃]. -/
theorem userBand (x : (⟨S50000x128, .f32⟩ : BufTy).Contents (Elt Ideal)) (w0 w1 w2 w3 : (⟨S128x128, .f32⟩ : BufTy).Contents (Elt Ideal)) (c : Fin 4) (o : Nat) (ho : o = 128 * c.val)
    (hs : S50000x512.Slices ![0, o] S50000x128)
    (hc : Shape.Concatenates [S128x128, S128x128, S128x128, S128x128] S128x512 1) :
    extractStridedSlice S50000x128 ![0, o]
        (userProjAll x (concatenate S128x512 1 [⟨S128x128, w0⟩, ⟨S128x128, w1⟩, ⟨S128x128, w2⟩, ⟨S128x128, w3⟩] hc)) hs
      = matProd x (![w0, w1, w2, w3] c) := by
  subst ho
  funext i
  have hi0 : (i 0).val < 50000 := (i 0).isLt
  have hi1 : (i 1).val < 128 := (i 1).isLt
  have hcv : c.val < 4 := c.isLt
  -- any entry of the whole product in row i₀ and column 128 c + i₁ is entry i of the product with the c-th matrix
  have key : ∀ j : S50000x512.Idx, (j 0).val = (i 0).val → (j 1).val = 128 * c.val + (i 1).val →
      userProjAll x (concatenate S128x512 1 [⟨S128x128, w0⟩, ⟨S128x128, w1⟩, ⟨S128x128, w2⟩, ⟨S128x128, w3⟩] hc) j
        = matProd x (![w0, w1, w2, w3] c) i := by
    intro j hj0 hj1
    unfold userProjAll matProd
    refine Finset.sum_congr rfl fun k _ => ?_
    have hx : userRowAll j k = prodRow i k := funext fun a => Fin.ext (by
      match a with
      | ⟨0, _⟩ => exact hj0
      | ⟨1, _⟩ => rfl)
    have hw : concatenate S128x512 1 [⟨S128x128, w0⟩, ⟨S128x128, w1⟩, ⟨S128x128, w2⟩, ⟨S128x128, w3⟩] hc (userColAll j k)
        = (![w0, w1, w2, w3] c) (prodCol i k) := by
      refine concatenate_apply_piece (t := S128x512) 1
        ([⟨S128x128, w0⟩, ⟨S128x128, w1⟩, ⟨S128x128, w2⟩, ⟨S128x128, w3⟩] : List ((s : Shape) × (s.Idx → EReal))) hc (userColAll j k)
        c.val (by simpa using hcv) S128x128 (![w0, w1, w2, w3] c)
        (by fin_cases c <;> rfl) rfl (128 * c.val) (by fin_cases c <;> rfl) (prodCol i k) (fun b hb => ?_) ?_
      · match b with
        | ⟨0, _⟩ => rfl
        | ⟨1, _⟩ => exact absurd rfl hb
      · show 128 * c.val + (i 1).val = (j 1).val
        omega
    rw [hx, hw]
  let j : S50000x512.Idx := fun a => match a with
    | ⟨0, _⟩ => ⟨(i 0).val, by show (i 0).val < 50000; exact hi0⟩
    | ⟨1, _⟩ => ⟨128 * c.val + (i 1).val, by show 128 * c.val + (i 1).val < 512; omega⟩
  have hj : ∀ a : Fin S50000x512.rank, (j a).val = (![0, 128 * c.val] : Fin 2 → Nat) a + (i (a.cast hs.1.symm)).val := fun a => by
    match a with
    | ⟨0, _⟩ => show (i 0).val = 0 + (i 0).val; omega
    | ⟨1, _⟩ => show 128 * c.val + (i 1).val = 128 * c.val + (i 1).val; rfl
  exact (extractStridedSlice_apply ![0, 128 * c.val] _ hs i j hj).trans (key j rfl rfl)

/-- Band c of x * [w₀ | w₁]. -/
theorem itemBand (x : (⟨S50000x128, .f32⟩ : BufTy).Contents (Elt Ideal)) (w0 w1 : (⟨S128x128, .f32⟩ : BufTy).Contents (Elt Ideal)) (c : Fin 2) (o : Nat) (ho : o = 128 * c.val)
    (hs : S50000x256.Slices ![0, o] S50000x128)
    (hc : Shape.Concatenates [S128x128, S128x128] S128x256 1) :
    extractStridedSlice S50000x128 ![0, o]
        (itemProjAll x (concatenate S128x256 1 [⟨S128x128, w0⟩, ⟨S128x128, w1⟩] hc)) hs
      = matProd x (![w0, w1] c) := by
  subst ho
  funext i
  have hi0 : (i 0).val < 50000 := (i 0).isLt
  have hi1 : (i 1).val < 128 := (i 1).isLt
  have hcv : c.val < 2 := c.isLt
  have key : ∀ j : S50000x256.Idx, (j 0).val = (i 0).val → (j 1).val = 128 * c.val + (i 1).val →
      itemProjAll x (concatenate S128x256 1 [⟨S128x128, w0⟩, ⟨S128x128, w1⟩] hc) j = matProd x (![w0, w1] c) i := by
    intro j hj0 hj1
    unfold itemProjAll matProd
    refine Finset.sum_congr rfl fun k _ => ?_
    have hx : itemRowAll j k = prodRow i k := funext fun a => Fin.ext (by
      match a with
      | ⟨0, _⟩ => exact hj0
      | ⟨1, _⟩ => rfl)
    have hw : concatenate S128x256 1 [⟨S128x128, w0⟩, ⟨S128x128, w1⟩] hc (itemColAll j k) = (![w0, w1] c) (prodCol i k) := by
      refine concatenate_apply_piece (t := S128x256) 1
        ([⟨S128x128, w0⟩, ⟨S128x128, w1⟩] : List ((s : Shape) × (s.Idx → EReal))) hc (itemColAll j k)
        c.val (by simpa using hcv) S128x128 (![w0, w1] c)
        (by fin_cases c <;> rfl) rfl (128 * c.val) (by fin_cases c <;> rfl) (prodCol i k) (fun b hb => ?_) ?_
      · match b with
        | ⟨0, _⟩ => rfl
        | ⟨1, _⟩ => exact absurd rfl hb
      · show 128 * c.val + (i 1).val = (j 1).val
        omega
    rw [hx, hw]
  let j : S50000x256.Idx := fun a => match a with
    | ⟨0, _⟩ => ⟨(i 0).val, by show (i 0).val < 50000; exact hi0⟩
    | ⟨1, _⟩ => ⟨128 * c.val + (i 1).val, by show 128 * c.val + (i 1).val < 256; omega⟩
  have hj : ∀ a : Fin S50000x256.rank, (j a).val = (![0, 128 * c.val] : Fin 2 → Nat) a + (i (a.cast hs.1.symm)).val := fun a => by
    match a with
    | ⟨0, _⟩ => show (i 0).val = 0 + (i 0).val; omega
    | ⟨1, _⟩ => show 128 * c.val + (i 1).val = 128 * c.val + (i 1).val; rfl
  exact (extractStridedSlice_apply ![0, 128 * c.val] _ hs i j hj).trans (key j rfl rfl)

/-! ## The reference's means are the kernel's chain applied to the reference's products -/

theorem refMean_rates (x0 : (⟨S50000x128, .f32⟩ : BufTy).Contents (Elt Ideal)) (w2 : (⟨S128x128, .f32⟩ : BufTy).Contents (Elt Ideal)) (e : (⟨S2x600000, .i32⟩ : BufTy).Contents (Elt Ideal)) :
    Cert.ReferenceIdeal.Read.val_main_v23 (F := Ideal) x0 w2 e = segMean (F := Ideal) (Cert.ReferenceIdeal.Read.val_main_v0 (F := Ideal) x0 w2) e := rfl
theorem refMean_rated (x1 : (⟨S50000x128, .f32⟩ : BufTy).Contents (Elt Ideal)) (w4 : (⟨S128x128, .f32⟩ : BufTy).Contents (Elt Ideal)) (e : (⟨S2x600000, .i32⟩ : BufTy).Contents (Elt Ideal)) :
    Cert.ReferenceIdeal.Read.val_main_v48 (F := Ideal) x1 w4 e = segMean (F := Ideal) (Cert.ReferenceIdeal.Read.val_main_v25 (F := Ideal) x1 w4) e := rfl
theorem refMean_follows (x0 : (⟨S50000x128, .f32⟩ : BufTy).Contents (Elt Ideal)) (w6 : (⟨S128x128, .f32⟩ : BufTy).Contents (Elt Ideal)) (e : (⟨S2x600000, .i32⟩ : BufTy).Contents (Elt Ideal)) :
    Cert.ReferenceIdeal.Read.val_main_v73 (F := Ideal) x0 w6 e = segMean (F := Ideal) (Cert.ReferenceIdeal.Read.val_main_v50 (F := Ideal) x0 w6) e := rfl

/-! ## The reference's six products are plain products -/

theorem ref_ratesSrc (x0 : (⟨S50000x128, .f32⟩ : BufTy).Contents (Elt Ideal)) (w2 : (⟨S128x128, .f32⟩ : BufTy).Contents (Elt Ideal)) : Cert.ReferenceIdeal.Read.val_main_v0 (F := Ideal) x0 w2 = matProd x0 w2 := refDot_eq x0 w2
theorem ref_ratesTgt (x1 : (⟨S50000x128, .f32⟩ : BufTy).Contents (Elt Ideal)) (w3 : (⟨S128x128, .f32⟩ : BufTy).Contents (Elt Ideal)) : Cert.ReferenceIdeal.Read.val_main_v1 (F := Ideal) x1 w3 = matProd x1 w3 := refDot_eq x1 w3
theorem ref_ratedSrc (x1 : (⟨S50000x128, .f32⟩ : BufTy).Contents (Elt Ideal)) (w4 : (⟨S128x128, .f32⟩ : BufTy).Contents (Elt Ideal)) : Cert.ReferenceIdeal.Read.val_main_v25 (F := Ideal) x1 w4 = matProd x1 w4 := refDot_eq x1 w4
theorem ref_ratedTgt (x0 : (⟨S50000x128, .f32⟩ : BufTy).Contents (Elt Ideal)) (w5 : (⟨S128x128, .f32⟩ : BufTy).Contents (Elt Ideal)) : Cert.ReferenceIdeal.Read.val_main_v26 (F := Ideal) x0 w5 = matProd x0 w5 := refDot_eq x0 w5
theorem ref_followsSrc (x0 : (⟨S50000x128, .f32⟩ : BufTy).Contents (Elt Ideal)) (w6 : (⟨S128x128, .f32⟩ : BufTy).Contents (Elt Ideal)) : Cert.ReferenceIdeal.Read.val_main_v50 (F := Ideal) x0 w6 = matProd x0 w6 := refDot_eq x0 w6
theorem ref_followsTgt (x0 : (⟨S50000x128, .f32⟩ : BufTy).Contents (Elt Ideal)) (w7 : (⟨S128x128, .f32⟩ : BufTy).Contents (Elt Ideal)) : Cert.ReferenceIdeal.Read.val_main_v51 (F := Ideal) x0 w7 = matProd x0 w7 := refDot_eq x0 w7

/-! ## The two results, over any arrays -/

/-- The item output: band 1 of the item projection is x_item * w_rates_tgt, band 0 of the user projection is
    x_user * w_rates_src, the mean is the one chain, and scaling by 1 is dividing by 1. -/
theorem item_bridge (x0 x1 : (⟨S50000x128, .f32⟩ : BufTy).Contents (Elt Ideal)) (w2 w3 w4 w5 w6 w7 : (⟨S128x128, .f32⟩ : BufTy).Contents (Elt Ideal)) (e8 : (⟨S2x600000, .i32⟩ : BufTy).Contents (Elt Ideal)) :
    itemOutAll (extractStridedSlice S50000x128 ![0, 128] (itemProjAll x1 (concatenate S128x256 1 [⟨S128x128, w4⟩, ⟨S128x128, w3⟩] concatenates_S128x128_S128x128_S128x256_d1)) slices_S50000x256_S50000x128_0_128)
        (segMean (F := Ideal) (extractStridedSlice S50000x128 ![0, 0] (userProjAll x0 (concatenate S128x512 1 [⟨S128x128, w2⟩, ⟨S128x128, w5⟩, ⟨S128x128, w6⟩, ⟨S128x128, w7⟩] concatenates_S128x128_S128x128_S128x128_S128x128_S128x512_d1)) slices_S50000x512_S50000x128_0_0) e8)
      = Cert.ReferenceIdeal.Read.val_main_v83 (F := Ideal) x0 x1 w2 w3 e8 := by
  rw [itemBand x1 w4 w3 1 128 rfl _ _, userBand x0 w2 w5 w6 w7 0 0 rfl _ _]
  show itemOutAll (matProd x1 w3) (segMean (F := Ideal) (matProd x0 w2) e8) = _
  unfold Cert.ReferenceIdeal.Read.val_main_v83 Cert.ReferenceIdeal.Read.val_main_v82 Cert.ReferenceIdeal.Read.val_main_v81 Cert.ReferenceIdeal.Read.val_main_v24
  rw [refMean_rates, ref_ratesSrc, ref_ratesTgt]
  funext i
  show max (max ((matProd x1 w3 i + segMean (F := Ideal) (matProd x0 w2) e8 i) * Ideal.ofBits .f32 0x3F800000#32)
        (Ideal.ofBits .f32 0x00000000#32)) (Ideal.ofBits .f32 0x00000000#32)
    = max (max (Ideal.div (matProd x1 w3 i + segMean (F := Ideal) (matProd x0 w2) e8 i) (Ideal.ofBits .f32 0x3F800000#32))
        (Ideal.ofBits .f32 0x00000000#32)) (Ideal.ofBits .f32 0x00000000#32)
  rw [Cert.Laws.mul_one_eq_div_one]

/-- The user output: bands 1, 3 and 2 of the user projection are x_user times w_rated_tgt, w_follows_tgt and w_follows_src,
    band 0 of the item projection is x_item * w_rated_src, the two means are the one chain, four terms in a row are two
    pairs, and scaling by 1/2 is dividing by 2. -/
theorem user_bridge (x0 x1 : (⟨S50000x128, .f32⟩ : BufTy).Contents (Elt Ideal)) (w2 w3 w4 w5 w6 w7 : (⟨S128x128, .f32⟩ : BufTy).Contents (Elt Ideal)) (e9 e10 : (⟨S2x600000, .i32⟩ : BufTy).Contents (Elt Ideal)) :
    userOutAll (extractStridedSlice S50000x128 ![0, 128] (userProjAll x0 (concatenate S128x512 1 [⟨S128x128, w2⟩, ⟨S128x128, w5⟩, ⟨S128x128, w6⟩, ⟨S128x128, w7⟩] concatenates_S128x128_S128x128_S128x128_S128x128_S128x512_d1)) slices_S50000x512_S50000x128_0_128)
        (segMean (F := Ideal) (extractStridedSlice S50000x128 ![0, 0] (itemProjAll x1 (concatenate S128x256 1 [⟨S128x128, w4⟩, ⟨S128x128, w3⟩] concatenates_S128x128_S128x128_S128x256_d1)) slices_S50000x256_S50000x128_0_0) e9)
        (extractStridedSlice S50000x128 ![0, 384] (userProjAll x0 (concatenate S128x512 1 [⟨S128x128, w2⟩, ⟨S128x128, w5⟩, ⟨S128x128, w6⟩, ⟨S128x128, w7⟩] concatenates_S128x128_S128x128_S128x128_S128x128_S128x512_d1)) slices_S50000x512_S50000x128_0_384)
        (segMean (F := Ideal) (extractStridedSlice S50000x128 ![0, 256] (userProjAll x0 (concatenate S128x512 1 [⟨S128x128, w2⟩, ⟨S128x128, w5⟩, ⟨S128x128, w6⟩, ⟨S128x128, w7⟩] concatenates_S128x128_S128x128_S128x128_S128x128_S128x512_d1)) slices_S50000x512_S50000x128_0_256) e10)
      = Cert.ReferenceIdeal.Read.val_main_v79 (F := Ideal) x0 x1 w4 w5 w6 w7 e9 e10 := by
  rw [userBand x0 w2 w5 w6 w7 1 128 rfl _ _, userBand x0 w2 w5 w6 w7 3 384 rfl _ _, userBand x0 w2 w5 w6 w7 2 256 rfl _ _,
    itemBand x1 w4 w3 0 0 rfl _ _]
  show userOutAll (matProd x0 w5) (segMean (F := Ideal) (matProd x1 w4) e9) (matProd x0 w7) (segMean (F := Ideal) (matProd x0 w6) e10) = _
  unfold Cert.ReferenceIdeal.Read.val_main_v79 Cert.ReferenceIdeal.Read.val_main_v78 Cert.ReferenceIdeal.Read.val_main_v77 Cert.ReferenceIdeal.Read.val_main_v75 Cert.ReferenceIdeal.Read.val_main_v49 Cert.ReferenceIdeal.Read.val_main_v74
  rw [refMean_rated, refMean_follows, ref_ratedSrc, ref_ratedTgt, ref_followsSrc, ref_followsTgt]
  funext i
  show max (max ((((matProd x0 w5 i + segMean (F := Ideal) (matProd x1 w4) e9 i) + matProd x0 w7 i)
          + segMean (F := Ideal) (matProd x0 w6) e10 i) * Ideal.ofBits .f32 0x3F000000#32)
        (Ideal.ofBits .f32 0x00000000#32)) (Ideal.ofBits .f32 0x00000000#32)
    = max (max (Ideal.div ((matProd x0 w5 i + segMean (F := Ideal) (matProd x1 w4) e9 i)
          + (matProd x0 w7 i + segMean (F := Ideal) (matProd x0 w6) e10 i)) (Ideal.ofBits .f32 0x40000000#32))
        (Ideal.ofBits .f32 0x00000000#32)) (Ideal.ofBits .f32 0x00000000#32)
  rw [Cert.Laws.sum_four, Cert.Laws.mul_half_eq_div_two]

/-! ## The two results, at the kernel's launch memory -/

variable (m : (ℓ : Loc nD τ sig) → Buf (Elt Ideal) ℓ)

theorem kernelItem_eq (c : Dev nD) :
    kernelItem m c = Cert.ReferenceIdeal.Read.val_main_v83 (F := Ideal) (m ((c : Thread nD τ).loc main_arg0)) (m ((c : Thread nD τ).loc main_arg1))
      (m ((c : Thread nD τ).loc main_arg2)) (m ((c : Thread nD τ).loc main_arg3)) (m ((c : Thread nD τ).loc main_arg8)) := by
  unfold kernelItem itemP userP itemW userW
  exact item_bridge _ _ _ _ _ (m ((c : Thread nD τ).loc main_arg5)) (m ((c : Thread nD τ).loc main_arg6)) (m ((c : Thread nD τ).loc main_arg7)) _

theorem kernelUser_eq (c : Dev nD) :
    kernelUser m c = Cert.ReferenceIdeal.Read.val_main_v79 (F := Ideal) (m ((c : Thread nD τ).loc main_arg0)) (m ((c : Thread nD τ).loc main_arg1))
      (m ((c : Thread nD τ).loc main_arg4)) (m ((c : Thread nD τ).loc main_arg5)) (m ((c : Thread nD τ).loc main_arg6))
      (m ((c : Thread nD τ).loc main_arg7)) (m ((c : Thread nD τ).loc main_arg9)) (m ((c : Thread nD τ).loc main_arg10)) := by
  unfold kernelUser itemP userP itemW userW
  exact user_bridge _ _ (m ((c : Thread nD τ).loc main_arg2)) (m ((c : Thread nD τ).loc main_arg3)) _ _ _ _ _ _

end Cert.Bridge

end
-- ==== Proof.lean ====
/-
  The certificate of kernel j59854664237622 (attempt 1) against its reference: a two-type message-passing layer over three
  relations ("rates": user -> item; "rated by": item -> user; "follows": user -> user).
  Both programs compute, for each target node, its own linear projection plus the mean over its incoming edges of the source
  nodes' projections, summed over the relations that reach its type, divided by the number of those relations, and floored
  at zero twice.
  The kernel groups the six 128 x 128 weight matrices into two wide ones and forms x_user * W_user (512 columns) and
  x_item * W_item (256 columns) in two pipelined regions, cuts them into 128-column bands on the host, gathers and
  scatter-adds on the host exactly as the reference does, and combines in two more pipelined regions: (a + b) * 1 for items,
  (((a + b) + c) + d) * 1/2 for users. The reference forms six separate products, adds pairs, and divides by 1 and by 2.
  At the ideal instance (extended reals, exact operations, bf16 rounding the identity) the two are one function of the
  arguments: a band of a grouped product is the product with that band's matrix; the means are one chain of host
  operations applied to equal arrays; scaling by a constant is dividing by its reciprocal; four terms in a row are two
  pairs. None of this uses that the inputs are finite, so the precondition is never opened.
  The frames: each kernel program is run as six segments (a stretch of two host operations, two regions, a stretch of
  ninety, two regions); every region stores its whole output block from its input blocks, owes nothing and has no
  semaphore of its own; no step writes an argument. The reference is a host program, run by its generated run.
  Nothing of the kernel as printed (the word-level instance) is needed beyond its frame: the ideal pass rewrote nothing.
-/
import proofs.«124944_j59854664237622_1_alg».proof.Defs
import proofs.«124944_j59854664237622_1_alg».proof.Proof.Gen.Kernel
import proofs.«124944_j59854664237622_1_alg».proof.Proof.Gen.KernelIdeal
import proofs.«124944_j59854664237622_1_alg».proof.Proof.Gen.ReferenceIdeal
import proofs.«124944_j59854664237622_1_alg».proof.Proof.Gen.ReferenceIdeal.Run
import proofs.«124944_j59854664237622_1_alg».proof.Proof.Gen.ReferenceIdeal.Read
import proofs.«124944_j59854664237622_1_alg».proof.Proof.Gen.Pre_finite_inputs
import proofs.«124944_j59854664237622_1_alg».proof.Proof.Bits.Frame
import proofs.«124944_j59854664237622_1_alg».proof.Proof.Bridge
import Idealize.ShloMosaic.Adequacy
import Idealize.ShloMosaic.Init

noncomputable section

namespace Cert.Proof

open Idealize.ShloMosaic Idealize.SL.Sem

/-- The kernel as printed runs to the end, faults nowhere and leaves its eleven arguments as launched. -/
theorem frame_kernel : Cert.frame_Kernel := fun m ρ _ => Cert.Kernel.Regions.frame m ρ

/-- So does its idealization. -/
theorem frame_kernelIdeal : Cert.frame_KernelIdeal := fun m ρ _ => Cert.KernelIdeal.Regions.frame m ρ

/-- The reference is a host program: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote no operation of the kernel. -/
theorem preserves : Cert.preserves_Kernel_KernelIdeal := trivial

/-- From memories that agree on the arguments, both idealized programs end with the same user output and the same item
    output: the kernel's closed values, which the reference's stages equal. -/
theorem algebraic : Cert.algebraic_KernelIdeal_ReferenceIdeal := by
  intro m ρ m' ρ' _ hagree
  refine ⟨fun c => Cert.KernelIdeal.Values.kernelUser m c, fun c => Cert.KernelIdeal.Values.kernelItem m c,
    Cert.KernelIdeal.Values.run_value m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨a0, a1, a2, a3, a4, a5, a6, a7, a8, a9, a10⟩ := hagree c
    rw [Cert.ReferenceIdeal.Read.val_main_v79_eq, a0, a1, a4, a5, a6, a7, a9, a10]
    exact (Cert.Bridge.kernelUser_eq m c).symm
  · obtain ⟨a0, a1, a2, a3, a4, a5, a6, a7, a8, a9, a10⟩ := hagree c
    refine (Cert.ReferenceIdeal.Read.val_main_v83_eq _ _ _ _ _).trans ?_
    rw [a0, a1, a2, a3, a8]
    exact (Cert.Bridge.kernelItem_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
